-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x512 : Shape := ⟨3, ![512, 16, 512]⟩
abbrev S2x40960 : Shape := ⟨2, ![2, 40960]⟩
abbrev S1x40960 : Shape := ⟨2, ![1, 40960]⟩
abbrev S8192x5 : Shape := ⟨2, ![8192, 5]⟩
abbrev S8192x1 : Shape := ⟨2, ![8192, 1]⟩
abbrev S512x16 : Shape := ⟨2, ![512, 16]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S_ : Shape := ⟨0, ![]⟩
abbrev S40960 : Shape := ⟨1, ![40960]⟩

class Facts : Prop where
  bcast_S_S512x16x512 : S_.BroadcastsInDim S512x16x512 (![] : Fin 0 → Fin S512x16x512.rank)
  reducesTo_S512x16x512_S_d0_1_2 : S512x16x512.ReducesTo [0, 1, 2] S_
  h_S_ : 0 < S_.numel
  bcast_S_S8192x5 : S_.BroadcastsInDim S8192x5 (![] : Fin 0 → Fin S8192x5.rank)
  reducesTo_S8192x5_S_d0_1 : S8192x5.ReducesTo [0, 1] S_
  bcast_S_S8192x1 : S_.BroadcastsInDim S8192x1 (![] : Fin 0 → Fin S8192x1.rank)
  reducesTo_S8192x1_S_d0_1 : S8192x1.ReducesTo [0, 1] S_
  bcast_S_S512x16 : S_.BroadcastsInDim S512x16 (![] : Fin 0 → Fin S512x16.rank)
  reducesTo_S512x16_S_d0_1 : S512x16.ReducesTo [0, 1] S_
  bcast_S_S512x512 : S_.BroadcastsInDim S512x512 (![] : Fin 0 → Fin S512x512.rank)
  reducesTo_S512x512_S_d0_1 : S512x512.ReducesTo [0, 1] S_
  bcast_S_S64x512 : S_.BroadcastsInDim S64x512 (![] : Fin 0 → Fin S64x512.rank)
  reducesTo_S64x512_S_d0_1 : S64x512.ReducesTo [0, 1] S_
  bcast_S_S512x1 : S_.BroadcastsInDim S512x1 (![] : Fin 0 → Fin S512x1.rank)
  reducesTo_S512x1_S_d0_1 : S512x1.ReducesTo [0, 1] S_
  bcast_S_S64x1 : S_.BroadcastsInDim S64x1 (![] : Fin 0 → Fin S64x1.rank)
  reducesTo_S64x1_S_d0_1 : S64x1.ReducesTo [0, 1] S_
  slices_S2x40960_S1x40960_0_0 : S2x40960.Slices ![0, 0] S1x40960
  shapeCasts_S1x40960_S40960 : S1x40960.ShapeCasts S40960
  bcast_S_S40960 : S_.BroadcastsInDim S40960 (![] : Fin 0 → Fin S40960.rank)
  slices_S2x40960_S1x40960_1_0 : S2x40960.Slices ![1, 0] S1x40960
  reducesTo_S40960_S_d0 : S40960.ReducesTo [0] S_
  bcast_S_S1x40960 : S_.BroadcastsInDim S1x40960 (![] : Fin 0 → Fin S1x40960.rank)
  reducesTo_S1x40960_S_d0_1 : S1x40960.ReducesTo [0, 1] S_

variable [Facts]

def fn_part6 {F : FTy → Type} [FloatOps F] (main_arg4 : IVec S1x40960 32) (main_v103 : IVec S_ 1) : IVec S_ 1 :=
  let main_c_38 : IVec S_ 32 := constantI S_ 32 0#32
  let main_v104 : IVec S1x40960 32 := broadcastInDim S1x40960 ![] bcast_S_S1x40960 main_c_38
  let main_v105 : IVec S1x40960 1 := cmpi .sge main_arg4 main_v104
  let main_c_39 : IVec S_ 1 := constantI S_ 1 1#1
  let main_v106 : IVec S_ 1 := (fun x v => Host.reduce IntOp.andi x v reducesTo_S1x40960_S_d0_1 h_S_) main_v105 main_c_39
  let main_v107 : IVec S_ 1 := andi main_v103 main_v106
  let main_c_40 : IVec S_ 32 := constantI S_ 32 64#32
  let main_v108 : IVec S1x40960 32 := broadcastInDim S1x40960 ![] bcast_S_S1x40960 main_c_40
  let main_v109 : IVec S1x40960 1 := cmpi .slt main_arg4 main_v108
  let main_c_41 : IVec S_ 1 := constantI S_ 1 1#1
  let main_v110 : IVec S_ 1 := (fun x v => Host.reduce IntOp.andi x v reducesTo_S1x40960_S_d0_1 h_S_) main_v109 main_c_41
  let main_v111 : IVec S_ 1 := andi main_v107 main_v110
  main_v111

def fn_part5 {F : FTy → Type} [FloatOps F] (main_arg2 : IVec S2x40960 32) (main_arg3 : IVec S1x40960 32) (main_arg4 : IVec S1x40960 32) (main_v84 : IVec S_ 1) (main_v86 : IVec S40960 32) : IVec S_ 1 :=
  let main_c_31 : IVec S_ 32 := constantI S_ 32 512#32
  let main_v87 : IVec S40960 32 := broadcastInDim S40960 ![] bcast_S_S40960 main_c_31
  let main_v88 : IVec S40960 32 := muli main_v86 main_v87
  let main_v89 : IVec S1x40960 32 := (extractStridedSlice S1x40960 ![1, 0] · slices_S2x40960_S1x40960_1_0) main_arg2
  let main_v90 : IVec S40960 32 := shapeCast S40960 main_v89 shapeCasts_S1x40960_S40960
  let main_v91 : IVec S40960 32 := addi main_v88 main_v90
  let main_c_32 : IVec S_ 32 := constantI S_ 32 0#32
  let main_v92 : IVec S40960 32 := broadcastInDim S40960 ![] bcast_S_S40960 main_c_32
  let main_v93 : IVec S40960 1 := cmpi .sge main_v91 main_v92
  let main_c_33 : IVec S_ 1 := constantI S_ 1 1#1
  let main_v94 : IVec S_ 1 := (fun x v => Host.reduce IntOp.andi x v reducesTo_S40960_S_d0 h_S_) main_v93 main_c_33
  let main_v95 : IVec S_ 1 := andi main_v84 main_v94
  let main_c_34 : IVec S_ 32 := constantI S_ 32 0#32
  let main_v96 : IVec S1x40960 32 := broadcastInDim S1x40960 ![] bcast_S_S1x40960 main_c_34
  let main_v97 : IVec S1x40960 1 := cmpi .sge main_arg3 main_v96
  let main_c_35 : IVec S_ 1 := constantI S_ 1 1#1
  let main_v98 : IVec S_ 1 := (fun x v => Host.reduce IntOp.andi x v reducesTo_S1x40960_S_d0_1 h_S_) main_v97 main_c_35
  let main_v99 : IVec S_ 1 := andi main_v95 main_v98
  let main_c_36 : IVec S_ 32 := constantI S_ 32 64#32
  let main_v100 : IVec S1x40960 32 := broadcastInDim S1x40960 ![] bcast_S_S1x40960 main_c_36
  let main_v101 : IVec S1x40960 1 := cmpi .slt main_arg3 main_v100
  let main_c_37 : IVec S_ 1 := constantI S_ 1 1#1
  let main_v102 : IVec S_ 1 := (fun x v => Host.reduce IntOp.andi x v reducesTo_S1x40960_S_d0_1 h_S_) main_v101 main_c_37
  let main_v103 : IVec S_ 1 := andi main_v99 main_v102
  fn_part6 (F := F) main_arg4 main_v103

def fn_part4 {F : FTy → Type} [FloatOps F] (main_arg1 : IVec S2x40960 32) (main_arg2 : IVec S2x40960 32) (main_arg3 : IVec S1x40960 32) (main_arg4 : IVec S1x40960 32) (main_arg18 : FVec F S512x1 .f32) (main_v63 : IVec S_ 1) (main_v67 : IVec S_ 1) : IVec S_ 1 :=
  let main_v68 : IVec S_ 1 := andi main_v63 main_v67
  let main_v69 : FVec F S512x1 .f32 := Host.absf main_arg18
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : IVec S1x40960 32 := (extractStridedSlice S1x40960 ![0, 0] · slices_S2x40960_S1x40960_0_0) main_arg1
  let main_v75 : IVec S40960 32 := shapeCast S40960 main_v74 shapeCasts_S1x40960_S40960
  let main_c_28 : IVec S_ 32 := constantI S_ 32 512#32
  let main_v76 : IVec S40960 32 := broadcastInDim S40960 ![] bcast_S_S40960 main_c_28
  let main_v77 : IVec S40960 32 := muli main_v75 main_v76
  let main_v78 : IVec S1x40960 32 := (extractStridedSlice S1x40960 ![1, 0] · slices_S2x40960_S1x40960_1_0) main_arg1
  let main_v79 : IVec S40960 32 := shapeCast S40960 main_v78 shapeCasts_S1x40960_S40960
  let main_v80 : IVec S40960 32 := addi main_v77 main_v79
  let main_c_29 : IVec S_ 32 := constantI S_ 32 0#32
  let main_v81 : IVec S40960 32 := broadcastInDim S40960 ![] bcast_S_S40960 main_c_29
  let main_v82 : IVec S40960 1 := cmpi .sge main_v80 main_v81
  let main_c_30 : IVec S_ 1 := constantI S_ 1 1#1
  let main_v83 : IVec S_ 1 := (fun x v => Host.reduce IntOp.andi x v reducesTo_S40960_S_d0 h_S_) main_v82 main_c_30
  let main_v84 : IVec S_ 1 := andi main_v73 main_v83
  let main_v85 : IVec S1x40960 32 := (extractStridedSlice S1x40960 ![0, 0] · slices_S2x40960_S1x40960_0_0) main_arg2
  let main_v86 : IVec S40960 32 := shapeCast S40960 main_v85 shapeCasts_S1x40960_S40960
  fn_part5 (F := F) main_arg2 main_arg3 main_arg4 main_v84 main_v86

def fn_part3 {F : FTy → Type} [FloatOps F] (main_arg1 : IVec S2x40960 32) (main_arg2 : IVec S2x40960 32) (main_arg3 : IVec S1x40960 32) (main_arg4 : IVec S1x40960 32) (main_arg15 : FVec F S512x1 .f32) (main_arg16 : FVec F S64x1 .f32) (main_arg17 : FVec F S512x512 .f32) (main_arg18 : FVec F S512x1 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S512x1 .f32 := Host.absf main_arg15
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S64x1 .f32 := Host.absf main_arg16
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S512x512 .f32 := Host.absf main_arg17
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg1 main_arg2 main_arg3 main_arg4 main_arg18 main_v63 main_v67

def fn_part2 {F : FTy → Type} [FloatOps F] (main_arg1 : IVec S2x40960 32) (main_arg2 : IVec S2x40960 32) (main_arg3 : IVec S1x40960 32) (main_arg4 : IVec S1x40960 32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) (main_v33 : IVec S_ 1) : IVec S_ 1 :=
  let main_v34 : FVec F S512x1 .f32 := Host.absf main_arg11
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S64x1 .f32 := Host.absf main_arg12
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S512x512 .f32 := Host.absf main_arg13
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S64x512 .f32 := Host.absf main_arg14
  let main_cst_18 : FVec F S_ .f32 := constant S_ .f32 0x7F800000#32
  let main_v50 : FVec F S64x512 .f32 := broadcastInDim S64x512 ![] bcast_S_S64x512 main_cst_18
  fn_part3 (F := F) main_arg1 main_arg2 main_arg3 main_arg4 main_arg15 main_arg16 main_arg17 main_arg18 main_v48 main_v49 main_v50

def fn_part1 {F : FTy → Type} [FloatOps F] (main_arg1 : IVec S2x40960 32) (main_arg2 : IVec S2x40960 32) (main_arg3 : IVec S1x40960 32) (main_arg4 : IVec S1x40960 32) (main_arg8 : FVec F S512x16 .f32) (main_arg9 : FVec F S512x512 .f32) (main_arg10 : FVec F S64x512 .f32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S512x16 .f32 := Host.absf main_arg8
  let main_cst_6 : FVec F S_ .f32 := constant S_ .f32 0x7F800000#32
  let main_v20 : FVec F S512x16 .f32 := broadcastInDim S512x16 ![] bcast_S_S512x16 main_cst_6
  let main_v21 : IVec S512x16 1 := cmpf .olt main_v19 main_v20
  let main_c_7 : IVec S_ 1 := constantI S_ 1 1#1
  let main_v22 : IVec S_ 1 := (fun x v => Host.reduce IntOp.andi x v reducesTo_S512x16_S_d0_1 h_S_) main_v21 main_c_7
  let main_v23 : IVec S_ 1 := andi main_v18 main_v22
  let main_v24 : FVec F S512x512 .f32 := Host.absf main_arg9
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S64x512 .f32 := Host.absf main_arg10
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg1 main_arg2 main_arg3 main_arg4 main_arg11 main_arg12 main_arg13 main_arg14 main_arg15 main_arg16 main_arg17 main_arg18 main_v33

def fn {F : FTy → Type} [FloatOps F] (main_arg0 : FVec F S512x16x512 .f32) (main_arg1 : IVec S2x40960 32) (main_arg2 : IVec S2x40960 32) (main_arg3 : IVec S1x40960 32) (main_arg4 : IVec S1x40960 32) (main_arg5 : FVec F S8192x5 .f32) (main_arg6 : FVec F S8192x5 .f32) (main_arg7 : FVec F S8192x1 .f32) (main_arg8 : FVec F S512x16 .f32) (main_arg9 : FVec F S512x512 .f32) (main_arg10 : FVec F S64x512 .f32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) : IVec S_ 1 :=
  let main_v0 : FVec F S512x16x512 .f32 := Host.absf main_arg0
  let main_cst : FVec F S_ .f32 := constant S_ .f32 0x7F800000#32
  let main_v1 : FVec F S512x16x512 .f32 := broadcastInDim S512x16x512 ![] bcast_S_S512x16x512 main_cst
  let main_v2 : IVec S512x16x512 1 := cmpf .olt main_v0 main_v1
  let main_c : IVec S_ 1 := constantI S_ 1 1#1
  let main_v3 : IVec S_ 1 := (fun x v => Host.reduce IntOp.andi x v reducesTo_S512x16x512_S_d0_1_2 h_S_) main_v2 main_c
  let main_v4 : FVec F S8192x5 .f32 := Host.absf main_arg5
  let main_cst_0 : FVec F S_ .f32 := constant S_ .f32 0x7F800000#32
  let main_v5 : FVec F S8192x5 .f32 := broadcastInDim S8192x5 ![] bcast_S_S8192x5 main_cst_0
  let main_v6 : IVec S8192x5 1 := cmpf .olt main_v4 main_v5
  let main_c_1 : IVec S_ 1 := constantI S_ 1 1#1
  let main_v7 : IVec S_ 1 := (fun x v => Host.reduce IntOp.andi x v reducesTo_S8192x5_S_d0_1 h_S_) main_v6 main_c_1
  let main_v8 : IVec S_ 1 := andi main_v3 main_v7
  let main_v9 : FVec F S8192x5 .f32 := Host.absf main_arg6
  let main_cst_2 : FVec F S_ .f32 := constant S_ .f32 0x7F800000#32
  let main_v10 : FVec F S8192x5 .f32 := broadcastInDim S8192x5 ![] bcast_S_S8192x5 main_cst_2
  let main_v11 : IVec S8192x5 1 := cmpf .olt main_v9 main_v10
  let main_c_3 : IVec S_ 1 := constantI S_ 1 1#1
  let main_v12 : IVec S_ 1 := (fun x v => Host.reduce IntOp.andi x v reducesTo_S8192x5_S_d0_1 h_S_) main_v11 main_c_3
  let main_v13 : IVec S_ 1 := andi main_v8 main_v12
  let main_v14 : FVec F S8192x1 .f32 := Host.absf main_arg7
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg1 main_arg2 main_arg3 main_arg4 main_arg8 main_arg9 main_arg10 main_arg11 main_arg12 main_arg13 main_arg14 main_arg15 main_arg16 main_arg17 main_arg18 main_v13 main_v16
-- ==== Kernel.lean ====
abbrev S512x16x512 : Shape := ⟨3, ![512, 16, 512]⟩
abbrev S2x40960 : Shape := ⟨2, ![2, 40960]⟩
abbrev S1x40960 : Shape := ⟨2, ![1, 40960]⟩
abbrev S8192x5 : Shape := ⟨2, ![8192, 5]⟩
abbrev S8192x1 : Shape := ⟨2, ![8192, 1]⟩
abbrev S512x16 : Shape := ⟨2, ![512, 16]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S16x512x512 : Shape := ⟨3, ![16, 512, 512]⟩
abbrev S8192x512 : Shape := ⟨2, ![8192, 512]⟩
abbrev S512x1536 : Shape := ⟨2, ![512, 1536]⟩
abbrev S512x3 : Shape := ⟨2, ![512, 3]⟩
abbrev S_ : Shape := ⟨0, ![]⟩
abbrev S512x128 : Shape := ⟨2, ![512, 128]⟩
abbrev S512x1664 : Shape := ⟨2, ![512, 1664]⟩
abbrev S8192x1536 : Shape := ⟨2, ![8192, 1536]⟩
abbrev S8192x128 : Shape := ⟨2, ![8192, 128]⟩
abbrev S1024x512 : Shape := ⟨2, ![1024, 512]⟩
abbrev S1024x1536 : Shape := ⟨2, ![1024, 1536]⟩
abbrev S1024x128 : Shape := ⟨2, ![1024, 128]⟩
abbrev S1024x1664 : Shape := ⟨2, ![1024, 1664]⟩
abbrev S8192 : Shape := ⟨1, ![8192]⟩
abbrev S40960 : Shape := ⟨1, ![40960]⟩
abbrev S40960x1 : Shape := ⟨2, ![40960, 1]⟩
abbrev S40960x512 : Shape := ⟨2, ![40960, 512]⟩
abbrev S8192x2560 : Shape := ⟨2, ![8192, 2560]⟩
abbrev S16x512 : Shape := ⟨2, ![16, 512]⟩
abbrev S1x64 : Shape := ⟨2, ![1, 64]⟩
abbrev S512x2560 : Shape := ⟨2, ![512, 2560]⟩
abbrev S512x5 : Shape := ⟨2, ![512, 5]⟩
abbrev S512x64 : Shape := ⟨2, ![512, 64]⟩
abbrev S512 : Shape := ⟨1, ![512]⟩

abbrev nBuf : Space → Nat
  | .hbm => 78
  | .vmem => 37
  | .smem => 0
  | _ => 0

abbrev bufTy : (tb : Table) → Fin (tcTables nBuf tb) → BufTy
  | .hbm, ⟨0, _⟩ => ⟨S512x16x512, .f32⟩
  | .hbm, ⟨1, _⟩ => ⟨S2x40960, .i32⟩
  | .hbm, ⟨2, _⟩ => ⟨S2x40960, .i32⟩
  | .hbm, ⟨3, _⟩ => ⟨S1x40960, .i32⟩
  | .hbm, ⟨4, _⟩ => ⟨S1x40960, .i32⟩
  | .hbm, ⟨5, _⟩ => ⟨S8192x5, .f32⟩
  | .hbm, ⟨6, _⟩ => ⟨S8192x5, .f32⟩
  | .hbm, ⟨7, _⟩ => ⟨S8192x1, .f32⟩
  | .hbm, ⟨8, _⟩ => ⟨S512x16, .f32⟩
  | .hbm, ⟨9, _⟩ => ⟨S512x512, .f32⟩
  | .hbm, ⟨10, _⟩ => ⟨S64x512, .f32⟩
  | .hbm, ⟨11, _⟩ => ⟨S512x1, .f32⟩
  | .hbm, ⟨12, _⟩ => ⟨S64x1, .f32⟩
  | .hbm, ⟨13, _⟩ => ⟨S512x512, .f32⟩
  | .hbm, ⟨14, _⟩ => ⟨S64x512, .f32⟩
  | .hbm, ⟨15, _⟩ => ⟨S512x1, .f32⟩
  | .hbm, ⟨16, _⟩ => ⟨S64x1, .f32⟩
  | .hbm, ⟨17, _⟩ => ⟨S512x512, .f32⟩
  | .hbm, ⟨18, _⟩ => ⟨S512x1, .f32⟩
  | .hbm, ⟨19, _⟩ => ⟨S16x512x512, .f32⟩
  | .hbm, ⟨20, _⟩ => ⟨S8192x512, .f32⟩
  | .hbm, ⟨21, _⟩ => ⟨S8192x512, .bf16⟩
  | .hbm, ⟨22, _⟩ => ⟨S512x1536, .f32⟩
  | .hbm, ⟨23, _⟩ => ⟨S512x3, .f32⟩
  | .hbm, ⟨24, _⟩ => ⟨S_, .i32⟩
  | .hbm, ⟨25, _⟩ => ⟨S_, .f32⟩
  | .hbm, ⟨26, _⟩ => ⟨S512x128, .f32⟩
  | .hbm, ⟨27, _⟩ => ⟨S512x1664, .f32⟩
  | .hbm, ⟨28, _⟩ => ⟨S512x1664, .bf16⟩
  | .hbm, ⟨29, _⟩ => ⟨S8192x1536, .bf16⟩
  | .hbm, ⟨30, _⟩ => ⟨S8192x128, .f32⟩
  | .hbm, ⟨31, _⟩ => ⟨S8192x512, .bf16⟩
  | .hbm, ⟨32, _⟩ => ⟨S8192x512, .bf16⟩
  | .hbm, ⟨33, _⟩ => ⟨S8192x512, .bf16⟩
  | .hbm, ⟨34, _⟩ => ⟨S8192x1, .f32⟩
  | .hbm, ⟨35, _⟩ => ⟨S8192, .f32⟩
  | .hbm, ⟨36, _⟩ => ⟨S8192x1, .f32⟩
  | .hbm, ⟨37, _⟩ => ⟨S8192, .f32⟩
  | .hbm, ⟨38, _⟩ => ⟨S8192x1, .f32⟩
  | .hbm, ⟨39, _⟩ => ⟨S1x40960, .i32⟩
  | .hbm, ⟨40, _⟩ => ⟨S40960, .i32⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S1x40960, .i32⟩
  | .hbm, ⟨45, _⟩ => ⟨S40960, .i32⟩
  | .hbm, ⟨46, _⟩ => ⟨S40960, .i32⟩
  | .hbm, ⟨47, _⟩ => ⟨S1x40960, .i32⟩
  | .hbm, ⟨48, _⟩ => ⟨S40960, .i32⟩
  | .hbm, ⟨49, _⟩ => ⟨S_, .i32⟩
  | .hbm, ⟨50, _⟩ => ⟨S40960, .i32⟩
  | .hbm, ⟨51, _⟩ => ⟨S40960, .i32⟩
  | .hbm, ⟨52, _⟩ => ⟨S1x40960, .i32⟩
  | .hbm, ⟨53, _⟩ => ⟨S40960, .i32⟩
  | .hbm, ⟨54, _⟩ => ⟨S40960, .i32⟩
  | .hbm, ⟨55, _⟩ => ⟨S40960x1, .i32⟩
  | .hbm, ⟨56, _⟩ => ⟨S40960x512, .bf16⟩
  | .hbm, ⟨57, _⟩ => ⟨S8192x2560, .bf16⟩
  | .hbm, ⟨58, _⟩ => ⟨S40960x1, .i32⟩
  | .hbm, ⟨59, _⟩ => ⟨S40960x512, .bf16⟩
  | .hbm, ⟨60, _⟩ => ⟨S8192x2560, .bf16⟩
  | .hbm, ⟨61, _⟩ => ⟨S40960x1, .i32⟩
  | .hbm, ⟨62, _⟩ => ⟨S40960, .f32⟩
  | .hbm, ⟨63, _⟩ => ⟨S8192x5, .f32⟩
  | .hbm, ⟨64, _⟩ => ⟨S40960x1, .i32⟩
  | .hbm, ⟨65, _⟩ => ⟨S40960, .f32⟩
  | .hbm, ⟨66, _⟩ => ⟨S8192x5, .f32⟩
  | .hbm, ⟨67, _⟩ => ⟨S40960, .i32⟩
  | .hbm, ⟨68, _⟩ => ⟨S8192x5, .i32⟩
  | .hbm, ⟨69, _⟩ => ⟨S40960, .i32⟩
  | .hbm, ⟨70, _⟩ => ⟨S8192x5, .i32⟩
  | .hbm, ⟨71, _⟩ => ⟨S16x512, .f32⟩
  | .hbm, ⟨72, _⟩ => ⟨S8192x1, .f32⟩
  | .hbm, ⟨73, _⟩ => ⟨S1x64, .f32⟩
  | .hbm, ⟨74, _⟩ => ⟨S1x64, .f32⟩
  | .hbm, ⟨75, _⟩ => ⟨S8192x512, .f32⟩
  | .hbm, ⟨76, _⟩ => ⟨S16x512x512, .f32⟩
  | .hbm, ⟨77, _⟩ => ⟨S512x16x512, .f32⟩
  | .local _ .vmem, ⟨0, _⟩ => ⟨S1024x512, .bf16⟩
  | .local _ .vmem, ⟨1, _⟩ => ⟨S1024x512, .bf16⟩
  | .local _ .vmem, ⟨2, _⟩ => ⟨S512x1664, .bf16⟩
  | .local _ .vmem, ⟨3, _⟩ => ⟨S1024x1536, .bf16⟩
  | .local _ .vmem, ⟨4, _⟩ => ⟨S1024x1536, .bf16⟩
  | .local _ .vmem, ⟨5, _⟩ => ⟨S1024x128, .f32⟩
  | .local _ .vmem, ⟨6, _⟩ => ⟨S1024x128, .f32⟩
  | .local _ .vmem, ⟨7, _⟩ => ⟨S512x2560, .bf16⟩
  | .local _ .vmem, ⟨8, _⟩ => ⟨S512x2560, .bf16⟩
  | .local _ .vmem, ⟨9, _⟩ => ⟨S512x2560, .bf16⟩
  | .local _ .vmem, ⟨10, _⟩ => ⟨S512x2560, .bf16⟩
  | .local _ .vmem, ⟨11, _⟩ => ⟨S512x512, .bf16⟩
  | .local _ .vmem, ⟨12, _⟩ => ⟨S512x512, .bf16⟩
  | .local _ .vmem, ⟨13, _⟩ => ⟨S512x5, .f32⟩
  | .local _ .vmem, ⟨14, _⟩ => ⟨S512x5, .f32⟩
  | .local _ .vmem, ⟨15, _⟩ => ⟨S512x5, .f32⟩
  | .local _ .vmem, ⟨16, _⟩ => ⟨S512x5, .f32⟩
  | .local _ .vmem, ⟨17, _⟩ => ⟨S512x1, .f32⟩
  | .local _ .vmem, ⟨18, _⟩ => ⟨S512x1, .f32⟩
  | .local _ .vmem, ⟨19, _⟩ => ⟨S512x5, .i32⟩
  | .local _ .vmem, ⟨20, _⟩ => ⟨S512x5, .i32⟩
  | .local _ .vmem, ⟨21, _⟩ => ⟨S512x5, .i32⟩
  | .local _ .vmem, ⟨22, _⟩ => ⟨S512x5, .i32⟩
  | .local _ .vmem, ⟨23, _⟩ => ⟨S512x5, .f32⟩
  | .local _ .vmem, ⟨24, _⟩ => ⟨S512x5, .f32⟩
  | .local _ .vmem, ⟨25, _⟩ => ⟨S512x5, .f32⟩
  | .local _ .vmem, ⟨26, _⟩ => ⟨S512x5, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S64x512, .f32⟩
  | .local _ .vmem, ⟨32, _⟩ => ⟨S64x512, .f32⟩
  | .local _ .vmem, ⟨33, _⟩ => ⟨S1x64, .f32⟩
  | .local _ .vmem, ⟨34, _⟩ => ⟨S1x64, .f32⟩
  | .local _ .vmem, ⟨35, _⟩ => ⟨S512x512, .f32⟩
  | .local _ .vmem, ⟨36, _⟩ => ⟨S512x512, .f32⟩
  | _, _ => ⟨S512x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_v31 : Ref sig .tc := ⟨.hbm, 56, rfl⟩
abbrev main_v32 : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_call3_v0 : Ref sig .tc := ⟨.hbm, 61, rfl⟩
abbrev main_v35 : Ref sig .tc := ⟨.hbm, 62, rfl⟩
abbrev main_v36 : Ref sig .tc := ⟨.hbm, 63, rfl⟩
abbrev main_call4_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg16_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem16_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x5 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x5 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x5 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x5 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S64x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S512x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  transposes_S512x16x512_S16x512x512_1_0_2 : S512x16x512.Transposes [1, 0, 2] S16x512x512
  shapeCasts_S16x512x512_S8192x512 : S16x512x512.ShapeCasts S8192x512
  bitsLt_bf16_f32 : FTy.bits .bf16 < FTy.bits .f32
  concatenates_S512x512_S512x512_S512x512_S512x1536_d1 : Shape.Concatenates [S512x512, S512x512, S512x512] S512x1536 1
  concatenates_S512x1_S512x1_S512x1_S512x3_d1 : Shape.Concatenates [S512x1, S512x1, S512x1] S512x3 1
  pads_S512x3_S512x128_000_01250 : S512x3.Pads (![0, 0] : Fin 2 → Nat) ![0, 125] ![0, 0] S512x128
  h_S_ : 0 < S_.numel
  concatenates_S512x1536_S512x128_S512x1664_d1 : Shape.Concatenates [S512x1536, S512x128] S512x1664 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1664_S512x1664_0_0 : ∀ a, (![0, 0] : Fin 2 → Nat) a + S512x1664.size a ≤ S512x1664.size a
  h_S512x1664 : 0 < S512x1664.numel
  shapeCasts_S512x1664_S512x1664 : S512x1664.ShapeCasts S512x1664
  slices_S1024x1664_o0_0_S1024x1536 : S1024x1664.Slices ![0, 0] S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  slices_S1024x1664_o0_1536_S1024x128 : S1024x1664.Slices ![0, 1536] S1024x128
  inb_S1024x128_S1024x128_0_0 : ∀ a, (![0, 0] : Fin 2 → Nat) a + S1024x128.size a ≤ S1024x128.size a
  h_S1024x128 : 0 < S1024x128.numel
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  slices_S8192x128_S8192x1_0_0 : S8192x128.Slices ![0, 0] S8192x1
  shapeCasts_S8192x1_S8192 : S8192x1.ShapeCasts S8192
  slices_S8192x128_S8192x1_0_1 : S8192x128.Slices ![0, 1] S8192x1
  slices_S8192x128_S8192x1_0_2 : S8192x128.Slices ![0, 2] S8192x1
  slices_S2x40960_S1x40960_0_0 : S2x40960.Slices ![0, 0] S1x40960
  shapeCasts_S1x40960_S40960 : S1x40960.ShapeCasts S40960
  bcast_S_S40960 : S_.BroadcastsInDim S40960 (![] : Fin 0 → Fin S40960.rank)
  slices_S2x40960_S1x40960_1_0 : S2x40960.Slices ![1, 0] S1x40960
  bcast_S40960_S40960x1_0 : S40960.BroadcastsInDim S40960x1 (![0] : Fin 1 → Fin S40960x1.rank)
  shapeCasts_S40960x512_S8192x2560 : S40960x512.ShapeCasts S8192x2560
  shapeCasts_S40960_S8192x5 : S40960.ShapeCasts S8192x5
  transposes_S512x16_S16x512_1_0 : S512x16.Transposes [1, 0] S16x512
  shapeCasts_S16x512_S8192x1 : S16x512.ShapeCasts S8192x1
  shapeCasts_S64x1_S1x64 : S64x1.ShapeCasts S1x64
  iota_S512x64_d1_w32 : S512x64.Iotas .tc 32 [1]
  inb_S64x512_S64x512_0_0 : ∀ a, (![0, 0] : Fin 2 → Nat) a + S64x512.size a ≤ S64x512.size a
  h_S64x512 : 0 < S64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x5_S512x1_0_0 : ∀ a, (![0, 0] : Fin 2 → Nat) a + S512x1.size a ≤ S512x5.size a
  h_S512x1 : 0 < S512x1.numel
  shapeCasts_S512x1_S512x1 : S512x1.ShapeCasts S512x1
  broadcasts_S512x1_S512x64 : S512x1.Broadcasts S512x64
  natLt_1_32 : 1 < 32
  broadcasts_S1x64_S512x64 : S1x64.Broadcasts S512x64
  reduces_S512x64_S512 : S512x64.Reduces [1] S512
  shapeCasts_S512_S512x1 : S512.ShapeCasts S512x1
  inb_S512x2560_S512x512_0_0 : ∀ a, (![0, 0] : Fin 2 → Nat) a + S512x512.size a ≤ S512x2560.size a
  h_S512x512 : 0 < S512x512.numel
  shapeCasts_S512x512_S512x512 : S512x512.ShapeCasts S512x512
  broadcasts_S512x1_S512x512 : S512x1.Broadcasts S512x512
  inb_S512x5_S512x1_0_1 : ∀ a, (![0, 1] : Fin 2 → Nat) a + S512x1.size a ≤ S512x5.size a
  inb_S512x2560_S512x512_0_512 : ∀ a, (![0, 512] : Fin 2 → Nat) a + S512x512.size a ≤ S512x2560.size a
  inb_S512x5_S512x1_0_2 : ∀ a, (![0, 2] : Fin 2 → Nat) a + S512x1.size a ≤ S512x5.size a
  inb_S512x2560_S512x512_0_1024 : ∀ a, (![0, 1024] : Fin 2 → Nat) a + S512x512.size a ≤ S512x2560.size a
  inb_S512x5_S512x1_0_3 : ∀ a, (![0, 3] : Fin 2 → Nat) a + S512x1.size a ≤ S512x5.size a
  inb_S512x2560_S512x512_0_1536 : ∀ a, (![0, 1536] : Fin 2 → Nat) a + S512x512.size a ≤ S512x2560.size a
  inb_S512x5_S512x1_0_4 : ∀ a, (![0, 4] : Fin 2 → Nat) a + S512x1.size a ≤ S512x5.size a
  inb_S512x2560_S512x512_0_2048 : ∀ a, (![0, 2048] : Fin 2 → Nat) a + S512x512.size a ≤ S512x2560.size a
  inb_S512x1_S512x1_0_0 : ∀ a, (![0, 0] : Fin 2 → Nat) a + S512x1.size a ≤ S512x1.size a
  inb_S512x512_S512x512_0_0 : ∀ a, (![0, 0] : Fin 2 → Nat) a + S512x512.size a ≤ S512x512.size a
  shapeCasts_S8192x512_S16x512x512 : S8192x512.ShapeCasts S16x512x512
  transposes_S16x512x512_S512x16x512_1_0_2 : S16x512x512.Transposes [1, 0, 2] S512x16x512
  dot_S1024x512_S512x1664_S1024x1664_1_0_0_1_n_n_wf : DotDims.WF S1024x512 S512x1664 S1024x1664 [1] [0] [0] [1] [] []
  gather_S8192x512_S40960x1_S40960x512_1_0_n_n_0_1_1512_wf : GatherDims.WF S8192x512 S40960x1 S40960x512 [1] [0] [] [0] [] 1 ![1, 512]
  gather_S8192_S40960x1_S40960_n_0_n_n_0_1_1_wf : GatherDims.WF S8192 S40960x1 S40960 [] [0] [] [0] [] 1 ![1]
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1664.size a ≤ S512x1664.size a
  hwx0_1 : ∀ i : grid0.Coords, EltTy.bits .bf16 = 32 ∨ (Rect.block (s := S512x1664) S512x1664.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S8192x1536.size a
  hwx0_2 : ∀ i : grid0.Coords, EltTy.bits .bf16 = 32 ∨ (Rect.block (s := S8192x1536) S1024x1536.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2560.size a ≤ S8192x2560.size a
  hwx1_0 : ∀ i : grid1.Coords, EltTy.bits .bf16 = 32 ∨ (Rect.block (s := S8192x2560) S512x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2560.size a ≤ S8192x2560.size a
  hwx1_1 : ∀ i : grid1.Coords, EltTy.bits .bf16 = 32 ∨ (Rect.block (s := S8192x2560) S512x2560.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x512.size a
  hwx1_2 : ∀ i : grid1.Coords, EltTy.bits .bf16 = 32 ∨ (Rect.block (s := S8192x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x5.size a ≤ S8192x5.size a
  hwx1_3 : ∀ i : grid1.Coords, EltTy.bits .f32 = 32 ∨ (Rect.block (s := S8192x5) S512x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x5.size a ≤ S8192x5.size a
  hwx1_4 : ∀ i : grid1.Coords, EltTy.bits .f32 = 32 ∨ (Rect.block (s := S8192x5) S512x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x5.size a ≤ S8192x5.size a
  hwx1_6 : ∀ i : grid1.Coords, EltTy.bits .i32 = 32 ∨ (Rect.block (s := S8192x5) S512x5.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x5.size a ≤ S8192x5.size a
  hwx1_7 : ∀ i : grid1.Coords, EltTy.bits .i32 = 32 ∨ (Rect.block (s := S8192x5) S512x5.size (cc1_transform_7 i) (hinb1_7 i)).WholeWords (EltTy.packing .i32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x5.size a ≤ S8192x5.size a
  hwx1_8 : ∀ i : grid1.Coords, EltTy.bits .f32 = 32 ∨ (Rect.block (s := S8192x5) S512x5.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x5.size a ≤ S8192x5.size a
  hwx1_9 : ∀ i : grid1.Coords, EltTy.bits .f32 = 32 ∨ (Rect.block (s := S8192x5) S512x5.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S8192x1.size a
  hwx1_10 : ∀ i : grid1.Coords, EltTy.bits .f32 = 32 ∨ (Rect.block (s := S8192x1) S512x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x1.size a ≤ S8192x1.size a
  hwx1_11 : ∀ i : grid1.Coords, EltTy.bits .f32 = 32 ∨ (Rect.block (s := S8192x1) S512x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x512.size a ≤ S64x512.size a
  hwx1_12 : ∀ i : grid1.Coords, EltTy.bits .f32 = 32 ∨ (Rect.block (s := S64x512) S64x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x512.size a ≤ S64x512.size a
  hwx1_13 : ∀ i : grid1.Coords, EltTy.bits .f32 = 32 ∨ (Rect.block (s := S64x512) S64x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x64.size a ≤ S1x64.size a
  hwx1_15 : ∀ i : grid1.Coords, EltTy.bits .f32 = 32 ∨ (Rect.block (s := S1x64) S1x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x512.size a ≤ S8192x512.size a
  hwx1_16 : ∀ i : grid1.Coords, EltTy.bits .f32 = 32 ∨ (Rect.block (s := S8192x512) S512x512.size (cc1_transform_16 i) (hinb1_16 i)).WholeWords (EltTy.packing .f32)

variable [Facts₀]

def dot_S1024x512_S512x1664_S1024x1664_1_0_0_1_n_n : DotDims S1024x512 S512x1664 S1024x1664 where
  lhsContracting := [1]
  rhsContracting := [0]
  lhsNonContracting := [0]
  rhsNonContracting := [1]
  lhsBatch := []
  rhsBatch := []
  wf := dot_S1024x512_S512x1664_S1024x1664_1_0_0_1_n_n_wf
def gather_S8192x512_S40960x1_S40960x512_1_0_n_n_0_1_1512 : GatherDims S8192x512 S40960x1 S40960x512 where
  offsetDims := [1]
  collapsedSliceDims := [0]
  operandBatchingDims := []
  startIndicesBatchingDims := []
  startIndexMap := [0]
  indexVectorDim := 1
  sliceSizes := ![1, 512]
  wf := gather_S8192x512_S40960x1_S40960x512_1_0_n_n_0_1_1512_wf
def gather_S8192_S40960x1_S40960_n_0_n_n_0_1_1 : GatherDims S8192 S40960x1 S40960 where
  offsetDims := []
  collapsedSliceDims := [0]
  operandBatchingDims := []
  startIndicesBatchingDims := []
  startIndexMap := [0]
  indexVectorDim := 1
  sliceSizes := ![1]
  wf := gather_S8192_S40960x1_S40960_n_0_n_n_0_1_1_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1664.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1024x1536.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S512x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S512x2560.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S512x5.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38) S512x5.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40) S512x5.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v42) S512x5.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg5) S512x5.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg6) S512x5.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_arg7) S512x1.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v44) S512x1.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_arg10) S64x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S64x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v45) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v46) S1x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v47) S512x512.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S512x16x512 : Shape := ⟨3, ![512, 16, 512]⟩
abbrev S2x40960 : Shape := ⟨2, ![2, 40960]⟩
abbrev S1x40960 : Shape := ⟨2, ![1, 40960]⟩
abbrev S8192x5 : Shape := ⟨2, ![8192, 5]⟩
abbrev S8192x1 : Shape := ⟨2, ![8192, 1]⟩
abbrev S512x16 : Shape := ⟨2, ![512, 16]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S16x512x512 : Shape := ⟨3, ![16, 512, 512]⟩
abbrev S8192x512 : Shape := ⟨2, ![8192, 512]⟩
abbrev S40960 : Shape := ⟨1, ![40960]⟩
abbrev S_ : Shape := ⟨0, ![]⟩
abbrev S40960x1 : Shape := ⟨2, ![40960, 1]⟩
abbrev S40960x512 : Shape := ⟨2, ![40960, 512]⟩
abbrev S16x512x5x512 : Shape := ⟨4, ![16, 512, 5, 512]⟩
abbrev S16x512x5 : Shape := ⟨3, ![16, 512, 5]⟩
abbrev S16x512x1x512 : Shape := ⟨4, ![16, 512, 1, 512]⟩
abbrev S16x512x1 : Shape := ⟨3, ![16, 512, 1]⟩
abbrev S16x512x11x512 : Shape := ⟨4, ![16, 512, 11, 512]⟩
abbrev S16x512x11 : Shape := ⟨3, ![16, 512, 11]⟩
abbrev S8192x11 : Shape := ⟨2, ![8192, 11]⟩
abbrev S8192x11x512 : Shape := ⟨3, ![8192, 11, 512]⟩
abbrev S8192x11x1 : Shape := ⟨3, ![8192, 11, 1]⟩
abbrev S16x512 : Shape := ⟨2, ![16, 512]⟩

abbrev nBuf : Space → Nat
  | .hbm => 157
  | .vmem => 0
  | .smem => 0
  | _ => 0

abbrev hbmTy0_0 (i : Nat) : BufTy := match i % 128 with
  | 0 => ⟨S512x16x512, .f32⟩
  | 1 => ⟨S2x40960, .i32⟩
  | 2 => ⟨S2x40960, .i32⟩
  | 3 => ⟨S1x40960, .i32⟩
  | 4 => ⟨S1x40960, .i32⟩
  | 5 => ⟨S8192x5, .f32⟩
  | 6 => ⟨S8192x5, .f32⟩
  | 7 => ⟨S8192x1, .f32⟩
  | 8 => ⟨S512x16, .f32⟩
  | 9 => ⟨S512x512, .f32⟩
  | 10 => ⟨S64x512, .f32⟩
  | 11 => ⟨S512x1, .f32⟩
  | 12 => ⟨S64x1, .f32⟩
  | 13 => ⟨S512x512, .f32⟩
  | 14 => ⟨S64x512, .f32⟩
  | 15 => ⟨S512x1, .f32⟩
  | 16 => ⟨S64x1, .f32⟩
  | 17 => ⟨S512x512, .f32⟩
  | 18 => ⟨S512x1, .f32⟩
  | 19 => ⟨S16x512x512, .f32⟩
  | 20 => ⟨S8192x512, .f32⟩
  | 21 => ⟨S1x40960, .i32⟩
  | 22 => ⟨S40960, .i32⟩
  | 23 => ⟨S_, .i32⟩
  | 24 => ⟨S40960, .i32⟩
  | 25 => ⟨S40960, .i32⟩
  | 26 => ⟨S1x40960, .i32⟩
  | 27 => ⟨S40960, .i32⟩
  | 28 => ⟨S40960, .i32⟩
  | 29 => ⟨S1x40960, .i32⟩
  | 30 => ⟨S40960, .i32⟩
  | 31 => ⟨S_, .i32⟩
  | 32 => ⟨S40960, .i32⟩
  | 33 => ⟨S40960, .i32⟩
  | 34 => ⟨S1x40960, .i32⟩
  | 35 => ⟨S40960, .i32⟩
  | 36 => ⟨S40960, .i32⟩
  | 37 => ⟨S8192x512, .f32⟩
  | 38 => ⟨S_, .i32⟩
  | 39 => ⟨S40960, .i32⟩
  | 40 => ⟨S40960, .i1⟩
  | 41 => ⟨S_, .i32⟩
  | 42 => ⟨S40960, .i32⟩
  | 43 => ⟨S40960, .i32⟩
  | 44 => ⟨S40960, .i32⟩
  | 45 => ⟨S40960x1, .i32⟩
  | 46 => ⟨S40960x512, .f32⟩
  | 47 => ⟨S40960, .i32⟩
  | 48 => ⟨S_, .i32⟩
  | 49 => ⟨S40960, .i32⟩
  | 50 => ⟨S40960, .i1⟩
  | 51 => ⟨S_, .i32⟩
  | 52 => ⟨S40960, .i32⟩
  | 53 => ⟨S40960, .i32⟩
  | 54 => ⟨S40960, .i32⟩
  | 55 => ⟨S40960x1, .i32⟩
  | 56 => ⟨S40960x512, .f32⟩
  | 57 => ⟨S40960x512, .f32⟩
  | 58 => ⟨S16x512x5x512, .f32⟩
  | 59 => ⟨S8192x1, .f32⟩
  | 60 => ⟨S_, .i32⟩
  | 61 => ⟨S40960, .i32⟩
  | 62 => ⟨S40960, .i1⟩
  | 63 => ⟨S_, .i32⟩
  | 64 => ⟨S40960, .i32⟩
  | 65 => ⟨S40960, .i32⟩
  | 66 => ⟨S40960, .i32⟩
  | 67 => ⟨S40960x1, .i32⟩
  | 68 => ⟨S40960x1, .f32⟩
  | 69 => ⟨S40960, .i32⟩
  | 70 => ⟨S_, .i32⟩
  | 71 => ⟨S40960, .i32⟩
  | 72 => ⟨S40960, .i1⟩
  | 73 => ⟨S_, .i32⟩
  | 74 => ⟨S40960, .i32⟩
  | 75 => ⟨S40960, .i32⟩
  | 76 => ⟨S40960, .i32⟩
  | 77 => ⟨S40960x1, .i32⟩
  | 78 => ⟨S40960x1, .f32⟩
  | 79 => ⟨S40960x1, .f32⟩
  | 80 => ⟨S16x512x5, .f32⟩
  | 81 => ⟨S8192x512, .f32⟩
  | 82 => ⟨S_, .i32⟩
  | 83 => ⟨S40960, .i32⟩
  | 84 => ⟨S40960, .i1⟩
  | 85 => ⟨S_, .i32⟩
  | 86 => ⟨S40960, .i32⟩
  | 87 => ⟨S40960, .i32⟩
  | 88 => ⟨S40960, .i32⟩
  | 89 => ⟨S40960x1, .i32⟩
  | 90 => ⟨S40960x512, .f32⟩
  | 91 => ⟨S40960, .i32⟩
  | 92 => ⟨S_, .i32⟩
  | 93 => ⟨S40960, .i32⟩
  | 94 => ⟨S40960, .i1⟩
  | 95 => ⟨S_, .i32⟩
  | 96 => ⟨S40960, .i32⟩
  | 97 => ⟨S40960, .i32⟩
  | 98 => ⟨S40960, .i32⟩
  | 99 => ⟨S40960x1, .i32⟩
  | 100 => ⟨S40960x512, .f32⟩
  | 101 => ⟨S40960x512, .f32⟩
  | 102 => ⟨S16x512x5x512, .f32⟩
  | 103 => ⟨S8192x1, .f32⟩
  | 104 => ⟨S_, .i32⟩
  | 105 => ⟨S40960, .i32⟩
  | 106 => ⟨S40960, .i1⟩
  | 107 => ⟨S_, .i32⟩
  | 108 => ⟨S40960, .i32⟩
  | 109 => ⟨S40960, .i32⟩
  | 110 => ⟨S40960, .i32⟩
  | 111 => ⟨S40960x1, .i32⟩
  | 112 => ⟨S40960x1, .f32⟩
  | 113 => ⟨S40960, .i32⟩
  | 114 => ⟨S_, .i32⟩
  | 115 => ⟨S40960, .i32⟩
  | 116 => ⟨S40960, .i1⟩
  | 117 => ⟨S_, .i32⟩
  | 118 => ⟨S40960, .i32⟩
  | 119 => ⟨S40960, .i32⟩
  | 120 => ⟨S40960, .i32⟩
  | 121 => ⟨S40960x1, .i32⟩
  | 122 => ⟨S40960x1, .f32⟩
  | 123 => ⟨S40960x1, .f32⟩
  | 124 => ⟨S16x512x5, .f32⟩
  | 125 => ⟨S8192x512, .f32⟩
  | 126 => ⟨S16x512x1x512, .f32⟩
  | 127 => ⟨S8192x1, .f32⟩
  | _ => ⟨S512x16x512, .f32⟩

abbrev hbmTy0_1 (i : Nat) : BufTy := match i % 128 with
  | 0 => ⟨S16x512x1, .f32⟩
  | 1 => ⟨S16x512x11x512, .f32⟩
  | 2 => ⟨S16x512x11, .f32⟩
  | 3 => ⟨S8192x11, .f32⟩
  | 4 => ⟨S8192x11x512, .f32⟩
  | 5 => ⟨S8192x11, .f32⟩
  | 6 => ⟨S8192x11, .f32⟩
  | 7 => ⟨S8192x11, .f32⟩
  | 8 => ⟨S_, .f32⟩
  | 9 => ⟨S8192x11, .f32⟩
  | 10 => ⟨S8192x11, .f32⟩
  | 11 => ⟨S_, .f32⟩
  | 12 => ⟨S8192x11, .f32⟩
  | 13 => ⟨S8192x11, .f32⟩
  | 14 => ⟨S8192x11, .f32⟩
  | 15 => ⟨S8192x11x1, .f32⟩
  | 16 => ⟨S8192x11x512, .f32⟩
  | 17 => ⟨S8192x11x512, .f32⟩
  | 18 => ⟨S_, .f32⟩
  | 19 => ⟨S8192x512, .f32⟩
  | 20 => ⟨S_, .f32⟩
  | 21 => ⟨S8192x512, .f32⟩
  | 22 => ⟨S8192x512, .f32⟩
  | 23 => ⟨S16x512x512, .f32⟩
  | 24 => ⟨S16x512, .f32⟩
  | 25 => ⟨S16x512x1, .f32⟩
  | 26 => ⟨S16x512x512, .f32⟩
  | 27 => ⟨S16x512x512, .f32⟩
  | 28 => ⟨S512x16x512, .f32⟩
  | _ => ⟨S512x16x512, .f32⟩

abbrev hbmTy (i : Nat) : BufTy := match i / 128 with
  | 0 => hbmTy0_0 i
  | 1 => hbmTy0_1 i
  | _ => ⟨S512x16x512, .f32⟩

abbrev bufTy : (tb : Table) → Fin (tcTables nBuf tb) → BufTy
  | .hbm, ⟨i, _⟩ => hbmTy i
  | _, _ => ⟨S512x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_15 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst : Ref sig .tc := ⟨.hbm, 136, rfl⟩
abbrev main_v99 : Ref sig .tc := ⟨.hbm, 137, rfl⟩
abbrev main_v100 : Ref sig .tc := ⟨.hbm, 138, rfl⟩
abbrev main_cst_17 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_18 : Ref sig .tc := ⟨.hbm, 146, rfl⟩
abbrev main_v107 : Ref sig .tc := ⟨.hbm, 147, rfl⟩
abbrev main_call0_cst : Ref sig .tc := ⟨.hbm, 148, rfl⟩
abbrev main_call0_v0 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  transposes_S512x16x512_S16x512x512_1_0_2 : S512x16x512.Transposes [1, 0, 2] S16x512x512
  shapeCasts_S16x512x512_S8192x512 : S16x512x512.ShapeCasts S8192x512
  slices_S2x40960_S1x40960_0_0 : S2x40960.Slices ![0, 0] S1x40960
  shapeCasts_S1x40960_S40960 : S1x40960.ShapeCasts S40960
  bcast_S_S40960 : S_.BroadcastsInDim S40960 (![] : Fin 0 → Fin S40960.rank)
  slices_S2x40960_S1x40960_1_0 : S2x40960.Slices ![1, 0] S1x40960
  bcast_S40960_S40960x1_0 : S40960.BroadcastsInDim S40960x1 (![0] : Fin 1 → Fin S40960x1.rank)
  shapeCasts_S40960x512_S16x512x5x512 : S40960x512.ShapeCasts S16x512x5x512
  shapeCasts_S40960x1_S16x512x5 : S40960x1.ShapeCasts S16x512x5
  shapeCasts_S8192x512_S16x512x1x512 : S8192x512.ShapeCasts S16x512x1x512
  shapeCasts_S8192x1_S16x512x1 : S8192x1.ShapeCasts S16x512x1
  concatenates_S16x512x5x512_S16x512x5x512_S16x512x1x512_S16x512x11x512_d2 : Shape.Concatenates [S16x512x5x512, S16x512x5x512, S16x512x1x512] S16x512x11x512 2
  concatenates_S16x512x5_S16x512x5_S16x512x1_S16x512x11_d2 : Shape.Concatenates [S16x512x5, S16x512x5, S16x512x1] S16x512x11 2
  concatenates_S8192x5_S8192x5_S8192x1_S8192x11_d1 : Shape.Concatenates [S8192x5, S8192x5, S8192x1] S8192x11 1
  shapeCasts_S16x512x11x512_S8192x11x512 : S16x512x11x512.ShapeCasts S8192x11x512
  shapeCasts_S16x512x11_S8192x11 : S16x512x11.ShapeCasts S8192x11
  bcast_S_S8192x11 : S_.BroadcastsInDim S8192x11 (![] : Fin 0 → Fin S8192x11.rank)
  bcast_S8192x11_S8192x11x1_0_1 : S8192x11.BroadcastsInDim S8192x11x1 (![0, 1] : Fin 2 → Fin S8192x11x1.rank)
  bcast_S8192x11x1_S8192x11x512_0_1_2 : S8192x11x1.BroadcastsInDim S8192x11x512 (![0, 1, 2] : Fin 3 → Fin S8192x11x512.rank)
  reducesTo_S8192x11x512_S8192x512_d1 : S8192x11x512.ReducesTo [1] S8192x512
  h_S_ : 0 < S_.numel
  bcast_S_S8192x512 : S_.BroadcastsInDim S8192x512 (![] : Fin 0 → Fin S8192x512.rank)
  shapeCasts_S8192x512_S16x512x512 : S8192x512.ShapeCasts S16x512x512
  transposes_S512x16_S16x512_1_0 : S512x16.Transposes [1, 0] S16x512
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  transposes_S16x512x512_S512x16x512_1_0_2 : S16x512x512.Transposes [1, 0, 2] S512x16x512
  dot_S8192x512_S512x512_S8192x512_1_0_0_1_n_n_wf : DotDims.WF S8192x512 S512x512 S8192x512 [1] [0] [0] [1] [] []
  gather_S8192x512_S40960x1_S40960x512_1_0_n_n_0_1_1512_wf : GatherDims.WF S8192x512 S40960x1 S40960x512 [1] [0] [] [0] [] 1 ![1, 512]
  gather_S64x512_S40960x1_S40960x512_1_0_n_n_0_1_1512_wf : GatherDims.WF S64x512 S40960x1 S40960x512 [1] [0] [] [0] [] 1 ![1, 512]
  dot_S8192x512_S512x1_S8192x1_1_0_0_1_n_n_wf : DotDims.WF S8192x512 S512x1 S8192x1 [1] [0] [0] [1] [] []
  gather_S8192x1_S40960x1_S40960x1_1_0_n_n_0_1_11_wf : GatherDims.WF S8192x1 S40960x1 S40960x1 [1] [0] [] [0] [] 1 ![1, 1]
  gather_S64x1_S40960x1_S40960x1_1_0_n_n_0_1_11_wf : GatherDims.WF S64x1 S40960x1 S40960x1 [1] [0] [] [0] [] 1 ![1, 1]

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S40960x1_S40960x512_1_0_n_n_0_1_1512 : GatherDims S8192x512 S40960x1 S40960x512 where
  offsetDims := [1]
  collapsedSliceDims := [0]
  operandBatchingDims := []
  startIndicesBatchingDims := []
  startIndexMap := [0]
  indexVectorDim := 1
  sliceSizes := ![1, 512]
  wf := gather_S8192x512_S40960x1_S40960x512_1_0_n_n_0_1_1512_wf
def gather_S64x512_S40960x1_S40960x512_1_0_n_n_0_1_1512 : GatherDims S64x512 S40960x1 S40960x512 where
  offsetDims := [1]
  collapsedSliceDims := [0]
  operandBatchingDims := []
  startIndicesBatchingDims := []
  startIndexMap := [0]
  indexVectorDim := 1
  sliceSizes := ![1, 512]
  wf := gather_S64x512_S40960x1_S40960x512_1_0_n_n_0_1_1512_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x1_S40960x1_S40960x1_1_0_n_n_0_1_11 : GatherDims S8192x1 S40960x1 S40960x1 where
  offsetDims := [1]
  collapsedSliceDims := [0]
  operandBatchingDims := []
  startIndicesBatchingDims := []
  startIndexMap := [0]
  indexVectorDim := 1
  sliceSizes := ![1, 1]
  wf := gather_S8192x1_S40960x1_S40960x1_1_0_n_n_0_1_11_wf
def gather_S64x1_S40960x1_S40960x1_1_0_n_n_0_1_11 : GatherDims S64x1 S40960x1 S40960x1 where
  offsetDims := [1]
  collapsedSliceDims := [0]
  operandBatchingDims := []
  startIndicesBatchingDims := []
  startIndexMap := [0]
  indexVectorDim := 1
  sliceSizes := ![1, 1]
  wf := gather_S64x1_S40960x1_S40960x1_1_0_n_n_0_1_11_wf

class Facts : Prop extends Facts₀ where

variable [Facts]
-- ==== Proof.B_R0Defs.lean ====
/-
  The first kernel (one matrix product per block of 1024 rows), as data: each window's block at a grid point, the
  rectangles its body reads and writes, what the body leaves in its two output buffers as a function of the two input
  blocks, and the pipeline's proof data over the arrays as the region finds them.
-/
import proofs.«415035_j27650999452124_3_alg».proof.Proof.Gen.Kernel.Launch
import proofs.«415035_j27650999452124_3_alg».proof.Proof.Gen.Kernel.Skeleton
import proofs.«415035_j27650999452124_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev r0_0 : Rect S1024x512 := Rect.unit (s := S1024x512) ![0, 0] S1024x512.size inb_S1024x512_S1024x512_0_0
abbrev r0_1 : Rect S512x1664 := Rect.unit (s := S512x1664) ![0, 0] S512x1664.size inb_S512x1664_S512x1664_0_0
abbrev r0_2 : Rect S1024x1536 := Rect.unit (s := S1024x1536) ![0, 0] S1024x1536.size inb_S1024x1536_S1024x1536_0_0
abbrev r0_3 : Rect S1024x128 := Rect.unit (s := S1024x128) ![0, 0] S1024x128.size inb_S1024x128_S1024x128_0_0

/-! ## What the body leaves in each output buffer -/

/-- The wide output's buffer after the body: the first 1536 columns of the product of the two input blocks. -/
def out0_2 (x0 : Vec F S1024x512 .bf16) (x1 : Vec F S512x1664 .bf16) : Vec F S1024x1536 .bf16 :=
  View.canon [⟨r0_2, k0_pay2 (View.ld x0 r0_0) (View.ld x1 r0_1)⟩]

/-- The narrow output's buffer after the body: the last 128 columns of the same product. -/
def out0_3 (x0 : Vec F S1024x512 .bf16) (x1 : Vec F S512x1664 .bf16) : Vec F S1024x128 .f32 :=
  View.canon [⟨r0_3, k0_pay3 (View.ld x0 r0_0) (View.ld x1 r0_1)⟩]

/-! ## The pipeline's proof data -/

/-- The arrays as the region finds them; after the body at point `t` each input's buffer still holds its block and each
    output's holds `out0_W` of the two input blocks; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

end Cert.Kernel.Hand

end
-- ==== Proof.B_R0Body.lean ====
/-
  The body obligation of kernel 0: at every grid point the kernel's body, started on staging buffers that hold the
  input windows' blocks, ends with every input buffer unchanged and every output buffer at the stated function of the
  input blocks.
-/
import proofs.«415035_j27650999452124_3_alg».proof.Proof.Gen.Kernel.Launch
import proofs.«415035_j27650999452124_3_alg».proof.Proof.Gen.Kernel.Skeleton
import proofs.«415035_j27650999452124_3_alg».proof.Proof.Gen.Kernel.Points
import proofs.«415035_j27650999452124_3_alg».proof.Proof.B_R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## What the body finds in each input buffer -/

/-- The left factor's buffer holds its block of 1024 rows at every point: it is fetched at every point, and the
    statement holds for any proof data over the region's arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The right factor's buffer holds the whole 512 x 1664 matrix at every point: its block index is constant, so it is
    fetched at the first point only; at a later point the index has not moved and the body left the block in place,
    so what the buffer holds is still what a fetch there would bring. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## Each output buffer is written whole -/

/-- The one store into the wide output's buffer is of the whole buffer, so every index lies in it. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

/-- The one store into the narrow output's buffer is of the whole buffer, so every index lies in it. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

/-! ## The body's triple -/

set_option maxHeartbeats 1000000 in
/-- The body on four whole buffers, the two inputs' holding x0 and x1 and the two outputs' holding anything: it
    reads both inputs whole, writes the first 1536 columns of their product over the whole wide output and the last
    128 over the whole narrow one, and leaves the inputs as they were. The grid coordinate is not used. -/
theorem sound_kernel0 (c : Dev nD) (E : Set ℕ) (i : grid0.Coords)
    (arg1 : Memref sig .tc .vmem S1024x512 .bf16) (harg1 : arg1.IsWhole)
    (arg2 : Memref sig .tc .vmem S512x1664 .bf16) (harg2 : arg2.IsWhole)
    (arg3 : Memref sig .tc .vmem S1024x1536 .bf16) (harg3 : arg3.IsWhole)
    (arg4 : Memref sig .tc .vmem S1024x128 .f32) (harg4 : arg4.IsWhole)
    (x0 : Vec F S1024x512 .bf16) (x1 : Vec F S512x1664 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The proof data's inputs at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is called with at point t: the invariant, what is owed, and each window's current buffer whole. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debts, and each buffer at the proof data's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold their blocks, so the body's triple applies at those blocks;
    the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for kernel 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.B_R1Defs.lean ====
/-
  The second kernel (the gated sum of a block of 512 rows), as data: each window's block at a grid point, the
  rectangles its body reads and writes, what the body leaves in its output buffer as a function of the sixteen input
  blocks, and the pipeline's proof data over the arrays as the region finds them.

  The body reads, for each of the five arc slots `d`, the `d`-th 512-column stretch of the two gathered-message blocks
  and column `d` of the two gate blocks, the two label blocks and the two mask blocks; the bias tables, the self
  message, its gate, the loop mask and the sentence mask are read whole; the one store is of the whole output block.
-/
import proofs.«415035_j27650999452124_3_alg».proof.Proof.Gen.Kernel.Launch
import proofs.«415035_j27650999452124_3_alg».proof.Proof.Gen.Kernel.Skeleton
import proofs.«415035_j27650999452124_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The `d`-th 512-column stretch of a gathered-message block. -/
abbrev rm0 : Rect S512x2560 := Rect.unit (s := S512x2560) ![0, 0] S512x512.size inb_S512x2560_S512x512_0_0
abbrev rm1 : Rect S512x2560 := Rect.unit (s := S512x2560) ![0, 512] S512x512.size inb_S512x2560_S512x512_0_512
abbrev rm2 : Rect S512x2560 := Rect.unit (s := S512x2560) ![0, 1024] S512x512.size inb_S512x2560_S512x512_0_1024
abbrev rm3 : Rect S512x2560 := Rect.unit (s := S512x2560) ![0, 1536] S512x512.size inb_S512x2560_S512x512_0_1536
abbrev rm4 : Rect S512x2560 := Rect.unit (s := S512x2560) ![0, 2048] S512x512.size inb_S512x2560_S512x512_0_2048
/-- Column `d` of a five-column block. -/
abbrev rc0 : Rect S512x5 := Rect.unit (s := S512x5) ![0, 0] S512x1.size inb_S512x5_S512x1_0_0
abbrev rc1 : Rect S512x5 := Rect.unit (s := S512x5) ![0, 1] S512x1.size inb_S512x5_S512x1_0_1
abbrev rc2 : Rect S512x5 := Rect.unit (s := S512x5) ![0, 2] S512x1.size inb_S512x5_S512x1_0_2
abbrev rc3 : Rect S512x5 := Rect.unit (s := S512x5) ![0, 3] S512x1.size inb_S512x5_S512x1_0_3
abbrev rc4 : Rect S512x5 := Rect.unit (s := S512x5) ![0, 4] S512x1.size inb_S512x5_S512x1_0_4
/-- The whole of a bias table, of a bias row, of a one-column block, of a square block. -/
abbrev rB : Rect S64x512 := Rect.unit (s := S64x512) ![0, 0] S64x512.size inb_S64x512_S64x512_0_0
abbrev rG : Rect S1x64 := Rect.unit (s := S1x64) ![0, 0] S1x64.size inb_S1x64_S1x64_0_0
abbrev rS1 : Rect S512x1 := Rect.unit (s := S512x1) ![0, 0] S512x1.size inb_S512x1_S512x1_0_0
abbrev rSq : Rect S512x512 := Rect.unit (s := S512x512) ![0, 0] S512x512.size inb_S512x512_S512x512_0_0

/-! ## What the body leaves in the output buffer -/

/-- The value the body stores, from the sixteen input blocks: the running sum handed from each stretch of the body to the
    next (in 0; out 0 and part of in 1; …), then the self message, the cut at zero and the sentence mask. -/
def body1 (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32) : FVec F S512x512 .f32 :=
  have v0 : IVec S512x64 32 := iota .tc S512x64 32 [1] iota_S512x64_d1_w32
  have v1 : Vec F S64x512 .f32 := View.ld x12 rB
  have v2 : Vec F S64x512 .f32 := View.ld x13 rB
  have v3 : Vec F S1x64 .f32 := View.ld x14 rG
  have v5 : Vec F S1x64 .f32 := View.ld x15 rG
  have v4 : FVec F S1x64 .f32 := k1_pay2 v3
  have v6 : FVec F S1x64 .f32 := k1_pay3 v5
  have v31 : FVec F S512x512 .f32 := k1_pay4 v1 v3 (View.ld x6 rc0) (View.ld x0 rm0) (View.ld x3 rc0) (View.ld x8 rc0)
  have v37 : FVec F S512x64 .f32 := k1_pay5 (View.ld x7 rc0)
  have v79 : FVec F S512x512 .f32 := k1_pay6 v0 v1 v2 v4 v6 v31 v37 (View.ld x1 rm0) (View.ld x4 rc0) (View.ld x9 rc0) (View.ld x6 rc1) (View.ld x0 rm1) (View.ld x3 rc1) (View.ld x8 rc1)
  have v103 : FVec F S512x512 .f32 := k1_pay7 v0 v2 v6 v79 (View.ld x7 rc1) (View.ld x1 rm1) (View.ld x4 rc1) (View.ld x9 rc1)
  have v118 : FVec F S512x512 .f32 := k1_pay9 v0 v1 (View.ld x6 rc2) (View.ld x0 rm2)
  have v121 : FVec F S512x1 .f32 := k1_pay10 v0 v4 (View.ld x6 rc2) (View.ld x3 rc2)
  have v151 : FVec F S512x512 .f32 := k1_pay11 v0 v2 v6 v103 v118 v121 (View.ld x8 rc2) (View.ld x7 rc2) (View.ld x1 rm2) (View.ld x4 rc2) (View.ld x9 rc2)
  have v158 : FVec F S512x512 .f32 := k1_pay13 v0 v1 (View.ld x6 rc3)
  have v162 : FVec F S512x1 .f32 := k1_pay14 v0 v4 (View.ld x6 rc3)
  have v163 : Vec F S512x512 .bf16 := View.ld x0 rm3
  have v199 : FVec F S512x512 .f32 := k1_pay15 v0 v2 v6 v151 v158 v162 v163 (View.ld x3 rc3) (View.ld x8 rc3) (View.ld x7 rc3) (View.ld x1 rm3) (View.ld x4 rc3) (View.ld x9 rc3)
  have v205 : FVec F S512x64 .f32 := k1_pay16 v0 (View.ld x6 rc4)
  have v206 : FVec F S512x512 .f32 := k1_pay17 v0 v1 (View.ld x6 rc4)
  have v247 : FVec F S512x512 .f32 := k1_pay18 v0 v2 v4 v6 v199 v205 v206 (View.ld x0 rm4) (View.ld x3 rc4) (View.ld x8 rc4) (View.ld x7 rc4) (View.ld x1 rm4) (View.ld x4 rc4) (View.ld x9 rc4)
  k1_pay1 v247 (View.ld x5 rS1) (View.ld x10 rS1) (View.ld x2 rSq) (View.ld x11 rS1)

/-- The output window's buffer after the body: its one store, of the whole block. -/
def out1_16 (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32) : Vec F S512x512 .f32 :=
  View.canon [⟨rSq, body1 x0 x1 x2 x3 x4 x5 x6 x7 x8 x9 x10 x11 x12 x13 x14 x15⟩]

/-! ## The pipeline's proof data -/

/-- The arrays as the region finds them; after the body at point `t` each input's buffer still holds its block and the
    output's holds `out1_16` of the sixteen input blocks; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

end Cert.Kernel.Hand

end
-- ==== Proof.B_R1Body.lean ====
/-
  The body obligation of kernel 1: at every grid point the kernel's body, started on staging buffers that hold the
  input windows' blocks, ends with every input buffer unchanged and every output buffer at the stated function of the
  input blocks.
-/
import proofs.«415035_j27650999452124_3_alg».proof.Proof.Gen.Kernel.Launch
import proofs.«415035_j27650999452124_3_alg».proof.Proof.Gen.Kernel.Skeleton
import proofs.«415035_j27650999452124_3_alg».proof.Proof.Gen.Kernel.Points
import proofs.«415035_j27650999452124_3_alg».proof.Proof.B_R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## Each input's current buffer holds its block

An input's buffer is rewritten only by a fetch, and the body leaves it as it found it. At a point that fetches, the
buffer holds the block of that point; at a point that does not, the block index has not moved since the point before,
so the block that is still there is the block of this point as well. Windows 0 to 11 move with the row block and are
fetched at every point; windows 12 to 15 (the two bias tables and the two bias rows) have a constant block index and
are fetched once. One library lemma covers both cases. -/

/-- Window 0 (the gathered incoming messages): its buffer holds the block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the gathered outgoing messages). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the self message). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3 (the gathered incoming gates). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Window 4 (the gathered outgoing gates). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Window 5 (the self gate). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Window 6 (the incoming labels). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Window 7 (the outgoing labels). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Window 8 (the incoming masks). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Window 9 (the outgoing masks). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Window 10 (the loop mask). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Window 11 (the sentence mask). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Window 12 (the incoming bias table): the whole table at every point, fetched at the first. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Window 13 (the outgoing bias table), likewise. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Window 14 (the incoming gate-bias row), likewise. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Window 15 (the outgoing gate-bias row), likewise. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's one store is of the whole 512 × 512 block, so every index of the block lies in its rectangle. -/
theorem cover1_16 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 4000000 in
/-- The body, run on seventeen whole buffers — the sixteen inputs' read as `x0` … `x15`, the output's holding anything —
    reads only rectangles of the inputs, stores once, and returns: the inputs' buffers are as they were and the output's
    holds `out1_16` of the inputs. The body is a sequence of six stretches, each a run of loads ending in a pure
    function of what it loaded and of what the stretches before handed it, then five more loads and the store; every
    value on the way is the one `body1` names at the same place. -/
theorem sound_kernel1 (c : Dev nD) (E : Set ℕ) (i : grid1.Coords)
    (arg1 : Memref sig .tc .vmem S512x2560 .bf16) (harg1 : arg1.IsWhole) (arg2 : Memref sig .tc .vmem S512x2560 .bf16) (harg2 : arg2.IsWhole)
    (arg3 : Memref sig .tc .vmem S512x512 .bf16) (harg3 : arg3.IsWhole) (arg4 : Memref sig .tc .vmem S512x5 .f32) (harg4 : arg4.IsWhole)
    (arg5 : Memref sig .tc .vmem S512x5 .f32) (harg5 : arg5.IsWhole) (arg6 : Memref sig .tc .vmem S512x1 .f32) (harg6 : arg6.IsWhole)
    (arg7 : Memref sig .tc .vmem S512x5 .i32) (harg7 : arg7.IsWhole) (arg8 : Memref sig .tc .vmem S512x5 .i32) (harg8 : arg8.IsWhole)
    (arg9 : Memref sig .tc .vmem S512x5 .f32) (harg9 : arg9.IsWhole) (arg10 : Memref sig .tc .vmem S512x5 .f32) (harg10 : arg10.IsWhole)
    (arg11 : Memref sig .tc .vmem S512x1 .f32) (harg11 : arg11.IsWhole) (arg12 : Memref sig .tc .vmem S512x1 .f32) (harg12 : arg12.IsWhole)
    (arg13 : Memref sig .tc .vmem S64x512 .f32) (harg13 : arg13.IsWhole) (arg14 : Memref sig .tc .vmem S64x512 .f32) (harg14 : arg14.IsWhole)
    (arg15 : Memref sig .tc .vmem S1x64 .f32) (harg15 : arg15.IsWhole) (arg16 : Memref sig .tc .vmem S1x64 .f32) (harg16 : arg16.IsWhole)
    (arg17 : Memref sig .tc .vmem S512x512 .f32) (harg17 : arg17.IsWhole)
    (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15
            ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E
          (cc1__agg_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17) K := by
  -- the body and its six stretches, as sequences of loads and a store over pure functions
  simp only [cc1__agg_kernel_eq_skeleton]; unfold cc1__agg_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  -- each input buffer's raw contents, of which `xW` is the read
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  -- the run: every load reads a rectangle of an input as it was, the store writes the output's whole block
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  -- the output: one store of the whole block over whatever was there is the stored value
  iexists _; isplitr
  swap; · iexact H16
  ipureintro
  try dsimp only
  exact View.read_writes_eq_canon _ _ _ (cover1_16 _)

/-! ## The proof data's inputs at a point -/

/-- For the region's proof data each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation at a point -/

/-- What the body is started on at point `t`: the invariant, what the core owes, and each window's current buffer at
    what the proof data say it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- What the body returns: the same, each buffer at what the proof data say it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's triple applies at those blocks; the
    invariant and what the core owes are not touched by the body and are the same before and after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation for kernel 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.B_Frame.lean ====
/-
  The run of the whole program: the buffers' contents at the two kernels' entries and exits, the two kernels as
  regions of the launch between stretches of host operations, and the launch itself — every weakly fair execution
  terminates and ends with the argument arrays as launched.
-/
import proofs.«415035_j27650999452124_3_alg».proof.Proof.Gen.Kernel.Launch
import proofs.«415035_j27650999452124_3_alg».proof.Proof.Gen.Kernel.Skeleton
import proofs.«415035_j27650999452124_3_alg».proof.Proof.Gen.Kernel.Points
import proofs.«415035_j27650999452124_3_alg».proof.Proof.Gen.Kernel.Regions
import proofs.«415035_j27650999452124_3_alg».proof.Proof.B_R0Body
import proofs.«415035_j27650999452124_3_alg».proof.Proof.B_R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the memory the program is launched on
variable (m : (ℓ : Loc nD τ sig) → Buf (Elt F) ℓ)

/-! ## The buffers' contents at the two kernels' entries and exits -/

/-- What the first kernel finds: the launch memory after the three host stretches before it. -/
abbrev VR0 : (c : Dev nD) → (b : Ref sig .tc) → Buf (Elt F) ((c : Thread nD τ).loc b) := fun c b => Gen.V3 m c b

/-- The buffers when the first kernel ends: its four arrays at what the pipeline leaves in them (an input's array as
    it was found, an output's array with every block's write-back folded in), every other buffer as it was found. -/
def exit0 (c : Dev nD) : Valuation τ sig (Elt F) :=
  Pipeline.withArrays spec0 c (Gen.V3 m c) fun w => (dat0 (VR0 m) c).arrAt w cfg0.N

/-- The first kernel's part of the unknowns: at stage 4 a buffer holds what the first kernel's exit holds there; the
    other stages are not read before the second kernel. -/
def outs0 : Gen.Outs (F := F) := fun J r c => if J = 4 then exit0 m c r else Gen.V3 m c r

/-- What the second kernel finds, written over the first kernel's part alone: the valuation before the second kernel
    reads the unknowns at stage 4 only. -/
abbrev VR1' : (c : Dev nD) → (b : Ref sig .tc) → Buf (Elt F) ((c : Thread nD τ).loc b) := fun c b => Gen.V13 m (outs0 m) c b

/-- The buffers when the second kernel ends: its seventeen arrays at what the pipeline leaves in them, every other
    buffer as the second kernel found it. -/
def exit1 (c : Dev nD) : Valuation τ sig (Elt F) :=
  Pipeline.withArrays spec1 c (Gen.V13 m (outs0 m) c) fun w => (dat1 (VR1' m) c).arrAt w cfg1.N

/-- What the two kernels leave: at stage 4 the first kernel's exit, at stage 14 the second kernel's. -/
def outs : Gen.Outs (F := F) := fun J r c => if J = 14 then exit1 m c r else outs0 m J r c

/-- What the second kernel finds. -/
abbrev VR1 : (c : Dev nD) → (b : Ref sig .tc) → Buf (Elt F) ((c : Thread nD τ).loc b) := fun c b => Gen.V13 m (outs m) c b

/-- Up to the second kernel only stage 4 of the unknowns is read, and there the two families agree. -/
theorem V13_outs (c : Dev nD) : Gen.V13 m (outs m) c = Gen.V13 m (outs0 m) c := rfl

theorem VR1_eq : VR1 m = VR1' m := rfl

theorem exit0_arr (c : Dev nD) (w : Fin cfg0.W) :
    exit0 m c (Proc.devRef .tc (Pipeline.arrRef spec0 w)) = (dat0 (VR0 m) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 m c (Proc.devRef .tc b) = Gen.V3 m c (Proc.devRef .tc b) := by
  unfold exit0; exact Pipeline.withArrays_of_ne spec0 c _ _ b hb
theorem exit1_arr (c : Dev nD) (w : Fin cfg1.W) :
    exit1 m c (Proc.devRef .tc (Pipeline.arrRef spec1 w)) = (dat1 (VR1 m) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 m c (Proc.devRef .tc b) = Gen.V13 m (outs m) c (Proc.devRef .tc b) := by
  unfold exit1; exact Pipeline.withArrays_of_ne spec1 c _ _ b hb

/-! ## The three buffers the kernels write, read off the unknowns -/

/-- The wide output of the first kernel: the third window's array with every block written back. -/
theorem outs_v8_0 (c : Dev nD) : outs m 4 main_v8_0 c = (dat0 (VR0 m) c).arrAt 2 cfg0.N :=
  exit0_arr m c 2
/-- The narrow output of the first kernel: the fourth window's array with every block written back. -/
theorem outs_v8_1 (c : Dev nD) : outs m 4 main_v8_1 c = (dat0 (VR0 m) c).arrAt 3 cfg0.N :=
  exit0_arr m c 3
/-- The output of the second kernel: the last window's array with every block written back. -/
theorem outs_v47 (c : Dev nD) : outs m 14 main_v47 c = (dat1 (VR1 m) c).arrAt 16 cfg1.N :=
  exit1_arr m c 16

/-! ## The exits agree with the valuations the host stretches run from -/

/-- The buffers after the first kernel, read at the TensorCore's references. -/
abbrev VX0 : (c : Dev nD) → (b : Ref sig .tc) → Buf (Elt F) ((c : Thread nD τ).loc b) := fun c b => Gen.V4 m (outs m) c b
/-- The buffers after the second kernel, read at the TensorCore's references. -/
abbrev VX1 : (c : Dev nD) → (b : Ref sig .tc) → Buf (Elt F) ((c : Thread nD τ).loc b) := fun c b => Gen.V14 m (outs m) c b

/-- After the first kernel each of its arrays holds what the pipeline leaves: an input's array is as found (no block
    is written back, and the unknowns do not touch it), an output's is the unknown at stage 4. -/
theorem hF0 (c : Dev nD) (w : Fin cfg0.W) : (dat0 (VR0 m) c).arrAt w cfg0.N = VX0 m c (Pipeline.arrRef spec0 w) :=
  match w with
  | ⟨0, _⟩ => (((dat0 (VR0 m) c).arrAt_in 0 rfl _).trans (A_eq0 (VR0 m) c 0)).trans (Gen.V4_of m (outs m) c main_v2 (by decide)).symm
  | ⟨1, _⟩ => (((dat0 (VR0 m) c).arrAt_in 1 rfl _).trans (A_eq0 (VR0 m) c 1)).trans (Gen.V4_of m (outs m) c main_v7 (by decide)).symm
  | ⟨2, _⟩ => by
      show _ = Gen.V4 m (outs m) c (Proc.devRef .tc main_v8_0)
      rw [Gen.V4, Function.update_of_ne (StableHlo.devRef_ne_of_ne (by decide) : (Proc.devRef .tc main_v8_0 : DevRef τ sig) ≠ Proc.devRef .tc main_v8_1),
        Function.update_self]
      exact (outs_v8_0 m c).symm
  | ⟨3, _⟩ => by
      show _ = Gen.V4 m (outs m) c (Proc.devRef .tc main_v8_1)
      rw [Gen.V4, Function.update_self]
      exact (outs_v8_1 m c).symm
/-- The first kernel changes no buffer but its arrays. -/
theorem hrest0 (c : Dev nD) : ∀ b, b ∉ Finset.univ.image (Pipeline.arrRef spec0) → VX0 m c b = VR0 m c b :=
  fun b hb => Gen.V4_of m (outs m) c b fun hmem => by
    rcases List.mem_cons.mp hmem with rfl | hmem
    · exact hb (Finset.mem_image.mpr ⟨2, Finset.mem_univ _, rfl⟩)
    rcases List.mem_cons.mp hmem with rfl | hmem
    · exact hb (Finset.mem_image.mpr ⟨3, Finset.mem_univ _, rfl⟩)
    exact absurd hmem List.not_mem_nil

/-- After the second kernel each of its arrays holds what the pipeline leaves: the sixteen inputs' arrays are as found,
    the output's is the unknown at stage 14. -/
theorem hF1 (c : Dev nD) (w : Fin cfg1.W) : (dat1 (VR1 m) c).arrAt w cfg1.N = VX1 m c (Pipeline.arrRef spec1 w) := by
  by_cases hw : w = 16
  · subst hw
    show _ = Gen.V14 m (outs m) c (Proc.devRef .tc main_v47)
    rw [Gen.V14, Function.update_self]
    exact (outs_v47 m c).symm
  · -- every window but the last is an input, and its array is another buffer than the output's
    have hin : (cfg1.win w).isOut = false :=
      (by decide : ∀ w : Fin 17, w ≠ 16 → (cfg1.win w).isOut = false) w hw
    have hne : Pipeline.arrRef spec1 w ∉ ([main_v47] : List (Ref sig .tc)) :=
      (by decide : ∀ w : Fin 17, w ≠ 16 → Pipeline.arrRef spec1 w ∉ ([main_v47] : List (Ref sig .tc))) w hw
    exact (((dat1 (VR1 m) c).arrAt_in w hin _).trans (A_eq1 (VR1 m) c w)).trans (Gen.V14_of m (outs m) c _ hne).symm
/-- The second kernel changes no buffer but its arrays. -/
theorem hrest1 (c : Dev nD) : ∀ b, b ∉ Finset.univ.image (Pipeline.arrRef spec1) → VX1 m c b = VR1 m c b :=
  fun b hb => Gen.V14_of m (outs m) c b fun hmem => by
    rcases List.mem_cons.mp hmem with rfl | hmem
    · exact hb (Finset.mem_image.mpr ⟨16, Finset.mem_univ _, rfl⟩)
    exact absurd hmem List.not_mem_nil

/-! ## The proof data of the two pipelines and what rides beside the buffers -/

/-- Each pipeline's proof data at the contents its kernel finds. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

abbrev 𝒱₀ : Variants := Variants.none
/-- No core waits for another: no level is assigned. -/
abbrev L : GSem nD τ sig → Finset Unit := fun _ => ∅
abbrev lv : GSem nD τ sig → Unit → ℕ := fun _ _ => 0

/-- What a core keeps beside its buffers from the launch to the end: its generator register at some state and the
    record that it owes nothing. -/
abbrev R (c : Dev nD) : sProp 𝕄 := iprop((∃ r, prngReg c r) ∗ ∃ W, owes (c : Thread nD τ) (0 : CellTallies nD τ sig Unit) W)
/-- The same at each of the three stretches between the kernels. -/
abbrev E : Fin 3 → Dev nD → sProp 𝕄 := fun _ c => R (F := F) c

-- a library lemma stated over the pinned configuration unifies with the printed one only when unification may unfold
-- plain definitions in a metavariable's type
set_option backward.isDefEq.respectTransparency.types false in
/-- Kernel 0 as a region of the launch. It is entered with every unscoped buffer held at the entry contents and left
    with them held at the exit contents: its arrays are split out of the unscoped buffers at the entry and put back at
    the exit, the generator register goes into the pipeline's invariant and comes back, nothing is owed, and the
    kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel 1 as a region of the launch. It is entered with every unscoped buffer held at the entry contents and left
    with them held at the exit contents: its arrays are split out of the unscoped buffers at the entry and put back at
    the exit, the generator register goes into the pipeline's invariant and comes back, nothing is owed, and the
    kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' cells and tokens, and no further ghost resource on any core. -/
abbrev u₀ : UR sig nD τ := initOf (Pipeline.cells cfgs cellOf_inj) (Pipeline.launchToks cfgs cellOf_inj)

/-- Owning the launch element is owning it through the embedding of the whole user component; the cores' further
    resources are empty. -/
theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const, ownU_emb₁]
  iintro Hu; imodintro
  isplitl [Hu]; · iexact Hu
  iempintro

/-- Of what the launch deals a core, the generator register and the empty record of dues stay beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end a core owes nothing. -/
theorem hE2 (c : Dev nD) : E (F := F) 2 c ⊢ (iprop(∃ W, owes (c : Thread nD τ) (0 : CellTallies nD τ sig Unit) W) : sProp 𝕄) := by
  iintro ⟨-, HO⟩; iexact HO

-- the launch theorem's implicit arguments are found by unifying its hypotheses' types with these, which takes
-- unfolding plain definitions in a metavariable's type
set_option backward.isDefEq.respectTransparency.types false in
/-- THE FRAME: from any memory with zero counters every weakly fair execution of the program terminates, and every
    final memory holds each of the nineteen argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () 𝒱₀ L lv (fun _ _ => rfl) ρ (outs m) (pdats m) 0 (fun _ => iprop(emp)) u₀ hu₀
    E (hE0 ρ) hE2 (reg0 m) (fun _ => .rfl) (fun _ => .rfl) (reg1 m) (fun _ => .rfl) (fun _ => .rfl)

end Cert.Kernel.Hand

end
-- ==== Proof.R0Defs.lean ====
/-
  The first kernel (one matrix product per block of 1024 rows), as data: each window's block at a grid point, the
  rectangles its body reads and writes, what the body leaves in its two output buffers as a function of the two input
  blocks, and the pipeline's proof data over the arrays as the region finds them.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev r0_0 : Rect S1024x512 := Rect.unit (s := S1024x512) ![0, 0] S1024x512.size inb_S1024x512_S1024x512_0_0
abbrev r0_1 : Rect S512x1664 := Rect.unit (s := S512x1664) ![0, 0] S512x1664.size inb_S512x1664_S512x1664_0_0
abbrev r0_2 : Rect S1024x1536 := Rect.unit (s := S1024x1536) ![0, 0] S1024x1536.size inb_S1024x1536_S1024x1536_0_0
abbrev r0_3 : Rect S1024x128 := Rect.unit (s := S1024x128) ![0, 0] S1024x128.size inb_S1024x128_S1024x128_0_0

/-! ## What the body leaves in each output buffer -/

/-- The wide output's buffer after the body: the first 1536 columns of the product of the two input blocks. -/
def out0_2 (x0 : Vec F S1024x512 .bf16) (x1 : Vec F S512x1664 .bf16) : Vec F S1024x1536 .bf16 :=
  View.canon [⟨r0_2, k0_pay2 (View.ld x0 r0_0) (View.ld x1 r0_1)⟩]

/-- The narrow output's buffer after the body: the last 128 columns of the same product. -/
def out0_3 (x0 : Vec F S1024x512 .bf16) (x1 : Vec F S512x1664 .bf16) : Vec F S1024x128 .f32 :=
  View.canon [⟨r0_3, k0_pay3 (View.ld x0 r0_0) (View.ld x1 r0_1)⟩]

/-! ## The pipeline's proof data -/

/-- The arrays as the region finds them; after the body at point `t` each input's buffer still holds its block and each
    output's holds `out0_W` of the two input blocks; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

end Cert.KernelIdeal.Hand

end
-- ==== Proof.R0Body.lean ====
/-
  The body obligation of kernel 0: at every grid point the kernel's body, started on staging buffers that hold the
  input windows' blocks, ends with every input buffer unchanged and every output buffer at the stated function of the
  input blocks.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import proofs.«415035_j27650999452124_3_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## What the body finds in each input buffer -/

/-- The left factor's buffer holds its block of 1024 rows at every point: it is fetched at every point, and the
    statement holds for any proof data over the region's arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The right factor's buffer holds the whole 512 x 1664 matrix at every point: its block index is constant, so it is
    fetched at the first point only; at a later point the index has not moved and the body left the block in place,
    so what the buffer holds is still what a fetch there would bring. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## Each output buffer is written whole -/

/-- The one store into the wide output's buffer is of the whole buffer, so every index lies in it. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

/-- The one store into the narrow output's buffer is of the whole buffer, so every index lies in it. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

/-! ## The body's triple -/

set_option maxHeartbeats 1000000 in
/-- The body on four whole buffers, the two inputs' holding x0 and x1 and the two outputs' holding anything: it
    reads both inputs whole, writes the first 1536 columns of their product over the whole wide output and the last
    128 over the whole narrow one, and leaves the inputs as they were. The grid coordinate is not used. -/
theorem sound_kernel0 (c : Dev nD) (E : Set ℕ) (i : grid0.Coords)
    (arg1 : Memref sig .tc .vmem S1024x512 .bf16) (harg1 : arg1.IsWhole)
    (arg2 : Memref sig .tc .vmem S512x1664 .bf16) (harg2 : arg2.IsWhole)
    (arg3 : Memref sig .tc .vmem S1024x1536 .bf16) (harg3 : arg3.IsWhole)
    (arg4 : Memref sig .tc .vmem S1024x128 .f32) (harg4 : arg4.IsWhole)
    (x0 : Vec F S1024x512 .bf16) (x1 : Vec F S512x1664 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The proof data's inputs at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is called with at point t: the invariant, what is owed, and each window's current buffer whole. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debts, and each buffer at the proof data's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold their blocks, so the body's triple applies at those blocks;
    the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for kernel 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  The second kernel (the gated sum of a block of 512 rows), as data: each window's block at a grid point, the
  rectangles its body reads and writes, what the body leaves in its output buffer as a function of the sixteen input
  blocks, and the pipeline's proof data over the arrays as the region finds them.

  The body reads, for each of the five arc slots `d`, the `d`-th 512-column stretch of the two gathered-message blocks
  and column `d` of the two gate blocks, the two label blocks and the two mask blocks; the bias tables, the self
  message, its gate, the loop mask and the sentence mask are read whole; the one store is of the whole output block.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The `d`-th 512-column stretch of a gathered-message block. -/
abbrev rm0 : Rect S512x2560 := Rect.unit (s := S512x2560) ![0, 0] S512x512.size inb_S512x2560_S512x512_0_0
abbrev rm1 : Rect S512x2560 := Rect.unit (s := S512x2560) ![0, 512] S512x512.size inb_S512x2560_S512x512_0_512
abbrev rm2 : Rect S512x2560 := Rect.unit (s := S512x2560) ![0, 1024] S512x512.size inb_S512x2560_S512x512_0_1024
abbrev rm3 : Rect S512x2560 := Rect.unit (s := S512x2560) ![0, 1536] S512x512.size inb_S512x2560_S512x512_0_1536
abbrev rm4 : Rect S512x2560 := Rect.unit (s := S512x2560) ![0, 2048] S512x512.size inb_S512x2560_S512x512_0_2048
/-- Column `d` of a five-column block. -/
abbrev rc0 : Rect S512x5 := Rect.unit (s := S512x5) ![0, 0] S512x1.size inb_S512x5_S512x1_0_0
abbrev rc1 : Rect S512x5 := Rect.unit (s := S512x5) ![0, 1] S512x1.size inb_S512x5_S512x1_0_1
abbrev rc2 : Rect S512x5 := Rect.unit (s := S512x5) ![0, 2] S512x1.size inb_S512x5_S512x1_0_2
abbrev rc3 : Rect S512x5 := Rect.unit (s := S512x5) ![0, 3] S512x1.size inb_S512x5_S512x1_0_3
abbrev rc4 : Rect S512x5 := Rect.unit (s := S512x5) ![0, 4] S512x1.size inb_S512x5_S512x1_0_4
/-- The whole of a bias table, of a bias row, of a one-column block, of a square block. -/
abbrev rB : Rect S64x512 := Rect.unit (s := S64x512) ![0, 0] S64x512.size inb_S64x512_S64x512_0_0
abbrev rG : Rect S1x64 := Rect.unit (s := S1x64) ![0, 0] S1x64.size inb_S1x64_S1x64_0_0
abbrev rS1 : Rect S512x1 := Rect.unit (s := S512x1) ![0, 0] S512x1.size inb_S512x1_S512x1_0_0
abbrev rSq : Rect S512x512 := Rect.unit (s := S512x512) ![0, 0] S512x512.size inb_S512x512_S512x512_0_0

/-! ## What the body leaves in the output buffer -/

/-- The value the body stores, from the sixteen input blocks: the running sum handed from each stretch of the body to the
    next (in 0; out 0 and part of in 1; …), then the self message, the cut at zero and the sentence mask. -/
def body1 (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32) : FVec F S512x512 .f32 :=
  have v0 : IVec S512x64 32 := iota .tc S512x64 32 [1] iota_S512x64_d1_w32
  have v1 : Vec F S64x512 .f32 := View.ld x12 rB
  have v2 : Vec F S64x512 .f32 := View.ld x13 rB
  have v3 : Vec F S1x64 .f32 := View.ld x14 rG
  have v5 : Vec F S1x64 .f32 := View.ld x15 rG
  have v4 : FVec F S1x64 .f32 := k1_pay2 v3
  have v6 : FVec F S1x64 .f32 := k1_pay3 v5
  have v31 : FVec F S512x512 .f32 := k1_pay4 v1 v3 (View.ld x6 rc0) (View.ld x0 rm0) (View.ld x3 rc0) (View.ld x8 rc0)
  have v37 : FVec F S512x64 .f32 := k1_pay5 (View.ld x7 rc0)
  have v79 : FVec F S512x512 .f32 := k1_pay6 v0 v1 v2 v4 v6 v31 v37 (View.ld x1 rm0) (View.ld x4 rc0) (View.ld x9 rc0) (View.ld x6 rc1) (View.ld x0 rm1) (View.ld x3 rc1) (View.ld x8 rc1)
  have v103 : FVec F S512x512 .f32 := k1_pay7 v0 v2 v6 v79 (View.ld x7 rc1) (View.ld x1 rm1) (View.ld x4 rc1) (View.ld x9 rc1)
  have v118 : FVec F S512x512 .f32 := k1_pay9 v0 v1 (View.ld x6 rc2) (View.ld x0 rm2)
  have v121 : FVec F S512x1 .f32 := k1_pay10 v0 v4 (View.ld x6 rc2) (View.ld x3 rc2)
  have v151 : FVec F S512x512 .f32 := k1_pay11 v0 v2 v6 v103 v118 v121 (View.ld x8 rc2) (View.ld x7 rc2) (View.ld x1 rm2) (View.ld x4 rc2) (View.ld x9 rc2)
  have v158 : FVec F S512x512 .f32 := k1_pay13 v0 v1 (View.ld x6 rc3)
  have v162 : FVec F S512x1 .f32 := k1_pay14 v0 v4 (View.ld x6 rc3)
  have v163 : Vec F S512x512 .bf16 := View.ld x0 rm3
  have v199 : FVec F S512x512 .f32 := k1_pay15 v0 v2 v6 v151 v158 v162 v163 (View.ld x3 rc3) (View.ld x8 rc3) (View.ld x7 rc3) (View.ld x1 rm3) (View.ld x4 rc3) (View.ld x9 rc3)
  have v205 : FVec F S512x64 .f32 := k1_pay16 v0 (View.ld x6 rc4)
  have v206 : FVec F S512x512 .f32 := k1_pay17 v0 v1 (View.ld x6 rc4)
  have v247 : FVec F S512x512 .f32 := k1_pay18 v0 v2 v4 v6 v199 v205 v206 (View.ld x0 rm4) (View.ld x3 rc4) (View.ld x8 rc4) (View.ld x7 rc4) (View.ld x1 rm4) (View.ld x4 rc4) (View.ld x9 rc4)
  k1_pay1 v247 (View.ld x5 rS1) (View.ld x10 rS1) (View.ld x2 rSq) (View.ld x11 rS1)

/-- The output window's buffer after the body: its one store, of the whole block. -/
def out1_16 (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32) : Vec F S512x512 .f32 :=
  View.canon [⟨rSq, body1 x0 x1 x2 x3 x4 x5 x6 x7 x8 x9 x10 x11 x12 x13 x14 x15⟩]

/-! ## The pipeline's proof data -/

/-- The arrays as the region finds them; after the body at point `t` each input's buffer still holds its block and the
    output's holds `out1_16` of the sixteen input blocks; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

end Cert.KernelIdeal.Hand

end
-- ==== Proof.R1Body.lean ====
/-
  The body obligation of kernel 1: at every grid point the kernel's body, started on staging buffers that hold the
  input windows' blocks, ends with every input buffer unchanged and every output buffer at the stated function of the
  input blocks.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import proofs.«415035_j27650999452124_3_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is over this parameter
variable (V : (c : Dev nD) → (b : Ref sig .tc) → Buf (Elt F) ((c : Thread nD τ).loc b))

/-! ## Each input's current buffer holds its block

An input's buffer is rewritten only by a fetch, and the body leaves it as it found it. At a point that fetches, the
buffer holds the block of that point; at a point that does not, the block index has not moved since the point before,
so the block that is still there is the block of this point as well. Windows 0 to 11 move with the row block and are
fetched at every point; windows 12 to 15 (the two bias tables and the two bias rows) have a constant block index and
are fetched once. One library lemma covers both cases. -/

/-- Window 0 (the gathered incoming messages): its buffer holds the block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the gathered outgoing messages). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the self message). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3 (the gathered incoming gates). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Window 4 (the gathered outgoing gates). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Window 5 (the self gate). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Window 6 (the incoming labels). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Window 7 (the outgoing labels). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Window 8 (the incoming masks). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Window 9 (the outgoing masks). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Window 10 (the loop mask). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Window 11 (the sentence mask). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Window 12 (the incoming bias table): the whole table at every point, fetched at the first. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Window 13 (the outgoing bias table), likewise. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Window 14 (the incoming gate-bias row), likewise. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Window 15 (the outgoing gate-bias row), likewise. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's one store is of the whole 512 × 512 block, so every index of the block lies in its rectangle. -/
theorem cover1_16 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 4000000 in
/-- The body, run on seventeen whole buffers — the sixteen inputs' read as `x0` … `x15`, the output's holding anything —
    reads only rectangles of the inputs, stores once, and returns: the inputs' buffers are as they were and the output's
    holds `out1_16` of the inputs. The body is a sequence of six stretches, each a run of loads ending in a pure
    function of what it loaded and of what the stretches before handed it, then five more loads and the store; every
    value on the way is the one `body1` names at the same place. -/
theorem sound_kernel1 (c : Dev nD) (E : Set ℕ) (i : grid1.Coords)
    (arg1 : Memref sig .tc .vmem S512x2560 .bf16) (harg1 : arg1.IsWhole) (arg2 : Memref sig .tc .vmem S512x2560 .bf16) (harg2 : arg2.IsWhole)
    (arg3 : Memref sig .tc .vmem S512x512 .bf16) (harg3 : arg3.IsWhole) (arg4 : Memref sig .tc .vmem S512x5 .f32) (harg4 : arg4.IsWhole)
    (arg5 : Memref sig .tc .vmem S512x5 .f32) (harg5 : arg5.IsWhole) (arg6 : Memref sig .tc .vmem S512x1 .f32) (harg6 : arg6.IsWhole)
    (arg7 : Memref sig .tc .vmem S512x5 .i32) (harg7 : arg7.IsWhole) (arg8 : Memref sig .tc .vmem S512x5 .i32) (harg8 : arg8.IsWhole)
    (arg9 : Memref sig .tc .vmem S512x5 .f32) (harg9 : arg9.IsWhole) (arg10 : Memref sig .tc .vmem S512x5 .f32) (harg10 : arg10.IsWhole)
    (arg11 : Memref sig .tc .vmem S512x1 .f32) (harg11 : arg11.IsWhole) (arg12 : Memref sig .tc .vmem S512x1 .f32) (harg12 : arg12.IsWhole)
    (arg13 : Memref sig .tc .vmem S64x512 .f32) (harg13 : arg13.IsWhole) (arg14 : Memref sig .tc .vmem S64x512 .f32) (harg14 : arg14.IsWhole)
    (arg15 : Memref sig .tc .vmem S1x64 .f32) (harg15 : arg15.IsWhole) (arg16 : Memref sig .tc .vmem S1x64 .f32) (harg16 : arg16.IsWhole)
    (arg17 : Memref sig .tc .vmem S512x512 .f32) (harg17 : arg17.IsWhole)
    (x0 : Vec F S512x2560 .bf16) (x1 : Vec F S512x2560 .bf16) (x2 : Vec F S512x512 .bf16)
    (x3 : Vec F S512x5 .f32) (x4 : Vec F S512x5 .f32) (x5 : Vec F S512x1 .f32) (x6 : Vec F S512x5 .i32) (x7 : Vec F S512x5 .i32)
    (x8 : Vec F S512x5 .f32) (x9 : Vec F S512x5 .f32) (x10 : Vec F S512x1 .f32) (x11 : Vec F S512x1 .f32)
    (x12 : Vec F S64x512 .f32) (x13 : Vec F S64x512 .f32) (x14 : Vec F S1x64 .f32) (x15 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15
            ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E
          (cc1__agg_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17) K := by
  -- the body and its six stretches, as sequences of loads and a store over pure functions
  simp only [cc1__agg_kernel_eq_skeleton]; unfold cc1__agg_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  -- each input buffer's raw contents, of which `xW` is the read
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  -- the run: every load reads a rectangle of an input as it was, the store writes the output's whole block
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  -- the output: one store of the whole block over whatever was there is the stored value
  iexists _; isplitr
  swap; · iexact H16
  ipureintro
  try dsimp only
  exact View.read_writes_eq_canon _ _ _ (cover1_16 _)

/-! ## The proof data's inputs at a point -/

/-- For the region's proof data each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation at a point -/

/-- What the body is started on at point `t`: the invariant, what the core owes, and each window's current buffer at
    what the proof data say it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- What the body returns: the same, each buffer at what the proof data say it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's triple applies at those blocks; the
    invariant and what the core owes are not touched by the body and are the same before and after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation for kernel 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Frame.lean ====
/-
  The run of the whole program: the buffers' contents at the two kernels' entries and exits, the two kernels as
  regions of the launch between stretches of host operations, and the launch itself — every weakly fair execution
  terminates and ends with the argument arrays as launched.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import proofs.«415035_j27650999452124_3_alg».proof.Proof.Gen.KernelIdeal.Regions
import proofs.«415035_j27650999452124_3_alg».proof.Proof.R0Body
import proofs.«415035_j27650999452124_3_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the memory the program is launched on
variable (m : (ℓ : Loc nD τ sig) → Buf (Elt F) ℓ)

/-! ## The buffers' contents at the two kernels' entries and exits -/

/-- What the first kernel finds: the launch memory after the three host stretches before it. -/
abbrev VR0 : (c : Dev nD) → (b : Ref sig .tc) → Buf (Elt F) ((c : Thread nD τ).loc b) := fun c b => Gen.V3 m c b

/-- The buffers when the first kernel ends: its four arrays at what the pipeline leaves in them (an input's array as
    it was found, an output's array with every block's write-back folded in), every other buffer as it was found. -/
def exit0 (c : Dev nD) : Valuation τ sig (Elt F) :=
  Pipeline.withArrays spec0 c (Gen.V3 m c) fun w => (dat0 (VR0 m) c).arrAt w cfg0.N

/-- The first kernel's part of the unknowns: at stage 4 a buffer holds what the first kernel's exit holds there; the
    other stages are not read before the second kernel. -/
def outs0 : Gen.Outs (F := F) := fun J r c => if J = 4 then exit0 m c r else Gen.V3 m c r

/-- What the second kernel finds, written over the first kernel's part alone: the valuation before the second kernel
    reads the unknowns at stage 4 only. -/
abbrev VR1' : (c : Dev nD) → (b : Ref sig .tc) → Buf (Elt F) ((c : Thread nD τ).loc b) := fun c b => Gen.V13 m (outs0 m) c b

/-- The buffers when the second kernel ends: its seventeen arrays at what the pipeline leaves in them, every other
    buffer as the second kernel found it. -/
def exit1 (c : Dev nD) : Valuation τ sig (Elt F) :=
  Pipeline.withArrays spec1 c (Gen.V13 m (outs0 m) c) fun w => (dat1 (VR1' m) c).arrAt w cfg1.N

/-- What the two kernels leave: at stage 4 the first kernel's exit, at stage 14 the second kernel's. -/
def outs : Gen.Outs (F := F) := fun J r c => if J = 14 then exit1 m c r else outs0 m J r c

/-- What the second kernel finds. -/
abbrev VR1 : (c : Dev nD) → (b : Ref sig .tc) → Buf (Elt F) ((c : Thread nD τ).loc b) := fun c b => Gen.V13 m (outs m) c b

/-- Up to the second kernel only stage 4 of the unknowns is read, and there the two families agree. -/
theorem V13_outs (c : Dev nD) : Gen.V13 m (outs m) c = Gen.V13 m (outs0 m) c := rfl

theorem VR1_eq : VR1 m = VR1' m := rfl

theorem exit0_arr (c : Dev nD) (w : Fin cfg0.W) :
    exit0 m c (Proc.devRef .tc (Pipeline.arrRef spec0 w)) = (dat0 (VR0 m) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 m c (Proc.devRef .tc b) = Gen.V3 m c (Proc.devRef .tc b) := by
  unfold exit0; exact Pipeline.withArrays_of_ne spec0 c _ _ b hb
theorem exit1_arr (c : Dev nD) (w : Fin cfg1.W) :
    exit1 m c (Proc.devRef .tc (Pipeline.arrRef spec1 w)) = (dat1 (VR1 m) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 m c (Proc.devRef .tc b) = Gen.V13 m (outs m) c (Proc.devRef .tc b) := by
  unfold exit1; exact Pipeline.withArrays_of_ne spec1 c _ _ b hb

/-! ## The three buffers the kernels write, read off the unknowns -/

/-- The wide output of the first kernel: the third window's array with every block written back. -/
theorem outs_v8_0 (c : Dev nD) : outs m 4 main_v8_0 c = (dat0 (VR0 m) c).arrAt 2 cfg0.N :=
  exit0_arr m c 2
/-- The narrow output of the first kernel: the fourth window's array with every block written back. -/
theorem outs_v8_1 (c : Dev nD) : outs m 4 main_v8_1 c = (dat0 (VR0 m) c).arrAt 3 cfg0.N :=
  exit0_arr m c 3
/-- The output of the second kernel: the last window's array with every block written back. -/
theorem outs_v47 (c : Dev nD) : outs m 14 main_v47 c = (dat1 (VR1 m) c).arrAt 16 cfg1.N :=
  exit1_arr m c 16

/-! ## The exits agree with the valuations the host stretches run from -/

/-- The buffers after the first kernel, read at the TensorCore's references. -/
abbrev VX0 : (c : Dev nD) → (b : Ref sig .tc) → Buf (Elt F) ((c : Thread nD τ).loc b) := fun c b => Gen.V4 m (outs m) c b
/-- The buffers after the second kernel, read at the TensorCore's references. -/
abbrev VX1 : (c : Dev nD) → (b : Ref sig .tc) → Buf (Elt F) ((c : Thread nD τ).loc b) := fun c b => Gen.V14 m (outs m) c b

/-- After the first kernel each of its arrays holds what the pipeline leaves: an input's array is as found (no block
    is written back, and the unknowns do not touch it), an output's is the unknown at stage 4. -/
theorem hF0 (c : Dev nD) (w : Fin cfg0.W) : (dat0 (VR0 m) c).arrAt w cfg0.N = VX0 m c (Pipeline.arrRef spec0 w) :=
  match w with
  | ⟨0, _⟩ => (((dat0 (VR0 m) c).arrAt_in 0 rfl _).trans (A_eq0 (VR0 m) c 0)).trans (Gen.V4_of m (outs m) c main_v2 (by decide)).symm
  | ⟨1, _⟩ => (((dat0 (VR0 m) c).arrAt_in 1 rfl _).trans (A_eq0 (VR0 m) c 1)).trans (Gen.V4_of m (outs m) c main_v7 (by decide)).symm
  | ⟨2, _⟩ => by
      show _ = Gen.V4 m (outs m) c (Proc.devRef .tc main_v8_0)
      rw [Gen.V4, Function.update_of_ne (StableHlo.devRef_ne_of_ne (by decide) : (Proc.devRef .tc main_v8_0 : DevRef τ sig) ≠ Proc.devRef .tc main_v8_1),
        Function.update_self]
      exact (outs_v8_0 m c).symm
  | ⟨3, _⟩ => by
      show _ = Gen.V4 m (outs m) c (Proc.devRef .tc main_v8_1)
      rw [Gen.V4, Function.update_self]
      exact (outs_v8_1 m c).symm
/-- The first kernel changes no buffer but its arrays. -/
theorem hrest0 (c : Dev nD) : ∀ b, b ∉ Finset.univ.image (Pipeline.arrRef spec0) → VX0 m c b = VR0 m c b :=
  fun b hb => Gen.V4_of m (outs m) c b fun hmem => by
    rcases List.mem_cons.mp hmem with rfl | hmem
    · exact hb (Finset.mem_image.mpr ⟨2, Finset.mem_univ _, rfl⟩)
    rcases List.mem_cons.mp hmem with rfl | hmem
    · exact hb (Finset.mem_image.mpr ⟨3, Finset.mem_univ _, rfl⟩)
    exact absurd hmem List.not_mem_nil

/-- After the second kernel each of its arrays holds what the pipeline leaves: the sixteen inputs' arrays are as found,
    the output's is the unknown at stage 14. -/
theorem hF1 (c : Dev nD) (w : Fin cfg1.W) : (dat1 (VR1 m) c).arrAt w cfg1.N = VX1 m c (Pipeline.arrRef spec1 w) := by
  by_cases hw : w = 16
  · subst hw
    show _ = Gen.V14 m (outs m) c (Proc.devRef .tc main_v47)
    rw [Gen.V14, Function.update_self]
    exact (outs_v47 m c).symm
  · -- every window but the last is an input, and its array is another buffer than the output's
    have hin : (cfg1.win w).isOut = false :=
      (by decide : ∀ w : Fin 17, w ≠ 16 → (cfg1.win w).isOut = false) w hw
    have hne : Pipeline.arrRef spec1 w ∉ ([main_v47] : List (Ref sig .tc)) :=
      (by decide : ∀ w : Fin 17, w ≠ 16 → Pipeline.arrRef spec1 w ∉ ([main_v47] : List (Ref sig .tc))) w hw
    exact (((dat1 (VR1 m) c).arrAt_in w hin _).trans (A_eq1 (VR1 m) c w)).trans (Gen.V14_of m (outs m) c _ hne).symm
/-- The second kernel changes no buffer but its arrays. -/
theorem hrest1 (c : Dev nD) : ∀ b, b ∉ Finset.univ.image (Pipeline.arrRef spec1) → VX1 m c b = VR1 m c b :=
  fun b hb => Gen.V14_of m (outs m) c b fun hmem => by
    rcases List.mem_cons.mp hmem with rfl | hmem
    · exact hb (Finset.mem_image.mpr ⟨16, Finset.mem_univ _, rfl⟩)
    exact absurd hmem List.not_mem_nil

/-! ## The proof data of the two pipelines and what rides beside the buffers -/

/-- Each pipeline's proof data at the contents its kernel finds. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

abbrev 𝒱₀ : Variants := Variants.none
/-- No core waits for another: no level is assigned. -/
abbrev L : GSem nD τ sig → Finset Unit := fun _ => ∅
abbrev lv : GSem nD τ sig → Unit → ℕ := fun _ _ => 0

/-- What a core keeps beside its buffers from the launch to the end: its generator register at some state and the
    record that it owes nothing. -/
abbrev R (c : Dev nD) : sProp 𝕄 := iprop((∃ r, prngReg c r) ∗ ∃ W, owes (c : Thread nD τ) (0 : CellTallies nD τ sig Unit) W)
/-- The same at each of the three stretches between the kernels. -/
abbrev E : Fin 3 → Dev nD → sProp 𝕄 := fun _ c => R (F := F) c

-- a library lemma stated over the pinned configuration unifies with the printed one only when unification may unfold
-- plain definitions in a metavariable's type
set_option backward.isDefEq.respectTransparency.types false in
/-- Kernel 0 as a region of the launch. It is entered with every unscoped buffer held at the entry contents and left
    with them held at the exit contents: its arrays are split out of the unscoped buffers at the entry and put back at
    the exit, the generator register goes into the pipeline's invariant and comes back, nothing is owed, and the
    kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel 1 as a region of the launch. It is entered with every unscoped buffer held at the entry contents and left
    with them held at the exit contents: its arrays are split out of the unscoped buffers at the entry and put back at
    the exit, the generator register goes into the pipeline's invariant and comes back, nothing is owed, and the
    kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' cells and tokens, and no further ghost resource on any core. -/
abbrev u₀ : UR sig nD τ := initOf (Pipeline.cells cfgs cellOf_inj) (Pipeline.launchToks cfgs cellOf_inj)

/-- Owning the launch element is owning it through the embedding of the whole user component; the cores' further
    resources are empty. -/
theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const, ownU_emb₁]
  iintro Hu; imodintro
  isplitl [Hu]; · iexact Hu
  iempintro

/-- Of what the launch deals a core, the generator register and the empty record of dues stay beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end a core owes nothing. -/
theorem hE2 (c : Dev nD) : E (F := F) 2 c ⊢ (iprop(∃ W, owes (c : Thread nD τ) (0 : CellTallies nD τ sig Unit) W) : sProp 𝕄) := by
  iintro ⟨-, HO⟩; iexact HO

-- the launch theorem's implicit arguments are found by unifying its hypotheses' types with these, which takes
-- unfolding plain definitions in a metavariable's type
set_option backward.isDefEq.respectTransparency.types false in
/-- THE FRAME: from any memory with zero counters every weakly fair execution of the program terminates, and every
    final memory holds each of the nineteen argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () 𝒱₀ L lv (fun _ _ => rfl) ρ (outs m) (pdats m) 0 (fun _ => iprop(emp)) u₀ hu₀
    E (hE0 ρ) hE2 (reg0 m) (fun _ => .rfl) (fun _ => .rfl) (reg1 m) (fun _ => .rfl) (fun _ => .rfl)

end Cert.KernelIdeal.Hand

end
-- ==== Proof.RunValue.lean ====
/-
  The run of the whole program, read at the result: every weakly fair execution terminates and ends with the result
  buffer holding what the last valuation holds there — the launch memory after the host stretches and the two
  kernels' exits.
-/
import proofs.«415035_j27650999452124_3_alg».proof.Proof.Frame
import proofs.«415035_j27650999452124_3_alg».proof.Proof.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the memory the program is launched on
variable (m : (ℓ : Loc nD τ sig) → Buf (Elt F) ℓ)

-- the launch theorem's implicit arguments are found by unifying its hypotheses' types with these, which takes
-- unfolding plain definitions in a metavariable's type
set_option backward.isDefEq.respectTransparency.types false in
/-- THE RESULT: from any memory with zero counters every weakly fair execution of the program terminates, and every
    final memory holds in the result buffer what the last valuation holds there, and every argument as launched: the same launch as the frame's, over
    the same regions and the same resources beside the buffers. -/
theorem run_value (ρ : Dev nD → PrngReg) : θ_run defs (onTc (τ := τ) (main (F := F))) ⟨m, fun _ => 0, ρ⟩
    (fun r => ∀ c : Dev nD, r.2.mem ((c.tc : Thread nD τ).loc main_v49) = Gen.V15 m (outs m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_cond m emb₁ () 𝒱₀ L lv (fun _ _ => rfl) ρ (outs m) (pdats m) 0 (fun _ => iprop(emp)) u₀ hu₀
    E (hE0 ρ) hE2 (reg0 m) (fun _ => .rfl) (fun _ => .rfl) (reg1 m) (fun _ => .rfl) (fun _ => .rfl)

end Cert.KernelIdeal.Hand

end
-- ==== Proof.K0Value.lean ====
/-
  The first kernel's value at the ideal floats. Each grid point t multiplies rows 1024 t .. 1024 t + 1023 of the
  8192 x 512 left factor by the whole 512 x 1664 right factor and writes the first 1536 columns of the product to the
  wide output's block t and the last 128 columns to the narrow output's block t. Rounding is the identity at the ideal
  floats and the product is accumulated onto zero, so after the eight points entry (r, j) of the wide output is the
  sum over k of left (r, k) * right (k, j), and entry (r, j) of the narrow one the same sum at column 1536 + j.
-/
import proofs.«415035_j27650999452124_3_alg».proof.Proof.R0Defs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.ValueIdx
open scoped BigOperators

-- the TensorCore's buffer contents when the region is entered, at the ideal floats
variable (V : (c : Dev nD) → (b : Ref sig .tc) → Buf (Elt Ideal) ((c : Thread nD τ).loc b))

/-- The left factor (8192 x 512) and the right factor (512 x 1664) as the region finds them, as functions into the
    extended reals over their literal index types. -/
abbrev matmulLeft (c : Dev nD) : S8192x512.Idx → EReal := V c main_v2
abbrev matmulRight (c : Dev nD) : S512x1664.Idx → EReal := V c main_v7
theorem matmulLeft_def (c : Dev nD) : matmulLeft V c = (V c main_v2 : S8192x512.Idx → EReal) := rfl
theorem matmulRight_def (c : Dev nD) : matmulRight V c = (V c main_v7 : S512x1664.Idx → EReal) := rfl

namespace MatmulValue

/-! ## The matrix product at an index -/

/-- The left operand's row coordinate at output index i is i's row, -/
theorem lhs_mm_0 (i : S1024x1664.Idx) (q : dot_S1024x512_S512x1664_S1024x1664_1_0_0_1_n_n.contr.Idx) :
    (dot_S1024x512_S512x1664_S1024x1664_1_0_0_1_n_n.lhsIdx i q 0).val = (i 0).val := by
  unfold DotDims.lhsIdx
  rw [dif_neg (show ¬(0 : Fin S1024x512.rank) ∈ dot_S1024x512_S512x1664_S1024x1664_1_0_0_1_n_n.lhsBatch by decide), dif_pos (show (0 : Fin S1024x512.rank) ∈ dot_S1024x512_S512x1664_S1024x1664_1_0_0_1_n_n.lhsNonContracting by decide)]
  rfl
/-- its column coordinate is the contracted coordinate, -/
theorem lhs_mm_1 (i : S1024x1664.Idx) (q : dot_S1024x512_S512x1664_S1024x1664_1_0_0_1_n_n.contr.Idx) :
    (dot_S1024x512_S512x1664_S1024x1664_1_0_0_1_n_n.lhsIdx i q 1).val = (q ⟨0, by decide⟩).val :=
  dot_S1024x512_S512x1664_S1024x1664_1_0_0_1_n_n.lhsIdx_val_of_single rfl i q
/-- the right operand's row coordinate is the contracted coordinate, -/
theorem rhs_mm_0 (i : S1024x1664.Idx) (q : dot_S1024x512_S512x1664_S1024x1664_1_0_0_1_n_n.contr.Idx) :
    (dot_S1024x512_S512x1664_S1024x1664_1_0_0_1_n_n.rhsIdx i q 0).val = (q ⟨0, by decide⟩).val :=
  dot_S1024x512_S512x1664_S1024x1664_1_0_0_1_n_n.rhsIdx_val_of_single rfl i q
/-- and its column coordinate is i's column. -/
theorem rhs_mm_1 (i : S1024x1664.Idx) (q : dot_S1024x512_S512x1664_S1024x1664_1_0_0_1_n_n.contr.Idx) :
    (dot_S1024x512_S512x1664_S1024x1664_1_0_0_1_n_n.rhsIdx i q 1).val = (i 1).val := by
  unfold DotDims.rhsIdx
  rw [dif_neg (show ¬(1 : Fin S512x1664.rank) ∈ dot_S1024x512_S512x1664_S1024x1664_1_0_0_1_n_n.rhsBatch by decide), dif_pos (show (1 : Fin S512x1664.rank) ∈ dot_S1024x512_S512x1664_S1024x1664_1_0_0_1_n_n.rhsNonContracting by decide)]
  rfl

/-- The 1024 x 1664 product of the two loaded blocks, at (p, q): the sum over the 512 contracted coordinates. -/
theorem pay1_apply (x0 : Vec Ideal S1024x512 .bf16) (x1 : Vec Ideal S512x1664 .bf16) (p : Fin 1024) (q : Fin 1664) :
    k0_pay1 (F := Ideal) x0 x1 (ix2 p q) = ∑ k : Fin 512, x0 (ix2 p k) * x1 (ix2 k q) := by
  unfold k0_pay1
  simp only [shapeCast_self]
  refine (Ideal.matmul_constant_zero_apply (φ₁ := .bf16) (φ₂ := .bf16) dot_S1024x512_S512x1664_S1024x1664_1_0_0_1_n_n none x0 x1 (ix2 p q)).trans ?_
  rw [← Equiv.sum_comp (contrEquiv1 dot_S1024x512_S512x1664_S1024x1664_1_0_0_1_n_n 512 rfl rfl).symm]
  refine Finset.sum_congr rfl fun k _ => ?_
  have hk := contrEquiv1_symm_val dot_S1024x512_S512x1664_S1024x1664_1_0_0_1_n_n 512 rfl rfl k
  have el : dot_S1024x512_S512x1664_S1024x1664_1_0_0_1_n_n.lhsIdx (ix2 p q) ((contrEquiv1 dot_S1024x512_S512x1664_S1024x1664_1_0_0_1_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S512x1664_S1024x1664_1_0_0_1_n_n.rhsIdx (ix2 p q) ((contrEquiv1 dot_S1024x512_S512x1664_S1024x1664_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-- What is stored to the wide output, at (p, j): the product's entry at the same column. -/
theorem pay2_apply (x0 : Vec Ideal S1024x512 .bf16) (x1 : Vec Ideal S512x1664 .bf16) (p : Fin 1024) (j : Fin 1536) :
    k0_pay2 (F := Ideal) x0 x1 (ix2 p j) = ∑ k : Fin 512, x0 (ix2 p k) * x1 (ix2 k ⟨j.val, by omega⟩) := by
  unfold k0_pay2
  show extractStridedSlice S1024x1536 ![0, 0] (k0_pay1 (F := Ideal) x0 x1) slices_S1024x1664_o0_0_S1024x1536 (ix2 p j) = _
  refine (slice2_axis1_apply 0 (k0_pay1 (F := Ideal) x0 x1) slices_S1024x1664_o0_0_S1024x1536 p j ⟨j.val, by omega⟩ (Nat.zero_add _).symm).trans ?_
  exact pay1_apply x0 x1 p ⟨j.val, by omega⟩

/-- What is stored to the narrow output, at (p, j): the product's entry at column 1536 + j. -/
theorem pay3_apply (x0 : Vec Ideal S1024x512 .bf16) (x1 : Vec Ideal S512x1664 .bf16) (p : Fin 1024) (j : Fin 128) :
    k0_pay3 (F := Ideal) x0 x1 (ix2 p j) = ∑ k : Fin 512, x0 (ix2 p k) * x1 (ix2 k ⟨1536 + j.val, by omega⟩) := by
  unfold k0_pay3
  show extractStridedSlice S1024x128 ![0, 1536] (k0_pay1 (F := Ideal) x0 x1) slices_S1024x1664_o0_1536_S1024x128 (ix2 p j) = _
  refine (slice2_axis1_apply 1536 (k0_pay1 (F := Ideal) x0 x1) slices_S1024x1664_o0_1536_S1024x128 p j ⟨1536 + j.val, by omega⟩ rfl).trans ?_
  exact pay1_apply x0 x1 p ⟨1536 + j.val, by omega⟩

/-! ## The result arrays as functions of the two factors -/

/-- The wide result: entry (r, j) is the sum over k of left (r, k) * right (k, j). -/
def wideOf (X : S8192x512.Idx → EReal) (W : S512x1664.Idx → EReal) : S8192x1536.Idx → EReal := fun i =>
  ∑ k : Fin 512, X (ix2 ⟨(i 0).val, idx2_lt0 i⟩ k) * W (ix2 k ⟨(i 1).val, Nat.lt_trans (idx2_lt1 i) (by decide)⟩)

/-- The narrow result: entry (r, j) is the same sum at column 1536 + j. -/
def narrowOf (X : S8192x512.Idx → EReal) (W : S512x1664.Idx → EReal) : S8192x128.Idx → EReal := fun i =>
  ∑ k : Fin 512, X (ix2 ⟨(i 0).val, idx2_lt0 i⟩ k) * W (ix2 k ⟨1536 + (i 1).val, by have := idx2_lt1 i; omega⟩)

/-- One entry of the wide block at a point: if the left block is rows 1024 b .. of X and the right block is W, the
    stored value at y is the wide result at the array index i that y sits at. -/
theorem wide_point (X : S8192x512.Idx → EReal) (W : S512x1664.Idx → EReal)
    (x0 : Vec Ideal S1024x512 .bf16) (x1 : Vec Ideal S512x1664 .bf16) (b : ℕ)
    (h0 : ∀ (p : Fin 1024) (k : Fin 512) (r : Fin 8192), r.val = 1024 * b + p.val → x0 (ix2 p k) = X (ix2 r k))
    (h1 : ∀ (k : Fin 512) (q : Fin 1664), x1 (ix2 k q) = W (ix2 k q))
    (y : S1024x1536.Idx) (i : S8192x1536.Idx) (hi0 : (i 0).val = 1024 * b + (y 0).val) (hi1 : (i 1).val = (y 1).val) :
    k0_pay2 (F := Ideal) x0 x1 y = wideOf X W i := by
  obtain ⟨p, j, rfl⟩ : ∃ (p : Fin 1024) (j : Fin 1536), y = ix2 p j := ⟨y 0, y 1, eq_ix2 y⟩
  refine (pay2_apply x0 x1 p j).trans ?_
  unfold wideOf
  refine Finset.sum_congr rfl fun k _ => ?_
  rw [h0 p k ⟨(i 0).val, idx2_lt0 i⟩ hi0, h1]
  have hj : (⟨j.val, by omega⟩ : Fin 1664) = ⟨(i 1).val, Nat.lt_trans (idx2_lt1 i) (by decide)⟩ := Fin.ext hi1.symm
  rw [hj]

/-- The same for the narrow block. -/
theorem narrow_point (X : S8192x512.Idx → EReal) (W : S512x1664.Idx → EReal)
    (x0 : Vec Ideal S1024x512 .bf16) (x1 : Vec Ideal S512x1664 .bf16) (b : ℕ)
    (h0 : ∀ (p : Fin 1024) (k : Fin 512) (r : Fin 8192), r.val = 1024 * b + p.val → x0 (ix2 p k) = X (ix2 r k))
    (h1 : ∀ (k : Fin 512) (q : Fin 1664), x1 (ix2 k q) = W (ix2 k q))
    (y : S1024x128.Idx) (i : S8192x128.Idx) (hi0 : (i 0).val = 1024 * b + (y 0).val) (hi1 : (i 1).val = (y 1).val) :
    k0_pay3 (F := Ideal) x0 x1 y = narrowOf X W i := by
  obtain ⟨p, j, rfl⟩ : ∃ (p : Fin 1024) (j : Fin 128), y = ix2 p j := ⟨y 0, y 1, eq_ix2 y⟩
  refine (pay3_apply x0 x1 p j).trans ?_
  unfold narrowOf
  refine Finset.sum_congr rfl fun k _ => ?_
  rw [h0 p k ⟨(i 0).val, idx2_lt0 i⟩ hi0, h1]
  have hj : (⟨1536 + j.val, by omega⟩ : Fin 1664) = ⟨1536 + (i 1).val, by have := idx2_lt1 i; omega⟩ :=
    Fin.ext (congrArg (1536 + ·) hi1.symm)
  rw [hj]

/-! ## The blocks of the four windows -/

theorem hz0 : (![0, 0] : Fin 2 → Nat) = fun _ => 0 := funext fun a => by
  match a with
  | ⟨0, _⟩ => rfl
  | ⟨1, _⟩ => rfl

/-- The block index of each window at point t, decided over the eight points: the left factor and both outputs
    move down one block of rows per point; the right factor stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem block_onto : ∀ q : Fin 8, ∃ t : Fin cfg0.N, t.val = q.val :=
  (by decide +kernel : ∀ q : Fin 8, ∃ t : Fin grid0.N, t.val = q.val)

/-- The two factors' blocks at a point, at literal types. -/
abbrev leftBlk (c : Dev nD) (t : Fin cfg0.N) : Vec Ideal S1024x512 .bf16 := iblk0 V c 0 t
abbrev rightBlk (c : Dev nD) (t : Fin cfg0.N) : Vec Ideal S512x1664 .bf16 := iblk0 V c 1 t

/-- The left block at point t is rows 1024 t .. 1024 t + 1023 of the left factor. -/
theorem leftBlk_apply (c : Dev nD) (t : Fin cfg0.N) (p : Fin 1024) (k : Fin 512) (r : Fin 8192)
    (hr : r.val = 1024 * t.val + p.val) : leftBlk V c t (ix2 p k) = matmulLeft V c (ix2 r k) := by
  obtain ⟨e0, e1, -⟩ := block_index t
  show ((cfg0.win 0).blk t).view.read (Elt Ideal) (V c (Pipeline.arrRef spec0 0)) (ix2 p k) = _
  rw [View.read_apply]
  show V c main_v2 _ = V c main_v2 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The right block at every point is the whole right factor. -/
theorem rightBlk_apply (c : Dev nD) (t : Fin cfg0.N) (k : Fin 512) (q : Fin 1664) :
    rightBlk V c t (ix2 k q) = matmulRight V c (ix2 k q) := by
  obtain ⟨-, -, e2, e3, -⟩ := block_index t
  show ((cfg0.win 1).blk t).view.read (Elt Ideal) (V c (Pipeline.arrRef spec0 1)) (ix2 k q) = _
  rw [View.read_apply]
  show V c main_v7 _ = V c main_v7 _
  congr 1
  funext a
  apply Fin.ext
  match a with
  | ⟨0, _⟩ => show win0_1.index t (0 : Fin 2) * 512 + 1 * k.val = k.val; rw [e2]; omega
  | ⟨1, _⟩ => show win0_1.index t (1 : Fin 2) * 1664 + 1 * q.val = q.val; rw [e3]; omega

/-! ## What each point writes back -/

/-- Point t writes block t of the wide result. -/
theorem flushed_wide (c : Dev nD) (t : Fin cfg0.N) :
    (dat0 (F := Ideal) V c).flushed 2 t
      = ((cfg0.win 2).blk t).view.read (Elt Ideal) (wideOf (matmulLeft V c) (matmulRight V c)) := by
  show (cfg0.win 2).cut (grid0.coords t) ((dat0 (F := Ideal) V c).after 2 t) = _
  rw [after0_2]
  unfold out0_2
  rw [View.canon_unit_zero hz0]
  simp only [View.ld_unit_zero (S := S1024x512) hz0, View.ld_unit_zero (S := S512x1664) hz0]
  obtain ⟨-, -, -, -, e4, e5, -⟩ := block_index t
  funext y
  show k0_pay2 (F := Ideal) (leftBlk V c t) (rightBlk V c t) y
    = wideOf (matmulLeft V c) (matmulRight V c) (((cfg0.win 2).blk t).view.emb y)
  refine wide_point (matmulLeft V c) (matmulRight V c) (leftBlk V c t) (rightBlk V c t) t.val
    (fun p k r hr => leftBlk_apply V c t p k r hr) (fun k q => rightBlk_apply V c t k q) y
    (((cfg0.win 2).blk t).view.emb y) ?_ ?_
  · show win0_2.index t (0 : Fin 2) * 1024 + 1 * (y 0).val = 1024 * t.val + (y 0).val; rw [e4]; omega
  · show win0_2.index t (1 : Fin 2) * 1536 + 1 * (y 1).val = (y 1).val; rw [e5]; omega

/-- Point t writes block t of the narrow result. -/
theorem flushed_narrow (c : Dev nD) (t : Fin cfg0.N) :
    (dat0 (F := Ideal) V c).flushed 3 t
      = ((cfg0.win 3).blk t).view.read (Elt Ideal) (narrowOf (matmulLeft V c) (matmulRight V c)) := by
  show (cfg0.win 3).cut (grid0.coords t) ((dat0 (F := Ideal) V c).after 3 t) = _
  rw [after0_3]
  unfold out0_3
  rw [View.canon_unit_zero hz0]
  simp only [View.ld_unit_zero (S := S1024x512) hz0, View.ld_unit_zero (S := S512x1664) hz0]
  obtain ⟨-, -, -, -, -, -, e6, e7⟩ := block_index t
  funext y
  show k0_pay3 (F := Ideal) (leftBlk V c t) (rightBlk V c t) y
    = narrowOf (matmulLeft V c) (matmulRight V c) (((cfg0.win 3).blk t).view.emb y)
  refine narrow_point (matmulLeft V c) (matmulRight V c) (leftBlk V c t) (rightBlk V c t) t.val
    (fun p k r hr => leftBlk_apply V c t p k r hr) (fun k q => rightBlk_apply V c t k q) y
    (((cfg0.win 3).blk t).view.emb y) ?_ ?_
  · show win0_3.index t (0 : Fin 2) * 1024 + 1 * (y 0).val = 1024 * t.val + (y 0).val; rw [e6]; omega
  · show win0_3.index t (1 : Fin 2) * 128 + 1 * (y 1).val = (y 1).val; rw [e7]; omega

/-! ## The blocks cover the arrays -/

/-- An index of the wide array is in point t's block iff each coordinate is in the block's range on its axis. -/
theorem mem_wide (t : Fin cfg0.N) (i : S8192x1536.Idx) :
    i ∈ ((cfg0.win 2).blk t).view.set ↔ ∀ a : Fin 2, win0_2.index t a * S1024x1536.size a ≤ (i a).val
      ∧ (i a).val < win0_2.index t a * S1024x1536.size a + S1024x1536.size a := by
  show i ∈ ((View.whole main_v8_0).slice (win0_2.rect t)).set ↔ _
  rw [View.set_slice_whole, Rect.mem_set_unit]
  exact Iff.rfl

/-- The same for the narrow array. -/
theorem mem_narrow (t : Fin cfg0.N) (i : S8192x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v8_1).slice (win0_3.rect t)).set ↔ _
  rw [View.set_slice_whole, Rect.mem_set_unit]
  exact Iff.rfl

/-- Row r of the wide array is in the block of point r / 1024. -/
theorem cover_wide (i : S8192x1536.Idx) :
    ∃ t : Fin cfg0.N, (cfg0.win 2).flush t = true ∧ i ∈ ((cfg0.win 2).blk t).view.set := by
  have hi0 : (i 0).val < 8192 := (i 0).isLt
  have hi1 : (i 1).val < 1536 := (i 1).isLt
  obtain ⟨t, ht⟩ := block_onto ⟨(i 0).val / 1024, by omega⟩
  have ht' : t.val = (i 0).val / 1024 := ht
  obtain ⟨-, -, -, -, e4, e5, -⟩ := block_index t
  refine ⟨t, flush0_2 t, ?_⟩
  rw [mem_wide]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1536 ≤ (i 1).val ∧ (i 1).val < win0_2.index t (1 : Fin 2) * 1536 + 1536
    rw [e5]; omega

/-- Row r of the narrow array is in the block of point r / 1024. -/
theorem cover_narrow (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := block_onto ⟨(i 0).val / 1024, by omega⟩
  have ht' : t.val = (i 0).val / 1024 := ht
  obtain ⟨-, -, -, -, -, -, e6, e7⟩ := block_index t
  refine ⟨t, flush0_3 t, ?_⟩
  rw [mem_narrow]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 128 ≤ (i 1).val ∧ (i 1).val < win0_3.index t (1 : Fin 2) * 128 + 128
    rw [e7]; omega

/-! ## The arrays after the eight points -/

/-- The wide output array ends holding the wide result of the two factors. -/
theorem wide_final (c : Dev nD) :
    (dat0 (F := Ideal) V c).arrAt 2 cfg0.N = wideOf (matmulLeft V c) (matmulRight V c) :=
  (dat0 (F := Ideal) V c).arrAt_eq_of_cover 2 (wideOf (matmulLeft V c) (matmulRight V c))
    (fun t _ => flushed_wide V c t) cover_wide

/-- The narrow output array ends holding the narrow result of the two factors. -/
theorem narrow_final (c : Dev nD) :
    (dat0 (F := Ideal) V c).arrAt 3 cfg0.N = narrowOf (matmulLeft V c) (matmulRight V c) :=
  (dat0 (F := Ideal) V c).arrAt_eq_of_cover 3 (narrowOf (matmulLeft V c) (matmulRight V c))
    (fun t _ => flushed_narrow V c t) cover_narrow

end MatmulValue

open MatmulValue

/-- After the first kernel, entry (r, j) of the wide output is the sum over k of left (r, k) * right (k, j). -/
theorem arr0_2_apply (c : Dev nD) (r : Fin 8192) (j : Fin 1536) :
    ((dat0 (F := Ideal) V c).arrAt 2 cfg0.N : S8192x1536.Idx → EReal) (ix2 r j)
      = (∑ k : Fin 512, matmulLeft V c (ix2 r k) * matmulRight V c (ix2 k ⟨j.val, by omega⟩) : EReal) :=
  congrFun (wide_final V c) (ix2 r j)

/-- After the first kernel, entry (r, j) of the narrow output is the same sum at column 1536 + j. -/
theorem arr0_3_apply (c : Dev nD) (r : Fin 8192) (j : Fin 128) :
    ((dat0 (F := Ideal) V c).arrAt 3 cfg0.N : S8192x128.Idx → EReal) (ix2 r j)
      = (∑ k : Fin 512, matmulLeft V c (ix2 r k) * matmulRight V c (ix2 k ⟨1536 + j.val, by omega⟩) : EReal) :=
  congrFun (narrow_final V c) (ix2 r j)

end Cert.KernelIdeal.Hand

end
-- ==== Proof.Spec.lean ====
/-
  What both programs compute, as ONE function of the nineteen argument arrays, on the extended reals.

  Rows. The source `src : [512, 16, 512]` (position, batch, feature) is transposed and flattened to `x : [8192, 512]`,
  row `r = batch * 512 + position`. Three square matrices and three columns project every row:
  `proj x W r u = ∑ k, x[r, k] * W[k, u]`.

  Arcs. Row `r` has five incoming and five outgoing arcs, arc `d` of row `r` sitting at flat position `5 r + d` of the
  arc tables. An arc names a row by the 32-bit word `arc[0, e] * 512 + arc[1, e]`, read signed and clamped into the 8192
  rows, and a label by the word `lab[0, e]`, read signed and clamped into the 64 labels.

  One arc's message is the named row's projection plus the label's bias row; its gate is the logistic of the named row's
  scalar projection plus the label's scalar bias, times the arc's mask entry; the row's own message is its self projection
  gated by the logistic of its scalar self projection times the loop mask. The result at `(position, batch, u)` is the sum
  of the eleven gated messages of row `r`, cut off below at zero, times the sentence mask at `(position, batch)`.
-/
import Idealize.ShloMosaic.PureOps.Ideal
import Idealize.ShloMosaic.Lib.ValueIdx

noncomputable section

open scoped BigOperators

namespace Cert.Spec

open Idealize.ShloMosaic Idealize.ShloMosaic.ValueIdx

/-- Shapes of rank two and three, written out. -/
abbrev Sh2 (a b : Nat) : Shape := ⟨2, ![a, b]⟩
abbrev Sh3 (a b c : Nat) : Shape := ⟨3, ![a, b, c]⟩

/-! ## Rows and arcs -/

/-- Row `r`'s `d`-th arc sits at flat position `5 r + d`. -/
def edge (r : Fin 8192) (d : Fin 5) : Fin 40960 := ⟨5 * r.val + d.val, by omega⟩

/-- The row of batch entry `b` at position `s`. -/
def rowOf (b : Fin 16) (s : Fin 512) : Fin 8192 := ⟨b.val * 512 + s.val, by omega⟩

/-- The word an arc names its row by: `batch * 512 + position` in 32-bit arithmetic. -/
def arcWord (arc : (Sh2 2 40960).Idx → BitVec 32) (e : Fin 40960) : BitVec 32 :=
  arc (ix2 (0 : Fin 2) e) * 512#32 + arc (ix2 (1 : Fin 2) e)

/-- That word read signed and clamped into the 8192 rows. -/
def arcRow (arc : (Sh2 2 40960).Idx → BitVec 32) (e : Fin 40960) : Fin 8192 :=
  ⟨min (arcWord arc e).toInt.toNat 8191, by omega⟩

/-- An arc's label word read signed and clamped into the 64 labels. -/
def labRow (lab : (Sh2 1 40960).Idx → BitVec 32) (e : Fin 40960) : Fin 64 :=
  ⟨min (lab (ix2 (0 : Fin 1) e)).toInt.toNat 63, by omega⟩

/-- Every arc's row word is non-negative. -/
def ArcOK (arc : (Sh2 2 40960).Idx → BitVec 32) : Prop := ∀ e : Fin 40960, 0 ≤ (arcWord arc e).toInt

/-- Every label word lies in `[0, 64)`. -/
def LabOK (lab : (Sh2 1 40960).Idx → BitVec 32) : Prop :=
  ∀ e : Fin 40960, 0 ≤ (lab (ix2 (0 : Fin 1) e)).toInt ∧ (lab (ix2 (0 : Fin 1) e)).toInt < 64

/-- The source laid out by rows: transposed to (batch, position, feature), then flattened. Both programs build it by
    these two operations, so it is never read at an index. -/
def xRows (src : (Sh3 512 16 512).Idx → EReal) : (Sh2 8192 512).Idx → EReal :=
  shapeCast (Sh2 8192 512) (transpose (Sh3 16 512 512) [1, 0, 2] src)

/-- One row against one column of a matrix. -/
def proj {n : Nat} (x : (Sh2 8192 512).Idx → EReal) (W : (Sh2 512 n).Idx → EReal) (r : Fin 8192) (j : Fin n) : EReal :=
  ∑ k : Fin 512, x (ix2 r k) * W (ix2 k j)

/-! ## The eleven gated messages of a row and their sum -/

/-- One arc's gated message at feature `u`. -/
def arcTerm (x : (Sh2 8192 512).Idx → EReal) (W : (Sh2 512 512).Idx → EReal) (b : (Sh2 64 512).Idx → EReal)
    (Wg : (Sh2 512 1).Idx → EReal) (bg : (Sh2 64 1).Idx → EReal)
    (arc : (Sh2 2 40960).Idx → BitVec 32) (lab : (Sh2 1 40960).Idx → BitVec 32) (mask : (Sh2 8192 5).Idx → EReal)
    (r : Fin 8192) (d : Fin 5) (u : Fin 512) : EReal :=
  (proj x W (arcRow arc (edge r d)) u + b (ix2 (labRow lab (edge r d)) u))
    * (Ideal.logistic (proj x Wg (arcRow arc (edge r d)) (0 : Fin 1) + bg (ix2 (labRow lab (edge r d)) (0 : Fin 1)))
        * mask (ix2 r d))

/-- The row's own gated message at feature `u`. -/
def selfTerm (x : (Sh2 8192 512).Idx → EReal) (W : (Sh2 512 512).Idx → EReal) (Wg : (Sh2 512 1).Idx → EReal)
    (mloop : (Sh2 8192 1).Idx → EReal) (r : Fin 8192) (u : Fin 512) : EReal :=
  proj x W r u * (Ideal.logistic (proj x Wg r (0 : Fin 1)) * mloop (ix2 r (0 : Fin 1)))

/-- Eleven terms added from zero in the order: in 0, out 0, in 1, out 1, …, in 4, out 4, self. -/
def acc (tin tout : Fin 5 → EReal) (tself : EReal) : EReal :=
  ((((((((((0 + tin 0) + tout 0) + tin 1) + tout 1) + tin 2) + tout 2) + tin 3) + tout 3) + tin 4) + tout 4) + tself

/-- The summed messages of row `r` at feature `u`, cut off below at zero. -/
def outAt (src : (Sh3 512 16 512).Idx → EReal) (arcIn arcOut : (Sh2 2 40960).Idx → BitVec 32)
    (labIn labOut : (Sh2 1 40960).Idx → BitVec 32) (maskIn maskOut : (Sh2 8192 5).Idx → EReal)
    (maskLoop : (Sh2 8192 1).Idx → EReal)
    (Vin : (Sh2 512 512).Idx → EReal) (bIn : (Sh2 64 512).Idx → EReal) (VinG : (Sh2 512 1).Idx → EReal) (bInG : (Sh2 64 1).Idx → EReal)
    (Vout : (Sh2 512 512).Idx → EReal) (bOut : (Sh2 64 512).Idx → EReal) (VoutG : (Sh2 512 1).Idx → EReal) (bOutG : (Sh2 64 1).Idx → EReal)
    (Wself : (Sh2 512 512).Idx → EReal) (WselfG : (Sh2 512 1).Idx → EReal) (r : Fin 8192) (u : Fin 512) : EReal :=
  max (acc (fun d => arcTerm (xRows src) Vin bIn VinG bInG arcIn labIn maskIn r d u)
           (fun d => arcTerm (xRows src) Vout bOut VoutG bOutG arcOut labOut maskOut r d u)
           (selfTerm (xRows src) Wself WselfG maskLoop r u)) 0

/-- The result by (batch, position, feature), before the last transposition. -/
def G3 (src : (Sh3 512 16 512).Idx → EReal) (arcIn arcOut : (Sh2 2 40960).Idx → BitVec 32)
    (labIn labOut : (Sh2 1 40960).Idx → BitVec 32) (maskIn maskOut : (Sh2 8192 5).Idx → EReal)
    (maskLoop : (Sh2 8192 1).Idx → EReal) (sent : (Sh2 512 16).Idx → EReal)
    (Vin : (Sh2 512 512).Idx → EReal) (bIn : (Sh2 64 512).Idx → EReal) (VinG : (Sh2 512 1).Idx → EReal) (bInG : (Sh2 64 1).Idx → EReal)
    (Vout : (Sh2 512 512).Idx → EReal) (bOut : (Sh2 64 512).Idx → EReal) (VoutG : (Sh2 512 1).Idx → EReal) (bOutG : (Sh2 64 1).Idx → EReal)
    (Wself : (Sh2 512 512).Idx → EReal) (WselfG : (Sh2 512 1).Idx → EReal) : (Sh3 16 512 512).Idx → EReal :=
  fun i => outAt src arcIn arcOut labIn labOut maskIn maskOut maskLoop Vin bIn VinG bInG Vout bOut VoutG bOutG Wself WselfG
      (rowOf (i 0) (i 1)) (i 2) * sent (ix2 (i 1) (i 0))

/-- The result: `G3` transposed back to (position, batch, feature). -/
def G (src : (Sh3 512 16 512).Idx → EReal) (arcIn arcOut : (Sh2 2 40960).Idx → BitVec 32)
    (labIn labOut : (Sh2 1 40960).Idx → BitVec 32) (maskIn maskOut : (Sh2 8192 5).Idx → EReal)
    (maskLoop : (Sh2 8192 1).Idx → EReal) (sent : (Sh2 512 16).Idx → EReal)
    (Vin : (Sh2 512 512).Idx → EReal) (bIn : (Sh2 64 512).Idx → EReal) (VinG : (Sh2 512 1).Idx → EReal) (bInG : (Sh2 64 1).Idx → EReal)
    (Vout : (Sh2 512 512).Idx → EReal) (bOut : (Sh2 64 512).Idx → EReal) (VoutG : (Sh2 512 1).Idx → EReal) (bOutG : (Sh2 64 1).Idx → EReal)
    (Wself : (Sh2 512 512).Idx → EReal) (WselfG : (Sh2 512 1).Idx → EReal) : (Sh3 512 16 512).Idx → EReal :=
  transpose (Sh3 512 16 512) [1, 0, 2]
    (G3 src arcIn arcOut labIn labOut maskIn maskOut maskLoop sent Vin bIn VinG bInG Vout bOut VoutG bOutG Wself WselfG)

/-! ## The same row in the second kernel's layout

The second kernel receives the gathered rows already laid side by side (`[8192, 5 * 512]`), the gathered gate scalars and
the label words as `[8192, 5]`, the sentence mask as a column, and the two scalar bias tables as rows `[1, 64]`; it
adds a label's bias by a sum over all 64 labels against the indicator of the label word. -/

/-- The indicator of label `l` against a label word: one when the word is `l`, else zero. -/
def oh (l : Fin 64) (lab : BitVec 32) : EReal := if BitVec.ofNat 32 l.val = lab then 1 else 0

/-- One arc's gated message from its gathered message entry, gathered gate scalar, label word and mask entry. -/
def kTerm (msg gate : EReal) (lab : BitVec 32) (b bg : Fin 64 → EReal) (mask : EReal) : EReal :=
  (msg + ∑ l : Fin 64, oh l lab * b l) * (Ideal.logistic (gate + ∑ l : Fin 64, oh l lab * bg l) * mask)

/-- Column `512 d + u` of a `[·, 2560]` array. -/
def col5 (d : Fin 5) (u : Fin 512) : Fin 2560 := ⟨512 * d.val + u.val, by omega⟩

/-- Row `r`, feature `u` of the second kernel's output, from its sixteen inputs of `n` rows (a block of 512 rows, or
    the whole arrays of 8192). -/
def aggRow {n : Nat} (inMsg outMsg : (Sh2 n 2560).Idx → EReal) (same : (Sh2 n 512).Idx → EReal)
    (inGate outGate : (Sh2 n 5).Idx → EReal) (sameGate : (Sh2 n 1).Idx → EReal)
    (labIn labOut : (Sh2 n 5).Idx → BitVec 32) (maskIn maskOut : (Sh2 n 5).Idx → EReal)
    (maskLoop sentF : (Sh2 n 1).Idx → EReal) (bIn bOut : (Sh2 64 512).Idx → EReal)
    (bInG bOutG : (Sh2 1 64).Idx → EReal) (r : Fin n) (u : Fin 512) : EReal :=
  max (acc (fun d => kTerm (inMsg (ix2 r (col5 d u))) (inGate (ix2 r d)) (labIn (ix2 r d))
              (fun l => bIn (ix2 l u)) (fun l => bInG (ix2 (0 : Fin 1) l)) (maskIn (ix2 r d)))
           (fun d => kTerm (outMsg (ix2 r (col5 d u))) (outGate (ix2 r d)) (labOut (ix2 r d))
              (fun l => bOut (ix2 l u)) (fun l => bOutG (ix2 (0 : Fin 1) l)) (maskOut (ix2 r d)))
           (same (ix2 r u) * (Ideal.logistic (sameGate (ix2 r (0 : Fin 1))) * maskLoop (ix2 r (0 : Fin 1))))) 0
    * sentF (ix2 r (0 : Fin 1))

end Cert.Spec

end
-- ==== Proof.K1Pieces.lean ====
/-
  The two operations of the second kernel's body that are not element-wise, read at an index on the extended reals.

  * The label-bias product: the `[512, 64]` indicator block times the `[64, 512]` bias table, accumulated into zero, is
    at `(p, u)` the sum over the 64 labels `l` of the indicator at `(p, l)` times the table at `(l, u)`.
  * The gate's label bias: the indicator block times the `[1, 64]` bias row laid over all 512 rows, summed along the
    label axis and stored as a column, is at `(p, 0)` the sum over `l` of the indicator at `(p, l)` times the row at
    `(0, l)`.
-/
import proofs.«415035_j27650999452124_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## The label-bias product -/

/-- The left operand is read at the output's row … -/
theorem lhs_bias_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
/-- … and at the contraction coordinate on its second axis. -/
theorem lhs_bias_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- The right operand is read at the contraction coordinate on its first axis … -/
theorem rhs_bias_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- … and at the output's column. -/
theorem rhs_bias_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- THE LABEL-BIAS PRODUCT at `(p, u)`: `∑ l, oh[p, l] * tab[l, u]` — the product into the zero accumulator is the sum
    over the contraction's one axis, re-indexed by the 64 labels. -/
theorem bias_matmul_apply (oh : FVec Ideal S512x64 .f32) (tab : FVec Ideal S64x512 .f32) (p u : Fin 512) :
    matmul (F := Ideal) dot_S512x64_S64x512_S512x512_1_0_0_1_n_n (some .fp32) oh tab (constant S512x512 .f32 0x00000000#32) (ix2 p u)
      = ∑ l : Fin 64, oh (ix2 p l) * tab (ix2 l u) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p u) ((contrEquiv1 dot_S512x64_S64x512_S512x512_1_0_0_1_n_n 64 rfl rfl).symm k) = ix2 p k :=
    funext fun a => Fin.ext (by
      match a with
      | ⟨0, _⟩ => exact lhs_bias_0 _ _
      | ⟨1, _⟩ => exact (lhs_bias_1 _ _).trans hk)
  have er : dot_S512x64_S64x512_S512x512_1_0_0_1_n_n.rhsIdx (ix2 p u) ((contrEquiv1 dot_S512x64_S64x512_S512x512_1_0_0_1_n_n 64 rfl rfl).symm k) = ix2 k u :=
    funext fun a => Fin.ext (by
      match a with
      | ⟨0, _⟩ => exact (rhs_bias_0 _ _).trans hk
      | ⟨1, _⟩ => exact rhs_bias_1 _ _)
  rw [el, er]

/-! ## The gate's label bias -/

/-- A sum along the label axis of a `[512, 64]` block, from the zero word, at row `p`: the sum of that row. -/
theorem lane_sum_apply (x : FVec Ideal S512x64 .f32) (hφ : FKind.Formats .f32)
    (hacc : (0x00000000#32 : BitVec 32) = FKind.add.neutral .f32 hφ) (p : Fin 512) :
    multiReduction (F := Ideal) .add [1] S512 x 0x00000000#32 reduces_S512x64_S512 hφ hacc (ix1 p)
      = ∑ l : Fin 64, x (ix2 p l) := by
  refine (Ideal.multiReduction_add_single x 0x00000000#32 reduces_S512x64_S512 hφ hacc (ix1 p)).trans ?_
  change ∑ l : Fin 64, x (reduces_S512x64_S512.lift (ix1 p) l) = _
  refine Finset.sum_congr rfl fun l _ => ?_
  congr 1
  funext a
  apply Fin.ext
  match a with
  | ⟨0, _⟩ => rfl
  | ⟨1, _⟩ => rfl

/-- THE GATE'S LABEL BIAS at `(p, 0)`: `∑ l, oh[p, l] * row[0, l]`. -/
theorem gate_bias_apply (oh : FVec Ideal S512x64 .f32) (row : FVec Ideal S1x64 .f32) (p : Fin 512) :
    shapeCast S512x1 (multiReduction (F := Ideal) .add [1] S512 (mulf oh (broadcastTo S512x64 row broadcasts_S1x64_S512x64))
        0x00000000#32 reduces_S512x64_S512 (.inl rfl) rfl) shapeCasts_S512_S512x1 (ix2 p (0 : Fin 1))
      = ∑ l : Fin 64, oh (ix2 p l) * row (ix2 (0 : Fin 1) l) := by
  refine (shapeCast_apply _ shapeCasts_S512_S512x1 (ix2 p (0 : Fin 1)) (ix1 p) ?_).trans ?_
  · rw [Shape.rowMajor_val_two, Shape.rowMajor_val_one]
    show p.val = p.val * 1 + 0
    omega
  refine (lane_sum_apply _ (.inl rfl) rfl p).trans ?_
  refine Finset.sum_congr rfl fun l _ => ?_
  rw [mulf_apply, broadcastTo_1b_ab_apply]

end Cert.KernelIdeal.Hand

end
-- ==== Proof.K1Payload.lean ====
/-
  The value the second kernel's body stores, read at one entry: row `p` of the block, feature `u`. Every operation of
  the body acts row by row except the two sums over the 64 labels (the indicator matrix against a bias table, and the
  indicator row against a bias row), so the entry is the gated sum of the row's eleven messages, cut at zero, times the
  row's sentence-mask entry.
-/
import proofs.«415035_j27650999452124_3_alg».proof.Proof.Gen.KernelIdeal.Launch
import proofs.«415035_j27650999452124_3_alg».proof.Proof.Gen.KernelIdeal.Skeleton
import proofs.«415035_j27650999452124_3_alg».proof.Proof.Gen.KernelIdeal.Points
import proofs.«415035_j27650999452124_3_alg».proof.Proof.R1Defs
import proofs.«415035_j27650999452124_3_alg».proof.Proof.Spec
import proofs.«415035_j27650999452124_3_alg».proof.Proof.K1Pieces
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

namespace K1Payload

/-! ## Layout operations at an index -/

/-- A column `[a, 1]` broadcast along its rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The `d`-th stretch of 512 columns of a `[512, 2560]` block, read at `(p, u)`, is the block at column `512 d + u`. -/
theorem ld_stretch {e : EltTy} (o : ℕ) (d : Fin 5) (ho : o = 512 * d.val)
    (inb : ∀ a, (![0, o] : Fin 2 → ℕ) a + S512x512.size a ≤ S512x2560.size a)
    (x : Vec Ideal S512x2560 e) (p u : Fin 512) :
    View.ld x (Rect.unit (s := S512x2560) ![0, o] S512x512.size inb) (ix2 p u) = x (ix2 p (Cert.Spec.col5 d u)) := by
  subst ho
  refine congrArg x (funext fun a => Fin.ext ?_)
  match a with
  | ⟨0, _⟩ => show 0 + 1 * p.val = p.val; omega
  | ⟨1, _⟩ => show 512 * d.val + 1 * u.val = 512 * d.val + u.val; omega

/-- Column `d` of a `[512, 5]` block, read at row `p`, is the block at `(p, d)`. -/
theorem ld_col {e : EltTy} (o : ℕ) (d : Fin 5) (ho : o = d.val)
    (inb : ∀ a, (![0, o] : Fin 2 → ℕ) a + S512x1.size a ≤ S512x5.size a)
    (x : Vec Ideal S512x5 e) (p : Fin 512) (z : Fin 1) :
    View.ld x (Rect.unit (s := S512x5) ![0, o] S512x1.size inb) (ix2 p z) = x (ix2 p d) := by
  subst ho
  refine congrArg x (funext fun a => Fin.ext ?_)
  match a with
  | ⟨0, _⟩ => show 0 + 1 * p.val = p.val; omega
  | ⟨1, _⟩ => show d.val + 1 * z.val = d.val; omega

/-! ## The indicator of a label -/

/-- The label indicator as the kernel builds it from a column of label words: the lane number compared with the row's
    word, the bit widened and converted. -/
def ohV (lab : IVec S512x1 32) : FVec Ideal S512x64 .f32 :=
  sitofp .f32 (extui 32 (cmpi .eq (iota .tc S512x64 32 [1] iota_S512x64_d1_w32)
    (broadcastTo S512x64 (shapeCast S512x1 lab shapeCasts_S512x1_S512x1) broadcasts_S512x1_S512x64)) natLt_1_32)

/-- At `(p, l)` it is one when row `p`'s word is `l`, else zero. -/
theorem ohV_apply (lab : IVec S512x1 32) (p : Fin 512) (l : Fin 64) :
    ohV lab (ix2 p l) = Cert.Spec.oh l (lab (ix2 p (0 : Fin 1))) := by
  have hi : iota .tc S512x64 32 [1] iota_S512x64_d1_w32 (ix2 p l) = BitVec.ofNat 32 l.val :=
    iota_single_apply .tc S512x64 32 1 iota_S512x64_d1_w32 (ix2 p l)
  have hb : broadcastTo S512x64 (shapeCast S512x1 lab shapeCasts_S512x1_S512x1) broadcasts_S512x1_S512x64 (ix2 p l)
      = lab (ix2 p (0 : Fin 1)) := by
    rw [shapeCast_self]
    exact broadcastTo_a1_ab_apply lab _ p l
  show FloatOps.sitofp (F := Ideal) .f32 ((IntOp.cmpi .eq (iota .tc S512x64 32 [1] iota_S512x64_d1_w32 (ix2 p l))
      (broadcastTo S512x64 (shapeCast S512x1 lab shapeCasts_S512x1_S512x1) broadcasts_S512x1_S512x64 (ix2 p l))).setWidth 32) = _
  rw [hi, hb]
  unfold Cert.Spec.oh
  by_cases h : BitVec.ofNat 32 l.val = lab (ix2 p (0 : Fin 1))
  · rw [if_pos h, StableHlo.Predicate.cmpi_eq_iff.mpr h]
    show ((((1#1 : BitVec 1).setWidth 32).toInt : ℝ) : EReal) = 1
    have e1 : ((1#1 : BitVec 1).setWidth 32).toInt = 1 := by decide
    rw [e1]; simp
  · rw [if_neg h, eq_zero_of_ne_one (mt StableHlo.Predicate.cmpi_eq_iff.mp h)]
    show ((((0#1 : BitVec 1).setWidth 32).toInt : ℝ) : EReal) = 0
    have e0 : ((0#1 : BitVec 1).setWidth 32).toInt = 0 := by decide
    rw [e0]; simp

/-! ## One arc's gated message -/

/-- One arc slot's gated message over the block, as the kernel computes it: the gathered message plus the indicator
    matrix against the bias table, times the row's gate (the logistic of the gathered scalar plus the indicator row
    against the bias row, times the mask entry) spread along the row. -/
def arcV (tab : FVec Ideal S64x512 .f32) (row : FVec Ideal S1x64 .f32) (lab : IVec S512x1 32)
    (m : FVec Ideal S512x512 .bf16) (g mk : FVec Ideal S512x1 .f32) : FVec Ideal S512x512 .f32 :=
  mulf (addf (extf .f32 (shapeCast S512x512 m shapeCasts_S512x512_S512x512) bitsLt_bf16_f32)
        (matmul dot_S512x64_S64x512_S512x512_1_0_0_1_n_n (some .fp32) (ohV lab) tab (constant S512x512 .f32 0x00000000#32)))
    (broadcastTo S512x512
      (mulf (logistic (addf (shapeCast S512x1 g shapeCasts_S512x1_S512x1)
          (shapeCast S512x1 (multiReduction .add [1] S512 (mulf (ohV lab) (broadcastTo S512x64 row broadcasts_S1x64_S512x64))
            0x00000000#32 reduces_S512x64_S512 (.inl rfl) rfl) shapeCasts_S512_S512x1))) mk)
      broadcasts_S512x1_S512x512)

/-- At `(p, u)` it is the specification's arc term of the row's entries. -/
theorem arcV_apply (tab : FVec Ideal S64x512 .f32) (row : FVec Ideal S1x64 .f32) (lab : IVec S512x1 32)
    (m : FVec Ideal S512x512 .bf16) (g mk : FVec Ideal S512x1 .f32) (p u : Fin 512) :
    arcV tab row lab m g mk (ix2 p u)
      = Cert.Spec.kTerm (m (ix2 p u)) (g (ix2 p (0 : Fin 1))) (lab (ix2 p (0 : Fin 1)))
          (fun l => tab (ix2 l u)) (fun l => row (ix2 (0 : Fin 1) l)) (mk (ix2 p (0 : Fin 1))) := by
  unfold arcV Cert.Spec.kTerm
  rw [mulf_apply, addf_apply, extf_apply, shapeCast_self, bias_matmul_apply, broadcastTo_a1_ab_apply, mulf_apply]
  show (m (ix2 p u) + _) * (Ideal.logistic (shapeCast S512x1 g shapeCasts_S512x1_S512x1 (ix2 p (0 : Fin 1)) + _) * _) = _
  rw [shapeCast_self, gate_bias_apply]
  simp only [ohV_apply]

/-! ## The body as the running sum of the ten arc messages -/

/-- The body's value: from the zero splat the ten arc messages are added in the order in 0, out 0, …, in 4, out 4,
    and the closing stretch adds the self message, cuts at zero and applies the sentence mask. The body's stretches hand
    the running sum from one to the next; unfolded they are this one term. -/
theorem body1_eq (x0 : Vec Ideal S512x2560 .bf16) (x1 : Vec Ideal S512x2560 .bf16) (x2 : Vec Ideal S512x512 .bf16)
    (x3 : Vec Ideal S512x5 .f32) (x4 : Vec Ideal S512x5 .f32) (x5 : Vec Ideal S512x1 .f32) (x6 : Vec Ideal S512x5 .i32) (x7 : Vec Ideal S512x5 .i32)
    (x8 : Vec Ideal S512x5 .f32) (x9 : Vec Ideal S512x5 .f32) (x10 : Vec Ideal S512x1 .f32) (x11 : Vec Ideal S512x1 .f32)
    (x12 : Vec Ideal S64x512 .f32) (x13 : Vec Ideal S64x512 .f32) (x14 : Vec Ideal S1x64 .f32) (x15 : Vec Ideal S1x64 .f32) :
    body1 (F := Ideal) x0 x1 x2 x3 x4 x5 x6 x7 x8 x9 x10 x11 x12 x13 x14 x15
      = k1_pay1 (F := Ideal)
          (addf (addf (addf (addf (addf (addf (addf (addf (addf (addf (broadcast S512x512 (Scalar.ofBits (F := Ideal) .f32 0x00000000#32))
        (arcV (View.ld x12 rB) (k1_pay2 (View.ld x14 rG)) (View.ld x6 rc0) (View.ld x0 rm0) (View.ld x3 rc0) (View.ld x8 rc0)))
        (arcV (View.ld x13 rB) (k1_pay3 (View.ld x15 rG)) (View.ld x7 rc0) (View.ld x1 rm0) (View.ld x4 rc0) (View.ld x9 rc0)))
        (arcV (View.ld x12 rB) (k1_pay2 (View.ld x14 rG)) (View.ld x6 rc1) (View.ld x0 rm1) (View.ld x3 rc1) (View.ld x8 rc1)))
        (arcV (View.ld x13 rB) (k1_pay3 (View.ld x15 rG)) (View.ld x7 rc1) (View.ld x1 rm1) (View.ld x4 rc1) (View.ld x9 rc1)))
        (arcV (View.ld x12 rB) (k1_pay2 (View.ld x14 rG)) (View.ld x6 rc2) (View.ld x0 rm2) (View.ld x3 rc2) (View.ld x8 rc2)))
        (arcV (View.ld x13 rB) (k1_pay3 (View.ld x15 rG)) (View.ld x7 rc2) (View.ld x1 rm2) (View.ld x4 rc2) (View.ld x9 rc2)))
        (arcV (View.ld x12 rB) (k1_pay2 (View.ld x14 rG)) (View.ld x6 rc3) (View.ld x0 rm3) (View.ld x3 rc3) (View.ld x8 rc3)))
        (arcV (View.ld x13 rB) (k1_pay3 (View.ld x15 rG)) (View.ld x7 rc3) (View.ld x1 rm3) (View.ld x4 rc3) (View.ld x9 rc3)))
        (arcV (View.ld x12 rB) (k1_pay2 (View.ld x14 rG)) (View.ld x6 rc4) (View.ld x0 rm4) (View.ld x3 rc4) (View.ld x8 rc4)))
        (arcV (View.ld x13 rB) (k1_pay3 (View.ld x15 rG)) (View.ld x7 rc4) (View.ld x1 rm4) (View.ld x4 rc4) (View.ld x9 rc4)))
          (View.ld x5 rS1) (View.ld x10 rS1) (View.ld x2 rSq) (View.ld x11 rS1) := rfl

/-! ## The loads at an index -/
theorem ld_rm0 {e : EltTy} (x : Vec Ideal S512x2560 e) (p u : Fin 512) :
    View.ld x rm0 (ix2 p u) = x (ix2 p (Cert.Spec.col5 (0 : Fin 5) u)) := ld_stretch 0 0 rfl _ x p u
theorem ld_rm1 {e : EltTy} (x : Vec Ideal S512x2560 e) (p u : Fin 512) :
    View.ld x rm1 (ix2 p u) = x (ix2 p (Cert.Spec.col5 (1 : Fin 5) u)) := ld_stretch 512 1 rfl _ x p u
theorem ld_rm2 {e : EltTy} (x : Vec Ideal S512x2560 e) (p u : Fin 512) :
    View.ld x rm2 (ix2 p u) = x (ix2 p (Cert.Spec.col5 (2 : Fin 5) u)) := ld_stretch 1024 2 rfl _ x p u
theorem ld_rm3 {e : EltTy} (x : Vec Ideal S512x2560 e) (p u : Fin 512) :
    View.ld x rm3 (ix2 p u) = x (ix2 p (Cert.Spec.col5 (3 : Fin 5) u)) := ld_stretch 1536 3 rfl _ x p u
theorem ld_rm4 {e : EltTy} (x : Vec Ideal S512x2560 e) (p u : Fin 512) :
    View.ld x rm4 (ix2 p u) = x (ix2 p (Cert.Spec.col5 (4 : Fin 5) u)) := ld_stretch 2048 4 rfl _ x p u
theorem ld_rc0 {e : EltTy} (x : Vec Ideal S512x5 e) (p : Fin 512) (z : Fin 1) :
    View.ld x rc0 (ix2 p z) = x (ix2 p (0 : Fin 5)) := ld_col 0 0 rfl _ x p z
theorem ld_rc1 {e : EltTy} (x : Vec Ideal S512x5 e) (p : Fin 512) (z : Fin 1) :
    View.ld x rc1 (ix2 p z) = x (ix2 p (1 : Fin 5)) := ld_col 1 1 rfl _ x p z
theorem ld_rc2 {e : EltTy} (x : Vec Ideal S512x5 e) (p : Fin 512) (z : Fin 1) :
    View.ld x rc2 (ix2 p z) = x (ix2 p (2 : Fin 5)) := ld_col 2 2 rfl _ x p z
theorem ld_rc3 {e : EltTy} (x : Vec Ideal S512x5 e) (p : Fin 512) (z : Fin 1) :
    View.ld x rc3 (ix2 p z) = x (ix2 p (3 : Fin 5)) := ld_col 3 3 rfl _ x p z
theorem ld_rc4 {e : EltTy} (x : Vec Ideal S512x5 e) (p : Fin 512) (z : Fin 1) :
    View.ld x rc4 (ix2 p z) = x (ix2 p (4 : Fin 5)) := ld_col 4 4 rfl _ x p z

theorem zeros2 : (![0, 0] : Fin 2 → ℕ) = fun _ => 0 := funext fun a => match a with | ⟨0, _⟩ => rfl | ⟨1, _⟩ => rfl
/-- The loads of whole blocks read the blocks. -/
theorem ld_rB {e : EltTy} (x : Vec Ideal S64x512 e) : View.ld x rB = x := View.ld_unit_zero zeros2 _ x
theorem ld_rG {e : EltTy} (x : Vec Ideal S1x64 e) : View.ld x rG = x := View.ld_unit_zero zeros2 _ x
theorem ld_rS1 {e : EltTy} (x : Vec Ideal S512x1 e) : View.ld x rS1 = x := View.ld_unit_zero zeros2 _ x
theorem ld_rSq {e : EltTy} (x : Vec Ideal S512x512 e) : View.ld x rSq = x := View.ld_unit_zero zeros2 _ x

/-! ## Small readings -/

/-- The logistic of a vector at an index is the extended reals' logistic of the entry. -/
theorem logistic_apply {s : Shape} {φ : FTy} (a : FVec Ideal s φ) (i : s.Idx) : logistic a i = Ideal.logistic (a i) := rfl
/-- The zero splat's word is the extended real zero. -/
theorem zero_word : Scalar.ofBits (F := Ideal) .f32 0x00000000#32 = (0 : EReal) := Ideal.ofBits_zero_f32
/-- The two bias rows pass through a cast to their own shape. -/
theorem k1_pay2_eq (v : Vec Ideal S1x64 .f32) : k1_pay2 (F := Ideal) v = v := shapeCast_self v _
theorem k1_pay3_eq (v : Vec Ideal S1x64 .f32) : k1_pay3 (F := Ideal) v = v := shapeCast_self v _

end K1Payload

open K1Payload

/-- The stored value at row `p`, feature `u`, as the row formula of the sixteen input blocks. -/
theorem body1_apply (x0 : Vec Ideal S512x2560 .bf16) (x1 : Vec Ideal S512x2560 .bf16) (x2 : Vec Ideal S512x512 .bf16)
    (x3 : Vec Ideal S512x5 .f32) (x4 : Vec Ideal S512x5 .f32) (x5 : Vec Ideal S512x1 .f32) (x6 : Vec Ideal S512x5 .i32) (x7 : Vec Ideal S512x5 .i32)
    (x8 : Vec Ideal S512x5 .f32) (x9 : Vec Ideal S512x5 .f32) (x10 : Vec Ideal S512x1 .f32) (x11 : Vec Ideal S512x1 .f32)
    (x12 : Vec Ideal S64x512 .f32) (x13 : Vec Ideal S64x512 .f32) (x14 : Vec Ideal S1x64 .f32) (x15 : Vec Ideal S1x64 .f32)
    (p : Fin 512) (u : Fin 512) :
    body1 (F := Ideal) x0 x1 x2 x3 x4 x5 x6 x7 x8 x9 x10 x11 x12 x13 x14 x15 (ix2 p u)
      = Cert.Spec.aggRow (n := 512) x0 x1 x2 x3 x4 x5 x6 x7 x8 x9 x10 x11 x12 x13 x14 x15 p u := by
  rw [body1_eq]
  unfold k1_pay1 Cert.Spec.aggRow Cert.Spec.acc
  simp only [mulf_apply, addf_apply, maximumf_apply, extf_apply, broadcast_apply, logistic_apply, shapeCast_self,
    broadcastTo_a1_ab_apply, arcV_apply, k1_pay2_eq, k1_pay3_eq, zero_word,
    ld_rB, ld_rG, ld_rS1, ld_rSq]
  rw [ld_rm0 x0, ld_rm0 x1, ld_rc0 x3, ld_rc0 x4, ld_rc0 x6, ld_rc0 x7, ld_rc0 x8, ld_rc0 x9,
    ld_rm1 x0, ld_rm1 x1, ld_rc1 x3, ld_rc1 x4, ld_rc1 x6, ld_rc1 x7, ld_rc1 x8, ld_rc1 x9,
    ld_rm2 x0, ld_rm2 x1, ld_rc2 x3, ld_rc2 x4, ld_rc2 x6, ld_rc2 x7, ld_rc2 x8, ld_rc2 x9,
    ld_rm3 x0, ld_rm3 x1, ld_rc3 x3, ld_rc3 x4, ld_rc3 x6, ld_rc3 x7, ld_rc3 x8, ld_rc3 x9,
    ld_rm4 x0, ld_rm4 x1, ld_rc4 x3, ld_rc4 x4, ld_rc4 x6, ld_rc4 x7, ld_rc4 x8, ld_rc4 x9]

end Cert.KernelIdeal.Hand

end
-- ==== Proof.K1Value.lean ====
/-
  The second kernel's result array, entry by entry. The kernel works through sixteen blocks of 512 rows; at block `t` it
  stores, for row `p` and feature `u`, the row formula `Cert.Spec.aggRow` of the sixteen input blocks. That formula only
  looks at row `p` of each row-blocked input and at the whole bias tables, and row `p` of block `t` is row `512 t + p` of
  the array; so the stored block is block `t` of ONE function of the whole arrays, the same formula at 8192 rows. The
  sixteen blocks tile the 8192 rows, hence the array after the last block is that function.
-/
import proofs.«415035_j27650999452124_3_alg».proof.Proof.K1Payload
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable (V : (c : Dev nD) → (b : Ref sig .tc) → Buf (Elt Ideal) ((c : Thread nD τ).loc b))

/-! ## The array-level value

The second kernel's result as one function of the sixteen input arrays: row `r`, feature `u` is the row formula of
`Cert.Spec.aggRow` read on the whole arrays (8192 rows). -/

/-- The offsets of a store of a whole block are zero on both axes. -/
theorem offZero : (![0, 0] : Fin 2 → Nat) = fun _ => 0 := funext fun a => by fin_cases a <;> rfl

/-- The result array where the kernel's blocks cover it: the row formula on the arrays as the region finds them. -/
def aggArr (c : Dev nD) : S8192x512.Idx → EReal := fun i =>
  Cert.Spec.aggRow (n := 8192)
    (V c main_v32 : S8192x2560.Idx → EReal) (V c main_v34 : S8192x2560.Idx → EReal) (V c main_v11 : S8192x512.Idx → EReal)
    (V c main_v36 : S8192x5.Idx → EReal) (V c main_v38 : S8192x5.Idx → EReal) (V c main_v16 : S8192x1.Idx → EReal)
    (V c main_v40 : S8192x5.Idx → BitVec 32) (V c main_v42 : S8192x5.Idx → BitVec 32)
    (V c main_arg5 : S8192x5.Idx → EReal) (V c main_arg6 : S8192x5.Idx → EReal) (V c main_arg7 : S8192x1.Idx → EReal)
    (V c main_v44 : S8192x1.Idx → EReal) (V c main_arg10 : S64x512.Idx → EReal) (V c main_arg14 : S64x512.Idx → EReal)
    (V c main_v45 : S1x64.Idx → EReal) (V c main_v46 : S1x64.Idx → EReal) (i 0) (i 1)

/-! ## The row formula only looks at one row

The formula at row `p` of arrays of `n` rows and at row `r` of arrays of `m` rows is the same number as soon as row `p`
of each of the first twelve arrays is row `r` of its counterpart and the four bias tables agree. -/

theorem aggRow_of_rows {n m : Nat}
    {x0 x1 : (Cert.Spec.Sh2 n 2560).Idx → EReal} {x2 : (Cert.Spec.Sh2 n 512).Idx → EReal}
    {x3 x4 : (Cert.Spec.Sh2 n 5).Idx → EReal} {x5 : (Cert.Spec.Sh2 n 1).Idx → EReal}
    {x6 x7 : (Cert.Spec.Sh2 n 5).Idx → BitVec 32} {x8 x9 : (Cert.Spec.Sh2 n 5).Idx → EReal}
    {x10 x11 : (Cert.Spec.Sh2 n 1).Idx → EReal}
    {x12 x13 : (Cert.Spec.Sh2 64 512).Idx → EReal} {x14 x15 : (Cert.Spec.Sh2 1 64).Idx → EReal}
    {A0 A1 : (Cert.Spec.Sh2 m 2560).Idx → EReal} {A2 : (Cert.Spec.Sh2 m 512).Idx → EReal}
    {A3 A4 : (Cert.Spec.Sh2 m 5).Idx → EReal} {A5 : (Cert.Spec.Sh2 m 1).Idx → EReal}
    {A6 A7 : (Cert.Spec.Sh2 m 5).Idx → BitVec 32} {A8 A9 : (Cert.Spec.Sh2 m 5).Idx → EReal}
    {A10 A11 : (Cert.Spec.Sh2 m 1).Idx → EReal}
    {A12 A13 : (Cert.Spec.Sh2 64 512).Idx → EReal} {A14 A15 : (Cert.Spec.Sh2 1 64).Idx → EReal}
    (p : Fin n) (r : Fin m) (u : Fin 512)
    (h0 : ∀ k : Fin 2560, x0 (ix2 p k) = A0 (ix2 r k)) (h1 : ∀ k : Fin 2560, x1 (ix2 p k) = A1 (ix2 r k))
    (h2 : ∀ k : Fin 512, x2 (ix2 p k) = A2 (ix2 r k))
    (h3 : ∀ d : Fin 5, x3 (ix2 p d) = A3 (ix2 r d)) (h4 : ∀ d : Fin 5, x4 (ix2 p d) = A4 (ix2 r d))
    (h5 : ∀ z : Fin 1, x5 (ix2 p z) = A5 (ix2 r z))
    (h6 : ∀ d : Fin 5, x6 (ix2 p d) = A6 (ix2 r d)) (h7 : ∀ d : Fin 5, x7 (ix2 p d) = A7 (ix2 r d))
    (h8 : ∀ d : Fin 5, x8 (ix2 p d) = A8 (ix2 r d)) (h9 : ∀ d : Fin 5, x9 (ix2 p d) = A9 (ix2 r d))
    (h10 : ∀ z : Fin 1, x10 (ix2 p z) = A10 (ix2 r z)) (h11 : ∀ z : Fin 1, x11 (ix2 p z) = A11 (ix2 r z))
    (h12 : ∀ (l : Fin 64) (k : Fin 512), x12 (ix2 l k) = A12 (ix2 l k))
    (h13 : ∀ (l : Fin 64) (k : Fin 512), x13 (ix2 l k) = A13 (ix2 l k))
    (h14 : ∀ (z : Fin 1) (l : Fin 64), x14 (ix2 z l) = A14 (ix2 z l))
    (h15 : ∀ (z : Fin 1) (l : Fin 64), x15 (ix2 z l) = A15 (ix2 z l)) :
    Cert.Spec.aggRow x0 x1 x2 x3 x4 x5 x6 x7 x8 x9 x10 x11 x12 x13 x14 x15 p u
      = Cert.Spec.aggRow A0 A1 A2 A3 A4 A5 A6 A7 A8 A9 A10 A11 A12 A13 A14 A15 r u := by
  unfold Cert.Spec.aggRow
  simp only [h0, h1, h2, h3, h4, h5, h6, h7, h8, h9, h10, h11, h12, h13, h14, h15]

/-! ## Where the blocks sit

At grid point `t` the twelve row-blocked inputs and the output have block index `(t, 0)`: rows `512 t … 512 t + 511`,
all columns. The two bias tables and the two bias rows have block index `(0, 0)` at every point: the whole array. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = t.val ∧ win1_16.index t (1 : Fin 2) = 0 :=
  (by decide +kernel : ∀ t : Fin grid1.N, _)

/-! ## Each input block, read at an entry

Row `p` of the block at point `t` is row `r = 512 t + p` of the array; a block's coordinate on an axis is the block
index times the block's size plus the coordinate inside the block. -/

theorem blk1_0_apply (c : Dev nD) (t : Fin cfg1.N) (p : Fin 512) (r : Fin 8192) (hr : r.val = 512 * t.val + p.val) (k : Fin 2560) :
    (iblk1 V c 0 t : Vec Ideal S512x2560 .bf16) (ix2 p k) = (V c main_v32 : S8192x2560.Idx → EReal) (ix2 r k) := by
  unfold iblk1
  rw [View.read_apply]
  show V c main_v32 _ = V c main_v32 _
  congr 1
  refine Shape.idx_ext₂ ?_ ?_
  · show win1_0.index t (0 : Fin 2) * 512 + 1 * p.val = r.val; rw [(idx1_0 t).1, hr]; omega
  · show win1_0.index t (1 : Fin 2) * 2560 + 1 * k.val = k.val; rw [(idx1_0 t).2]; omega

theorem blk1_1_apply (c : Dev nD) (t : Fin cfg1.N) (p : Fin 512) (r : Fin 8192) (hr : r.val = 512 * t.val + p.val) (k : Fin 2560) :
    (iblk1 V c 1 t : Vec Ideal S512x2560 .bf16) (ix2 p k) = (V c main_v34 : S8192x2560.Idx → EReal) (ix2 r k) := by
  unfold iblk1
  rw [View.read_apply]
  show V c main_v34 _ = V c main_v34 _
  congr 1
  refine Shape.idx_ext₂ ?_ ?_
  · show win1_1.index t (0 : Fin 2) * 512 + 1 * p.val = r.val; rw [(idx1_1 t).1, hr]; omega
  · show win1_1.index t (1 : Fin 2) * 2560 + 1 * k.val = k.val; rw [(idx1_1 t).2]; omega

theorem blk1_2_apply (c : Dev nD) (t : Fin cfg1.N) (p : Fin 512) (r : Fin 8192) (hr : r.val = 512 * t.val + p.val) (k : Fin 512) :
    (iblk1 V c 2 t : Vec Ideal S512x512 .bf16) (ix2 p k) = (V c main_v11 : S8192x512.Idx → EReal) (ix2 r k) := by
  unfold iblk1
  rw [View.read_apply]
  show V c main_v11 _ = V c main_v11 _
  congr 1
  refine Shape.idx_ext₂ ?_ ?_
  · show win1_2.index t (0 : Fin 2) * 512 + 1 * p.val = r.val; rw [(idx1_2 t).1, hr]; omega
  · show win1_2.index t (1 : Fin 2) * 512 + 1 * k.val = k.val; rw [(idx1_2 t).2]; omega

theorem blk1_3_apply (c : Dev nD) (t : Fin cfg1.N) (p : Fin 512) (r : Fin 8192) (hr : r.val = 512 * t.val + p.val) (d : Fin 5) :
    (iblk1 V c 3 t : Vec Ideal S512x5 .f32) (ix2 p d) = (V c main_v36 : S8192x5.Idx → EReal) (ix2 r d) := by
  unfold iblk1
  rw [View.read_apply]
  show V c main_v36 _ = V c main_v36 _
  congr 1
  refine Shape.idx_ext₂ ?_ ?_
  · show win1_3.index t (0 : Fin 2) * 512 + 1 * p.val = r.val; rw [(idx1_3 t).1, hr]; omega
  · show win1_3.index t (1 : Fin 2) * 5 + 1 * d.val = d.val; rw [(idx1_3 t).2]; omega

theorem blk1_4_apply (c : Dev nD) (t : Fin cfg1.N) (p : Fin 512) (r : Fin 8192) (hr : r.val = 512 * t.val + p.val) (d : Fin 5) :
    (iblk1 V c 4 t : Vec Ideal S512x5 .f32) (ix2 p d) = (V c main_v38 : S8192x5.Idx → EReal) (ix2 r d) := by
  unfold iblk1
  rw [View.read_apply]
  show V c main_v38 _ = V c main_v38 _
  congr 1
  refine Shape.idx_ext₂ ?_ ?_
  · show win1_4.index t (0 : Fin 2) * 512 + 1 * p.val = r.val; rw [(idx1_4 t).1, hr]; omega
  · show win1_4.index t (1 : Fin 2) * 5 + 1 * d.val = d.val; rw [(idx1_4 t).2]; omega

theorem blk1_5_apply (c : Dev nD) (t : Fin cfg1.N) (p : Fin 512) (r : Fin 8192) (hr : r.val = 512 * t.val + p.val) (z : Fin 1) :
    (iblk1 V c 5 t : Vec Ideal S512x1 .f32) (ix2 p z) = (V c main_v16 : S8192x1.Idx → EReal) (ix2 r z) := by
  unfold iblk1
  rw [View.read_apply]
  show V c main_v16 _ = V c main_v16 _
  congr 1
  refine Shape.idx_ext₂ ?_ ?_
  · show win1_5.index t (0 : Fin 2) * 512 + 1 * p.val = r.val; rw [(idx1_5 t).1, hr]; omega
  · show win1_5.index t (1 : Fin 2) * 1 + 1 * z.val = z.val; rw [(idx1_5 t).2]; omega

theorem blk1_6_apply (c : Dev nD) (t : Fin cfg1.N) (p : Fin 512) (r : Fin 8192) (hr : r.val = 512 * t.val + p.val) (d : Fin 5) :
    (iblk1 V c 6 t : Vec Ideal S512x5 .i32) (ix2 p d) = (V c main_v40 : S8192x5.Idx → BitVec 32) (ix2 r d) := by
  unfold iblk1
  rw [View.read_apply]
  show V c main_v40 _ = V c main_v40 _
  congr 1
  refine Shape.idx_ext₂ ?_ ?_
  · show win1_6.index t (0 : Fin 2) * 512 + 1 * p.val = r.val; rw [(idx1_6 t).1, hr]; omega
  · show win1_6.index t (1 : Fin 2) * 5 + 1 * d.val = d.val; rw [(idx1_6 t).2]; omega

theorem blk1_7_apply (c : Dev nD) (t : Fin cfg1.N) (p : Fin 512) (r : Fin 8192) (hr : r.val = 512 * t.val + p.val) (d : Fin 5) :
    (iblk1 V c 7 t : Vec Ideal S512x5 .i32) (ix2 p d) = (V c main_v42 : S8192x5.Idx → BitVec 32) (ix2 r d) := by
  unfold iblk1
  rw [View.read_apply]
  show V c main_v42 _ = V c main_v42 _
  congr 1
  refine Shape.idx_ext₂ ?_ ?_
  · show win1_7.index t (0 : Fin 2) * 512 + 1 * p.val = r.val; rw [(idx1_7 t).1, hr]; omega
  · show win1_7.index t (1 : Fin 2) * 5 + 1 * d.val = d.val; rw [(idx1_7 t).2]; omega

theorem blk1_8_apply (c : Dev nD) (t : Fin cfg1.N) (p : Fin 512) (r : Fin 8192) (hr : r.val = 512 * t.val + p.val) (d : Fin 5) :
    (iblk1 V c 8 t : Vec Ideal S512x5 .f32) (ix2 p d) = (V c main_arg5 : S8192x5.Idx → EReal) (ix2 r d) := by
  unfold iblk1
  rw [View.read_apply]
  show V c main_arg5 _ = V c main_arg5 _
  congr 1
  refine Shape.idx_ext₂ ?_ ?_
  · show win1_8.index t (0 : Fin 2) * 512 + 1 * p.val = r.val; rw [(idx1_8 t).1, hr]; omega
  · show win1_8.index t (1 : Fin 2) * 5 + 1 * d.val = d.val; rw [(idx1_8 t).2]; omega

theorem blk1_9_apply (c : Dev nD) (t : Fin cfg1.N) (p : Fin 512) (r : Fin 8192) (hr : r.val = 512 * t.val + p.val) (d : Fin 5) :
    (iblk1 V c 9 t : Vec Ideal S512x5 .f32) (ix2 p d) = (V c main_arg6 : S8192x5.Idx → EReal) (ix2 r d) := by
  unfold iblk1
  rw [View.read_apply]
  show V c main_arg6 _ = V c main_arg6 _
  congr 1
  refine Shape.idx_ext₂ ?_ ?_
  · show win1_9.index t (0 : Fin 2) * 512 + 1 * p.val = r.val; rw [(idx1_9 t).1, hr]; omega
  · show win1_9.index t (1 : Fin 2) * 5 + 1 * d.val = d.val; rw [(idx1_9 t).2]; omega

theorem blk1_10_apply (c : Dev nD) (t : Fin cfg1.N) (p : Fin 512) (r : Fin 8192) (hr : r.val = 512 * t.val + p.val) (z : Fin 1) :
    (iblk1 V c 10 t : Vec Ideal S512x1 .f32) (ix2 p z) = (V c main_arg7 : S8192x1.Idx → EReal) (ix2 r z) := by
  unfold iblk1
  rw [View.read_apply]
  show V c main_arg7 _ = V c main_arg7 _
  congr 1
  refine Shape.idx_ext₂ ?_ ?_
  · show win1_10.index t (0 : Fin 2) * 512 + 1 * p.val = r.val; rw [(idx1_10 t).1, hr]; omega
  · show win1_10.index t (1 : Fin 2) * 1 + 1 * z.val = z.val; rw [(idx1_10 t).2]; omega

theorem blk1_11_apply (c : Dev nD) (t : Fin cfg1.N) (p : Fin 512) (r : Fin 8192) (hr : r.val = 512 * t.val + p.val) (z : Fin 1) :
    (iblk1 V c 11 t : Vec Ideal S512x1 .f32) (ix2 p z) = (V c main_v44 : S8192x1.Idx → EReal) (ix2 r z) := by
  unfold iblk1
  rw [View.read_apply]
  show V c main_v44 _ = V c main_v44 _
  congr 1
  refine Shape.idx_ext₂ ?_ ?_
  · show win1_11.index t (0 : Fin 2) * 512 + 1 * p.val = r.val; rw [(idx1_11 t).1, hr]; omega
  · show win1_11.index t (1 : Fin 2) * 1 + 1 * z.val = z.val; rw [(idx1_11 t).2]; omega

/-- The bias tables and bias rows: the one block is the array. -/
theorem blk1_12_apply (c : Dev nD) (t : Fin cfg1.N) (l : Fin 64) (k : Fin 512) :
    (iblk1 V c 12 t : Vec Ideal S64x512 .f32) (ix2 l k) = (V c main_arg10 : S64x512.Idx → EReal) (ix2 l k) := by
  unfold iblk1
  rw [View.read_apply]
  show V c main_arg10 _ = V c main_arg10 _
  congr 1
  refine Shape.idx_ext₂ ?_ ?_
  · show win1_12.index t (0 : Fin 2) * 64 + 1 * l.val = l.val; rw [(idx1_12 t).1]; omega
  · show win1_12.index t (1 : Fin 2) * 512 + 1 * k.val = k.val; rw [(idx1_12 t).2]; omega

theorem blk1_13_apply (c : Dev nD) (t : Fin cfg1.N) (l : Fin 64) (k : Fin 512) :
    (iblk1 V c 13 t : Vec Ideal S64x512 .f32) (ix2 l k) = (V c main_arg14 : S64x512.Idx → EReal) (ix2 l k) := by
  unfold iblk1
  rw [View.read_apply]
  show V c main_arg14 _ = V c main_arg14 _
  congr 1
  refine Shape.idx_ext₂ ?_ ?_
  · show win1_13.index t (0 : Fin 2) * 64 + 1 * l.val = l.val; rw [(idx1_13 t).1]; omega
  · show win1_13.index t (1 : Fin 2) * 512 + 1 * k.val = k.val; rw [(idx1_13 t).2]; omega

theorem blk1_14_apply (c : Dev nD) (t : Fin cfg1.N) (z : Fin 1) (l : Fin 64) :
    (iblk1 V c 14 t : Vec Ideal S1x64 .f32) (ix2 z l) = (V c main_v45 : S1x64.Idx → EReal) (ix2 z l) := by
  unfold iblk1
  rw [View.read_apply]
  show V c main_v45 _ = V c main_v45 _
  congr 1
  refine Shape.idx_ext₂ ?_ ?_
  · show win1_14.index t (0 : Fin 2) * 1 + 1 * z.val = z.val; rw [(idx1_14 t).1]; omega
  · show win1_14.index t (1 : Fin 2) * 64 + 1 * l.val = l.val; rw [(idx1_14 t).2]; omega

theorem blk1_15_apply (c : Dev nD) (t : Fin cfg1.N) (z : Fin 1) (l : Fin 64) :
    (iblk1 V c 15 t : Vec Ideal S1x64 .f32) (ix2 z l) = (V c main_v46 : S1x64.Idx → EReal) (ix2 z l) := by
  unfold iblk1
  rw [View.read_apply]
  show V c main_v46 _ = V c main_v46 _
  congr 1
  refine Shape.idx_ext₂ ?_ ?_
  · show win1_15.index t (0 : Fin 2) * 1 + 1 * z.val = z.val; rw [(idx1_15 t).1]; omega
  · show win1_15.index t (1 : Fin 2) * 64 + 1 * l.val = l.val; rw [(idx1_15 t).2]; omega

/-! ## What a point writes back -/

/-- What point `t` writes back is block `t` of the array-level value: entry `(p, u)` of the block is the row formula on the
    sixteen input blocks at row `p`, which only looks at row `p` of each, that is at row `512 t + p` of the arrays. -/
theorem flushed1_16_eq (c : Dev nD) (t : Fin cfg1.N) :
    (dat1 (F := Ideal) V c).flushed 16 t = ((cfg1.win 16).blk t).view.read (Elt Ideal) (aggArr V c) := by
  show (cfg1.win 16).cut (grid1.coords t) ((dat1 V c).after 16 t) = _
  rw [after1_16]
  unfold out1_16
  rw [View.canon_unit_zero offZero]
  funext y
  have hy0 : (y 0).val < 512 := (y 0).isLt
  have hy1 : (y 1).val < 512 := (y 1).isLt
  have ht : t.val < 16 := lt_of_lt_of_eq t.isLt N_1
  obtain ⟨p, hp⟩ : ∃ p : Fin 512, p.val = (y 0).val := ⟨⟨_, hy0⟩, rfl⟩
  obtain ⟨u, hu⟩ : ∃ u : Fin 512, u.val = (y 1).val := ⟨⟨_, hy1⟩, rfl⟩
  obtain ⟨r, hr⟩ : ∃ r : Fin 8192, r.val = 512 * t.val + p.val := ⟨⟨512 * t.val + p.val, by omega⟩, rfl⟩
  have hx : (cfg1.win 16).xinj (grid1.coords t) y = (ix2 p u : S512x512.Idx) := by
    refine Shape.idx_ext₂ ?_ ?_
    · show (y 0).val = p.val; exact hp.symm
    · show (y 1).val = u.val; exact hu.symm
  have he : ((cfg1.win 16).blk t).view.emb y = (ix2 r u : S8192x512.Idx) := by
    refine Shape.idx_ext₂ ?_ ?_
    · show win1_16.index t (0 : Fin 2) * 512 + 1 * (y 0).val = r.val; rw [(idx1_16 t).1, hr, hp]; omega
    · show win1_16.index t (1 : Fin 2) * 512 + 1 * (y 1).val = u.val; rw [(idx1_16 t).2, hu]; omega
  show body1 (F := Ideal) _ _ _ _ _ _ _ _ _ _ _ _ _ _ _ _ ((cfg1.win 16).xinj (grid1.coords t) y)
    = aggArr V c (((cfg1.win 16).blk t).view.emb y)
  rw [hx, he]
  refine (body1_apply _ _ _ _ _ _ _ _ _ _ _ _ _ _ _ _ p u).trans ?_
  show Cert.Spec.aggRow (n := 512) _ _ _ _ _ _ _ _ _ _ _ _ _ _ _ _ p u
    = Cert.Spec.aggRow (n := 8192) _ _ _ _ _ _ _ _ _ _ _ _ _ _ _ _ r u
  exact aggRow_of_rows p r u
    (blk1_0_apply V c t p r hr) (blk1_1_apply V c t p r hr) (blk1_2_apply V c t p r hr)
    (blk1_3_apply V c t p r hr) (blk1_4_apply V c t p r hr) (blk1_5_apply V c t p r hr)
    (blk1_6_apply V c t p r hr) (blk1_7_apply V c t p r hr) (blk1_8_apply V c t p r hr)
    (blk1_9_apply V c t p r hr) (blk1_10_apply V c t p r hr) (blk1_11_apply V c t p r hr)
    (blk1_12_apply V c t) (blk1_13_apply V c t) (blk1_14_apply V c t) (blk1_15_apply V c t)

/-! ## The blocks cover the array -/

/-- An index of the result array is in point `t`'s block iff each coordinate is in the block's range on its axis. -/
theorem mem_blk1_16 (t : Fin cfg1.N) (i : S8192x512.Idx) :
    i ∈ ((cfg1.win 16).blk t).view.set ↔ ∀ a : Fin 2, win1_16.index t a * S512x512.size a ≤ (i a).val
      ∧ (i a).val < win1_16.index t a * S512x512.size a + S512x512.size a := by
  show i ∈ ((View.whole main_v47).slice (win1_16.rect t)).set ↔ _
  rw [View.set_slice_whole, Rect.mem_set_unit]
  exact Iff.rfl

/-- Row `r` of the result is written by point `r / 512`. -/
theorem rowsCover1_16 (i : S8192x512.Idx) :
    ∃ t : Fin cfg1.N, (cfg1.win 16).flush t = true ∧ i ∈ ((cfg1.win 16).blk t).view.set := by
  have hi0 : (i 0).val < 8192 := (i 0).isLt
  have hi1 : (i 1).val < 512 := (i 1).isLt
  obtain ⟨t, ht⟩ : ∃ t : Fin cfg1.N, t.val = (i 0).val / 512 :=
    ⟨⟨(i 0).val / 512, lt_of_lt_of_eq (by omega) N_1.symm⟩, rfl⟩
  refine ⟨t, flush1_16 t, ?_⟩
  rw [mem_blk1_16]
  intro a
  match a with
  | ⟨0, _⟩ =>
    show win1_16.index t (0 : Fin 2) * 512 ≤ (i 0).val ∧ (i 0).val < win1_16.index t (0 : Fin 2) * 512 + 512
    rw [(idx1_16 t).1, ht]; omega
  | ⟨1, _⟩ =>
    show win1_16.index t (1 : Fin 2) * 512 ≤ (i 1).val ∧ (i 1).val < win1_16.index t (1 : Fin 2) * 512 + 512
    rw [(idx1_16 t).2]; omega

/-! ## The array after the run -/

/-- The result array after the sixteen points is the array-level value. -/
theorem arr1_16_eq (c : Dev nD) : (dat1 (F := Ideal) V c).arrAt 16 cfg1.N = aggArr V c :=
  (dat1 (F := Ideal) V c).arrAt_eq_of_cover 16 (aggArr V c) (fun t _ => flushed1_16_eq V c t) rowsCover1_16

/-- Row `r`, feature `u` of the result array is the row formula on the sixteen input arrays. -/
theorem arr1_16_apply (c : Dev nD) (r : Fin 8192) (u : Fin 512) :
    ((dat1 (F := Ideal) V c).arrAt 16 cfg1.N : S8192x512.Idx → EReal) (ix2 r u)
      = Cert.Spec.aggRow (n := 8192)
          (V c main_v32 : S8192x2560.Idx → EReal) (V c main_v34 : S8192x2560.Idx → EReal) (V c main_v11 : S8192x512.Idx → EReal)
          (V c main_v36 : S8192x5.Idx → EReal) (V c main_v38 : S8192x5.Idx → EReal) (V c main_v16 : S8192x1.Idx → EReal)
          (V c main_v40 : S8192x5.Idx → BitVec 32) (V c main_v42 : S8192x5.Idx → BitVec 32)
          (V c main_arg5 : S8192x5.Idx → EReal) (V c main_arg6 : S8192x5.Idx → EReal) (V c main_arg7 : S8192x1.Idx → EReal)
          (V c main_v44 : S8192x1.Idx → EReal) (V c main_arg10 : S64x512.Idx → EReal) (V c main_arg14 : S64x512.Idx → EReal)
          (V c main_v45 : S1x64.Idx → EReal) (V c main_v46 : S1x64.Idx → EReal) r u := by
  rw [arr1_16_eq]
  rfl

end Cert.KernelIdeal.Hand

end
-- ==== Proof.LibGather.lean ====
/-
  General facts about reads used by the certificate of a gather-and-aggregate program; nothing here names a program.

  * `gather_row`: jnp's `table[idx]` over a rank-2 table `[N, M]` with an `[n, 1]` column of start indices is a
    `stablehlo.gather` whose operand axis 0 is collapsed and start-indexed and whose operand axis 1 is the one offset
    axis. Result entry `(p, q)` is the table's entry `(r, q)`, where `r` is the `p`-th start index read signed and
    clamped into the `N` rows.
  * `sum_indicator`: a finite sum against the indicator of one position is the summand at that position.
  * `toInt_eq_toNat_of_nonneg`, `ofNat_eq_iff_of_range`, `min_toNat_of_range`: a 32-bit word whose signed value lies in
    `[0, 64)` equals the word of `l < 64` exactly when `l` is that value.
  * `sum_oh`: hence a sum over the 64 labels against the indicator of an in-range label word picks that label's entry.
-/
import Idealize.ShloMosaic.PureOps.Ideal
import Idealize.ShloMosaic.Lib.ValueIdx
import Idealize.ShloMosaic.Lib.StableHlo.Predicate
import proofs.«415035_j27650999452124_3_alg».proof.Proof.Spec

noncomputable section

open scoped BigOperators

namespace Cert.LibGather

open Idealize.ShloMosaic Idealize.ShloMosaic.ValueIdx

/-! ## The row gather read at an index -/

/-- THE ROW TAKE. For a `stablehlo.gather` of a table `[N, M]` at an `[n, 1]` column of start indices, with operand
    axis 0 collapsed and start-indexed, result axis 1 the one offset axis, no batching axes and the index vector on
    axis 1 of the start indices (`hoff` … `hivd`: the printed dimension numbers, each by `rfl`), the result at `(p, q)`
    is the table at `(r, q)`, where `r` is start index `p` read SIGNED and CLAMPED into `[0, N − 1]`: on axis 0 the slice
    has size one, so the clamped start is the whole coordinate; on axis 1 the start is zero and the coordinate is the
    result's own offset coordinate `q`. -/
theorem gather_row {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (q : Fin M) (hN : 0 < N) :
    Host.gather d x idx (ix2 p q)
      = x (ix2 ⟨min (idx (ix2 p (0 : Fin 1))).toInt.toNat (N - 1), by omega⟩ q) := by
  -- every batch axis of the result is axis 0, every offset axis is axis 1
  have hbat : ∀ y ∈ d.batchDims, y = (0 : Fin 2) := by
    intro y hy
    simp only [GatherDims.batchDims, Shape.kept, hoff, List.mem_filter, List.mem_singleton, decide_eq_true_eq] at hy
    have := hy.2
    revert this
    match y with
    | ⟨0, _⟩ => intro _; rfl
    | ⟨1, _⟩ => intro h; exact absurd rfl h
  have hofs : ∀ y ∈ d.offsetDims, y = (1 : Fin 2) := by rw [hoff]; intro y hy; exact List.mem_singleton.mp hy
  have hlen : d.startIndexMap.length = 1 := by rw [hsim]; rfl
  -- the start-indices position read for result position (p, q): row p of the column
  have hsi : ∀ c : Fin d.startIndexMap.length, d.siIdx (ix2 p q) c = ix2 p (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [hbat _ (List.getElem_mem _)]
    | ⟨1, _⟩ =>
      unfold GatherDims.siIdx
      rw [dif_pos (by rw [hivd])]
      apply Fin.ext
      show c.val = 0
      have := c.isLt
      omega
  have hb : ∀ a : Fin 2, a ∉ d.operandBatchingDims := by intro a; rw [hob]; exact List.not_mem_nil
  have h10 : (1 : Fin 2) ∉ [(0 : Fin 2)] := by decide
  -- operand axis 0: the clamped start index, nothing added
  have hA0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm, hsi]
    show min (idx _).toInt.toNat (N - d.sliceSizes 0) = min (idx (ix2 p (0 : Fin 1))).toInt.toNat (N - 1)
    rw [hsl]
  -- operand axis 1: start zero, plus the result's offset coordinate
  have hA1 : (d.operandIdx (ix2 p q) idx (1 : Fin 2)).val = q.val := by
    have hk : (1 : Fin 2) ∈ d.sKept := by
      rw [GatherDims.mem_sKept, hcoll, hob]; exact ⟨h10, List.not_mem_nil⟩
    have hm : (1 : Fin 2) ∉ d.startIndexMap := by rw [hsim]; exact h10
    simp only [GatherDims.operandIdx, GatherDims.batchCoord_eq_zero _ _ _ (hb _), Nat.add_zero, GatherDims.start,
      dif_neg hm, Nat.zero_add, GatherDims.offCoord, dif_pos hk]
    rw [hofs _ (List.getElem_mem _)]
  unfold Host.gather
  congr 1
  funext a
  apply Fin.ext
  match a with
  | ⟨0, _⟩ => exact hA0
  | ⟨1, _⟩ => exact hA1

/-! ## Sums against an indicator -/

/-- A sum whose coefficients are the indicator of position `j` is the summand at `j`: every other term is `0 * f l = 0`
    and the `j`-th is `1 * f j`. -/
theorem sum_indicator {n : Nat} (f : Fin n → EReal) (j : Fin n) (c : Fin n → EReal)
    (hc : ∀ l, c l = if l = j then 1 else 0) : ∑ l : Fin n, c l * f l = f j := by
  rw [Finset.sum_eq_single j]
  · rw [hc j, if_pos rfl, one_mul]
  · intro l _ hl
    rw [hc l, if_neg hl, zero_mul]
  · intro h
    exact absurd (Finset.mem_univ j) h

/-! ## Words in a small non-negative range -/

/-- A 32-bit word whose signed value is non-negative reads the same signed and unsigned. -/
theorem toInt_eq_toNat_of_nonneg (lab : BitVec 32) (h0 : 0 ≤ lab.toInt) : lab.toInt = (lab.toNat : Int) := by
  have hlt := lab.isLt
  rw [BitVec.toInt_eq_toNat_cond] at h0 ⊢
  by_cases hn : 2 * lab.toNat < 2 ^ 32
  · rw [if_pos hn]
  · rw [if_neg hn] at h0
    omega

/-- For a word whose signed value lies in `[0, 64)`, clamping that value to the last label changes nothing. -/
theorem min_toNat_of_range (lab : BitVec 32) (h0 : 0 ≤ lab.toInt) (h1 : lab.toInt < 64) :
    min lab.toInt.toNat 63 = lab.toInt.toNat := by
  omega

/-- For a word whose signed value lies in `[0, 64)`, the word of `l < 64` is that word exactly when `l` is its value:
    both words are below `2 ^ 32`, so they are equal exactly when their unsigned values are. -/
theorem ofNat_eq_iff_of_range (lab : BitVec 32) (h0 : 0 ≤ lab.toInt) (h1 : lab.toInt < 64) (l : Fin 64) :
    BitVec.ofNat 32 l.val = lab ↔ l.val = lab.toInt.toNat := by
  have hn := toInt_eq_toNat_of_nonneg lab h0
  have hl := l.isLt
  constructor
  · intro h
    have : (BitVec.ofNat 32 l.val).toNat = lab.toNat := by rw [h]
    rw [BitVec.toNat_ofNat] at this
    omega
  · intro h
    apply BitVec.eq_of_toNat_eq
    rw [BitVec.toNat_ofNat]
    omega

/-- A sum over the 64 labels against the indicator of a label word in `[0, 64)` picks that label's entry. -/
theorem sum_oh (lab : BitVec 32) (h0 : 0 ≤ lab.toInt) (h1 : lab.toInt < 64) (f : Fin 64 → EReal) :
    ∑ l : Fin 64, Cert.Spec.oh l lab * f l = f ⟨min lab.toInt.toNat 63, by omega⟩ := by
  apply sum_indicator f ⟨min lab.toInt.toNat 63, by omega⟩ (fun l => Cert.Spec.oh l lab)
  intro l
  unfold Cert.Spec.oh
  apply if_congr _ rfl rfl
  rw [ofNat_eq_iff_of_range lab h0 h1 l, Fin.ext_iff]
  show l.val = lab.toInt.toNat ↔ l.val = min lab.toInt.toNat 63
  rw [min_toNat_of_range lab h0 h1]

end Cert.LibGather

end
-- ==== Proof.GlueA.lean ====
/-
  What the host operations around the two kernels write, at the extended reals, read at an index.

  Before the first kernel the program transposes the source to (batch, position, feature), flattens it to rows and
  converts it (the identity on the extended reals): the row array, which is `Spec.xRows` of the source by definition.
  It lays the three square weight matrices side by side (columns 0 … 1535: incoming, outgoing, own), lays the three gate
  columns side by side, pads those three columns on the right to 128 columns, puts the padded block behind the wide one
  (columns 1536 … 1663) and converts: the packed weight matrix `[512, 1664]`. Columns `u`, `512 + u`, `1024 + u` of the
  packed matrix are column `u` of the incoming, outgoing and own matrix; columns 1536, 1537, 1538 are the three gate
  columns; the remaining columns hold the padding value and are never read here.

  After the second kernel the program unflattens its `[8192, 512]` result to (batch, position, feature) — row-major, so
  entry `(b, s, u)` is row `b * 512 + s` — and transposes back to (position, batch, feature).
-/
import proofs.«415035_j27650999452124_3_alg».proof.Proof.Gen.KernelIdeal.Regions
import proofs.«415035_j27650999452124_3_alg».proof.Proof.Spec
import proofs.«415035_j27650999452124_3_alg».proof.Proof.LibGather
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate

set_option maxRecDepth 16384

noncomputable section

namespace Cert.KernelIdeal.Hand

open Idealize.ShloMosaic Idealize.ShloMosaic.TcCoe
open Idealize.ShloMosaic.StableHlo
open Cert.KernelIdeal Cert.KernelIdeal.Gen Idealize.ShloMosaic.ValueIdx

/-! ## Concatenations and the pad read at an index

Each lemma is over variables of the literal array types. A concatenation along the column axis read at column `j`
is the piece whose span of columns holds `j`, read at `j` less the widths of the pieces before it; the row
coordinate is untouched. -/

section Reads

/-- Off the column axis a piece's index agrees with the whole's: the one other axis is the row axis. -/
private theorem rows_agree {n a b : Nat} (k : Fin n) (p : Fin a) (q : Fin b)
    (bb : Fin 2) (hb : bb ≠ (1 : Fin 2)) :
    ((ix2 k p : (⟨2, ![n, a]⟩ : Shape).Idx) bb).val = ((ix2 k q : (⟨2, ![n, b]⟩ : Shape).Idx) bb).val := by
  match bb with
  | ⟨0, _⟩ => rfl
  | ⟨1, _⟩ => exact absurd rfl hb

/-- Three square blocks side by side, read in the first block. -/
private theorem cat3_first (x0 x1 x2 : S512x512.Idx → EReal) (k u : Fin 512) :
    concatenate S512x1536 1 [⟨S512x512, x0⟩, ⟨S512x512, x1⟩, ⟨S512x512, x2⟩]
        concatenates_S512x512_S512x512_S512x512_S512x1536_d1 (ix2 k ⟨u.val, by omega⟩) = x0 (ix2 k u) :=
  concatenate_apply_piece (t := S512x1536) 1 _ _ (ix2 k ⟨u.val, by omega⟩) 0 (by simp) S512x512 x0 rfl rfl 0
    rfl (ix2 k u) (fun b hb => rows_agree k u _ b hb) (Nat.zero_add _)

/-- Three square blocks side by side, read in the second block. -/
private theorem cat3_second (x0 x1 x2 : S512x512.Idx → EReal) (k u : Fin 512) :
    concatenate S512x1536 1 [⟨S512x512, x0⟩, ⟨S512x512, x1⟩, ⟨S512x512, x2⟩]
        concatenates_S512x512_S512x512_S512x512_S512x1536_d1 (ix2 k ⟨512 + u.val, by omega⟩) = x1 (ix2 k u) :=
  concatenate_apply_piece (t := S512x1536) 1 _ _ (ix2 k ⟨512 + u.val, by omega⟩) 1 (by simp) S512x512 x1 rfl rfl 512
    rfl (ix2 k u) (fun b hb => rows_agree k u _ b hb) rfl

/-- Three square blocks side by side, read in the third block. -/
private theorem cat3_third (x0 x1 x2 : S512x512.Idx → EReal) (k u : Fin 512) :
    concatenate S512x1536 1 [⟨S512x512, x0⟩, ⟨S512x512, x1⟩, ⟨S512x512, x2⟩]
        concatenates_S512x512_S512x512_S512x512_S512x1536_d1 (ix2 k ⟨1024 + u.val, by omega⟩) = x2 (ix2 k u) :=
  concatenate_apply_piece (t := S512x1536) 1 _ _ (ix2 k ⟨1024 + u.val, by omega⟩) 2 (by simp) S512x512 x2 rfl rfl 1024
    rfl (ix2 k u) (fun b hb => rows_agree k u _ b hb) rfl

/-- Three columns side by side: column `g` is the `g`-th of them. -/
private theorem colcat3_zero (y0 y1 y2 : S512x1.Idx → EReal) (k : Fin 512) :
    concatenate S512x3 1 [⟨S512x1, y0⟩, ⟨S512x1, y1⟩, ⟨S512x1, y2⟩]
        concatenates_S512x1_S512x1_S512x1_S512x3_d1 (ix2 k (0 : Fin 3)) = y0 (ix2 k (0 : Fin 1)) :=
  concatenate_apply_piece (t := S512x3) 1 _ _ (ix2 k (0 : Fin 3)) 0 (by simp) S512x1 y0 rfl rfl 0
    rfl (ix2 k (0 : Fin 1)) (fun b hb => rows_agree k _ _ b hb) rfl

private theorem colcat3_one (y0 y1 y2 : S512x1.Idx → EReal) (k : Fin 512) :
    concatenate S512x3 1 [⟨S512x1, y0⟩, ⟨S512x1, y1⟩, ⟨S512x1, y2⟩]
        concatenates_S512x1_S512x1_S512x1_S512x3_d1 (ix2 k (1 : Fin 3)) = y1 (ix2 k (0 : Fin 1)) :=
  concatenate_apply_piece (t := S512x3) 1 _ _ (ix2 k (1 : Fin 3)) 1 (by simp) S512x1 y1 rfl rfl 1
    rfl (ix2 k (0 : Fin 1)) (fun b hb => rows_agree k _ _ b hb) rfl

private theorem colcat3_two (y0 y1 y2 : S512x1.Idx → EReal) (k : Fin 512) :
    concatenate S512x3 1 [⟨S512x1, y0⟩, ⟨S512x1, y1⟩, ⟨S512x1, y2⟩]
        concatenates_S512x1_S512x1_S512x1_S512x3_d1 (ix2 k (2 : Fin 3)) = y2 (ix2 k (0 : Fin 1)) :=
  concatenate_apply_piece (t := S512x3) 1 _ _ (ix2 k (2 : Fin 3)) 2 (by simp) S512x1 y2 rfl rfl 2
    rfl (ix2 k (0 : Fin 1)) (fun b hb => rows_agree k _ _ b hb) rfl

/-- Padding three columns out to 128 on the right leaves the three columns where they were. -/
private theorem pad3_inside (y : S512x3.Idx → EReal) (v : S_.Idx → EReal) (k : Fin 512) (g : Fin 3) :
    pad S512x128 ![0, 0] ![0, 125] ![0, 0] y v pads_S512x3_S512x128_000_01250 h_S_ (ix2 k ⟨g.val, by omega⟩)
      = y (ix2 k g) := by
  refine pad_apply_of_inside (s := S512x3) (t := S512x128) ![0, 0] ![0, 125] ![0, 0] y v
    pads_S512x3_S512x128_000_01250 h_S_ (ix2 k ⟨g.val, by omega⟩) (ix2 k g) ?_
  intro a
  match a with
  | ⟨0, _⟩ => show k.val = 0 + k.val * (0 + 1); omega
  | ⟨1, _⟩ => show g.val = 0 + g.val * (0 + 1); omega

/-- The wide block and the narrow block side by side, read in the wide block. -/
private theorem cat2_wide (A : S512x1536.Idx → EReal) (B : S512x128.Idx → EReal) (k : Fin 512) (j : Fin 1536) :
    concatenate S512x1664 1 [⟨S512x1536, A⟩, ⟨S512x128, B⟩]
        concatenates_S512x1536_S512x128_S512x1664_d1 (ix2 k ⟨j.val, by omega⟩) = A (ix2 k j) :=
  concatenate_apply_piece (t := S512x1664) 1 _ _ (ix2 k ⟨j.val, by omega⟩) 0 (by simp) S512x1536 A rfl rfl 0
    rfl (ix2 k j) (fun b hb => rows_agree k j _ b hb) (Nat.zero_add _)

/-- The wide block and the narrow block side by side, read in the narrow block. -/
private theorem cat2_narrow (A : S512x1536.Idx → EReal) (B : S512x128.Idx → EReal) (k : Fin 512) (j : Fin 128) :
    concatenate S512x1664 1 [⟨S512x1536, A⟩, ⟨S512x128, B⟩]
        concatenates_S512x1536_S512x128_S512x1664_d1 (ix2 k ⟨1536 + j.val, by omega⟩) = B (ix2 k j) :=
  concatenate_apply_piece (t := S512x1664) 1 _ _ (ix2 k ⟨1536 + j.val, by omega⟩) 1 (by simp) S512x128 B rfl rfl 1536
    rfl (ix2 k j) (fun b hb => rows_agree k j _ b hb) rfl

end Reads

variable (m : (ℓ : Loc nD τ sig) → Buf (Elt Ideal) ℓ) (outs : Gen.Outs (F := Ideal)) (c : Dev nD)

/-! ## The row array -/

/-- The first kernel's row operand is the source transposed to (batch, position, feature) and flattened: the two
    operations `Spec.xRows` is defined by, the conversion after them being the identity on the extended reals. -/
theorem v2_eq :
    (Gen.V3 m c main_v2 : S8192x512.Idx → EReal)
      = Cert.Spec.xRows (m ((c : Thread nD τ).loc main_arg0) : S512x16x512.Idx → EReal) := by
  rw [Gen.V3_of m c main_v2 (by decide), Gen.V2_of m c main_v2 (by decide)]
  show StableHlo.after hostOps0 (Gen.V0 m c) (Proc.devRef .tc main_v2) = _
  after_results
  rfl

/-! ## The packed weight matrix -/

/-- The packed weight matrix as the host operations build it from the six weight arguments: the three matrices side
    by side, then the three gate columns side by side and padded to 128 columns, the whole converted. -/
theorem v7_eq :
    (Gen.V3 m c main_v7 : S512x1664.Idx → EReal)
      = truncf .bf16
          (concatenate S512x1664 1
            [⟨S512x1536, concatenate S512x1536 1
                [⟨S512x512, (m ((c : Thread nD τ).loc main_arg9) : S512x512.Idx → EReal)⟩,
                 ⟨S512x512, (m ((c : Thread nD τ).loc main_arg13) : S512x512.Idx → EReal)⟩,
                 ⟨S512x512, (m ((c : Thread nD τ).loc main_arg17) : S512x512.Idx → EReal)⟩]
                concatenates_S512x512_S512x512_S512x512_S512x1536_d1⟩,
             ⟨S512x128, pad S512x128 ![0, 0] ![0, 125] ![0, 0]
                (concatenate S512x3 1
                  [⟨S512x1, (m ((c : Thread nD τ).loc main_arg11) : S512x1.Idx → EReal)⟩,
                   ⟨S512x1, (m ((c : Thread nD τ).loc main_arg15) : S512x1.Idx → EReal)⟩,
                   ⟨S512x1, (m ((c : Thread nD τ).loc main_arg18) : S512x1.Idx → EReal)⟩]
                  concatenates_S512x1_S512x1_S512x1_S512x3_d1)
                (sitofp .f32 (constantI S_ 32 0#32) : FVec Ideal S_ .f32)
                pads_S512x3_S512x128_000_01250 h_S_⟩]
            concatenates_S512x1536_S512x128_S512x1664_d1)
          bitsLt_bf16_f32 := by
  show StableHlo.after hostOps0_2 (Gen.V2 m c) (Proc.devRef .tc main_v7) = _
  after_results
  rfl

/-- Column `u` of the packed matrix is column `u` of the incoming matrix. -/
theorem wall_in (k u : Fin 512) :
    (Gen.V3 m c main_v7 : S512x1664.Idx → EReal) (ix2 k ⟨u.val, by omega⟩)
      = (m ((c : Thread nD τ).loc main_arg9) : S512x512.Idx → EReal) (ix2 k u) := by
  refine (congrFun (v7_eq m c) _).trans ?_
  refine (truncf_apply (φ := .f32) (ψ := .bf16) _ bitsLt_bf16_f32 _).trans ?_
  refine (cat2_wide _ _ k ⟨u.val, by omega⟩).trans ?_
  exact cat3_first _ _ _ k u

/-- Column `512 + u` of the packed matrix is column `u` of the outgoing matrix. -/
theorem wall_out (k u : Fin 512) :
    (Gen.V3 m c main_v7 : S512x1664.Idx → EReal) (ix2 k ⟨512 + u.val, by omega⟩)
      = (m ((c : Thread nD τ).loc main_arg13) : S512x512.Idx → EReal) (ix2 k u) := by
  refine (congrFun (v7_eq m c) _).trans ?_
  refine (truncf_apply (φ := .f32) (ψ := .bf16) _ bitsLt_bf16_f32 _).trans ?_
  refine (cat2_wide _ _ k ⟨512 + u.val, by omega⟩).trans ?_
  exact cat3_second _ _ _ k u

/-- Column `1024 + u` of the packed matrix is column `u` of the row's own matrix. -/
theorem wall_self (k u : Fin 512) :
    (Gen.V3 m c main_v7 : S512x1664.Idx → EReal) (ix2 k ⟨1024 + u.val, by omega⟩)
      = (m ((c : Thread nD τ).loc main_arg17) : S512x512.Idx → EReal) (ix2 k u) := by
  refine (congrFun (v7_eq m c) _).trans ?_
  refine (truncf_apply (φ := .f32) (ψ := .bf16) _ bitsLt_bf16_f32 _).trans ?_
  refine (cat2_wide _ _ k ⟨1024 + u.val, by omega⟩).trans ?_
  exact cat3_third _ _ _ k u

/-- Column 1536 of the packed matrix is the incoming gate column. -/
theorem wall_ing (k : Fin 512) :
    (Gen.V3 m c main_v7 : S512x1664.Idx → EReal) (ix2 k ⟨1536, by omega⟩)
      = (m ((c : Thread nD τ).loc main_arg11) : S512x1.Idx → EReal) (ix2 k (0 : Fin 1)) := by
  refine (congrFun (v7_eq m c) _).trans ?_
  refine (truncf_apply (φ := .f32) (ψ := .bf16) _ bitsLt_bf16_f32 _).trans ?_
  refine (cat2_narrow _ _ k (0 : Fin 128)).trans ?_
  refine (pad3_inside _ _ k (0 : Fin 3)).trans ?_
  exact colcat3_zero _ _ _ k

/-- Column 1537 of the packed matrix is the outgoing gate column. -/
theorem wall_outg (k : Fin 512) :
    (Gen.V3 m c main_v7 : S512x1664.Idx → EReal) (ix2 k ⟨1537, by omega⟩)
      = (m ((c : Thread nD τ).loc main_arg15) : S512x1.Idx → EReal) (ix2 k (0 : Fin 1)) := by
  refine (congrFun (v7_eq m c) _).trans ?_
  refine (truncf_apply (φ := .f32) (ψ := .bf16) _ bitsLt_bf16_f32 _).trans ?_
  refine (cat2_narrow _ _ k (1 : Fin 128)).trans ?_
  refine (pad3_inside _ _ k (1 : Fin 3)).trans ?_
  exact colcat3_one _ _ _ k

/-- Column 1538 of the packed matrix is the own gate column. -/
theorem wall_selfg (k : Fin 512) :
    (Gen.V3 m c main_v7 : S512x1664.Idx → EReal) (ix2 k ⟨1538, by omega⟩)
      = (m ((c : Thread nD τ).loc main_arg18) : S512x1.Idx → EReal) (ix2 k (0 : Fin 1)) := by
  refine (congrFun (v7_eq m c) _).trans ?_
  refine (truncf_apply (φ := .f32) (ψ := .bf16) _ bitsLt_bf16_f32 _).trans ?_
  refine (cat2_narrow _ _ k (2 : Fin 128)).trans ?_
  refine (pad3_inside _ _ k (2 : Fin 3)).trans ?_
  exact colcat3_two _ _ _ k

/-! ## The tail: unflatten, transpose back -/

/-- The program's result is the second kernel's `[8192, 512]` output unflattened to (batch, position, feature) and
    transposed to (position, batch, feature). -/
theorem v49_eq :
    (Gen.V15 m outs c main_v49 : S512x16x512.Idx → EReal)
      = transpose S512x16x512 [1, 0, 2]
          (shapeCast S16x512x512 (outs 14 main_v47 c : S8192x512.Idx → EReal) shapeCasts_S8192x512_S16x512x512)
          transposes_S16x512x512_S512x16x512_1_0_2 := by
  show StableHlo.after hostOps2 (Gen.V14 m outs c) (Proc.devRef .tc main_v49) = _
  after_results
  rfl

/-- Unflattening is row-major: entry `(b, s, u)` of the unflattened array is entry `(b * 512 + s, u)` of the rows. -/
theorem unflatten_apply (X : S8192x512.Idx → EReal) (b : Fin 16) (s : Fin 512) (u : Fin 512) :
    shapeCast S16x512x512 X shapeCasts_S8192x512_S16x512x512 (ix3 b s u) = X (ix2 (Cert.Spec.rowOf b s) u) := by
  refine shapeCast_apply X shapeCasts_S8192x512_S16x512x512 (ix3 b s u) (ix2 (Cert.Spec.rowOf b s) u) ?_
  rw [Shape.rowMajor_val_two, Shape.rowMajor_val_three]
  rfl

end Cert.KernelIdeal.Hand

end
-- ==== Proof.GlueB.lean ====
/-
  The host operations between the two kernels, read at an index.

  After the first kernel the host cuts its wide output `[8192, 1536]` into three 512-column stretches and its narrow
  output `[8192, 128]` into single columns, computes for every arc the 32-bit word `arc[0, e] * 512 + arc[1, e]` naming a
  row, takes the rows (of the first two stretches) and the entries (of the first two columns) the arcs name — the word
  read signed and clamped into the 8192 rows —, and lays the 40960 taken rows or entries out five to a row, arc `d` of
  row `r` being arc `5 r + d`. This file reads the four arrays so built at an entry, in terms of the first kernel's two
  outputs and the launch contents of the two arc tables:

  * the incoming messages at `(r, 512 d + u)`: wide output, row named by incoming arc `5 r + d`, column `u`;
  * the outgoing messages at `(r, 512 d + u)`: wide output, row named by outgoing arc `5 r + d`, column `512 + u`;
  * the incoming gate scalars at `(r, d)`: narrow output, row named by incoming arc `5 r + d`, column 0;
  * the outgoing gate scalars at `(r, d)`: narrow output, row named by outgoing arc `5 r + d`, column 1.

  First the printed operations are read at an index over arbitrary arrays; then each stretch of host operations is
  evaluated at the buffer it writes, from any earlier contents; then the buffers are followed through the valuations
  between the kernels (a buffer no later stretch writes keeps its contents); last the four statements.
-/
import proofs.«415035_j27650999452124_3_alg».proof.Proof.Gen.KernelIdeal.Regions
import proofs.«415035_j27650999452124_3_alg».proof.Proof.Spec
import proofs.«415035_j27650999452124_3_alg».proof.Proof.LibGather
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

set_option maxRecDepth 16384

noncomputable section

namespace Cert.KernelIdeal.Hand

open Idealize.ShloMosaic Idealize.ShloMosaic.TcCoe
open Idealize.ShloMosaic.StableHlo Idealize.ShloMosaic.StableHlo.Predicate
open Cert.KernelIdeal Cert.KernelIdeal.Gen Idealize.ShloMosaic.ValueIdx

variable (m : (ℓ : Loc nD τ sig) → Buf (Elt Ideal) ℓ) (outs : Gen.Outs (F := Ideal)) (c : Dev nD)

/-! ## Reads of the printed host operations at an index, over arbitrary arrays -/

section Reads
variable {α : Type}

/-- The rank-one index at coordinate `p`, in its two spellings. -/
theorem ofFin_eq_ix1 {n : Nat} (p : Fin n) : Shape.Idx.ofFin p = ix1 p := by
  funext a; match a with | ⟨0, _⟩ => rfl

/-- A vector kept as a one-column array reads, at row `p`, the vector at `p`. -/
theorem column_apply (w : S40960.Idx → BitVec 32) (p : Fin 40960) (z : Fin 1) :
    broadcastInDim S40960x1 ![0] bcast_S40960_S40960x1_0 w (ix2 p z) = w (ix1 p) :=
  broadcastInDim_apply _ _ _ _ _ (fun a => by
    match a with
    | ⟨0, _⟩ => exact (if_neg (show ¬ (40960 : Nat) = 1 by decide)).symm)

/-- The word an arc names its row by, as the host computes it from the two rows of an arc table: row 0 times 512 plus
    row 1, in 32-bit arithmetic. -/
theorem word_apply (a : S2x40960.Idx → BitVec 32) (e : Fin 40960) :
    (addi (muli (shapeCast S40960 (extractStridedSlice S1x40960 ![0, 0] a slices_S2x40960_S1x40960_0_0) shapeCasts_S1x40960_S40960)
                (broadcastInDim S40960 ![] bcast_S_S40960 (constantI S_ 32 512#32)))
          (shapeCast S40960 (extractStridedSlice S1x40960 ![1, 0] a slices_S2x40960_S1x40960_1_0) shapeCasts_S1x40960_S40960)
        : S40960.Idx → BitVec 32) (ix1 e)
      = Cert.Spec.arcWord a e := by
  show shapeCast S40960 (extractStridedSlice S1x40960 ![0, 0] a slices_S2x40960_S1x40960_0_0) shapeCasts_S1x40960_S40960 (ix1 e)
        * 512#32
      + shapeCast S40960 (extractStridedSlice S1x40960 ![1, 0] a slices_S2x40960_S1x40960_1_0) shapeCasts_S1x40960_S40960 (ix1 e) = _
  rw [shapeCast_1a_a_apply, shapeCast_1a_a_apply,
    slice2_axis0_apply 0 a _ (0 : Fin 1) e (0 : Fin 2) rfl, slice2_axis0_apply 1 a _ (0 : Fin 1) e (1 : Fin 2) rfl]
  rfl

/-- The row take of a table at a vector of words, then laid out five arcs to a row: entry `(r, 512 d + u)` is the
    table's entry `(k, u)`, where `k` is the word of arc `5 r + d` read signed and clamped into the 8192 rows. The flat
    position of `(r, 512 d + u)` in `[8192, 2560]` is `2560 r + 512 d + u = 512 (5 r + d) + u`, that of `(5 r + d, u)` in
    `[40960, 512]`. -/
theorem take_reshape_apply (X : S8192x512.Idx → α) (w : S40960.Idx → BitVec 32) (r : Fin 8192) (d : Fin 5) (u : Fin 512) :
    shapeCast S8192x2560 (Host.gather gather_S8192x512_S40960x1_S40960x512_1_0_n_n_0_1_1512 X
        (broadcastInDim S40960x1 ![0] bcast_S40960_S40960x1_0 w)) shapeCasts_S40960x512_S8192x2560 (ix2 r (Cert.Spec.col5 d u))
      = X (ix2 ⟨min (w (ix1 (Cert.Spec.edge r d))).toInt.toNat 8191, by omega⟩ u) := by
  rw [shapeCast_apply _ _ (ix2 r (Cert.Spec.col5 d u)) (ix2 (Cert.Spec.edge r d) u) (by
    rw [Shape.rowMajor_val_two, Shape.rowMajor_val_two]
    show (5 * r.val + d.val) * 512 + u.val = r.val * 2560 + (512 * d.val + u.val)
    omega)]
  refine (Cert.LibGather.gather_row _ rfl rfl rfl rfl rfl X _ (Cert.Spec.edge r d) u (by decide)).trans
    (congrArg (fun k => X (ix2 k u)) (Fin.ext ?_))
  show min (broadcastInDim S40960x1 ![0] bcast_S40960_S40960x1_0 w (ix2 (Cert.Spec.edge r d) (0 : Fin 1))).toInt.toNat (8192 - 1)
    = min (w (ix1 (Cert.Spec.edge r d))).toInt.toNat 8191
  rw [column_apply]

/-- Row `p` of a one-column array, in its two spellings. -/
theorem ixP_eq {n : Nat} (p : Fin n) : ixP p = ix2 p (0 : Fin 1) := by
  funext a; match a with | ⟨0, _⟩ => rfl | ⟨1, _⟩ => rfl

/-- The rank-one take of a vector at a column of words: entry `e` is the vector's entry `k`, where `k` is word `e`
    read signed and clamped into the 8192 positions. -/
theorem take0_apply (x : S8192.Idx → α) (idx : S40960x1.Idx → BitVec 32) (e : Fin 40960) :
    Host.gather gather_S8192_S40960x1_S40960_n_0_n_n_0_1_1 x idx (ix1 e)
      = x (ix1 ⟨min (idx (ix2 e (0 : Fin 1))).toInt.toNat 8191, by omega⟩) := by
  have h := gather_take gather_S8192_S40960x1_S40960_n_0_n_n_0_1_1 rfl rfl rfl rfl x idx e (by decide)
  rw [ofFin_eq_ix1 e] at h
  refine h.trans ?_
  refine (congrArg x (ofFin_eq_ix1 _)).trans ?_
  refine congrArg (fun k => x (ix1 k)) (Fin.ext ?_)
  show min (idx (ixP e)).toInt.toNat (8192 - 1) = min (idx (ix2 e (0 : Fin 1))).toInt.toNat 8191
  rw [ixP_eq]

/-- The rank-one take of a vector at a vector of words, then laid out five arcs to a row: entry `(r, d)` is the
    vector's entry `k`, where `k` is the word of arc `5 r + d` read signed and clamped into the 8192 rows. -/
theorem take0_reshape_apply (x : S8192.Idx → α) (w : S40960.Idx → BitVec 32) (r : Fin 8192) (d : Fin 5) :
    shapeCast S8192x5 (Host.gather gather_S8192_S40960x1_S40960_n_0_n_n_0_1_1 x
        (broadcastInDim S40960x1 ![0] bcast_S40960_S40960x1_0 w)) shapeCasts_S40960_S8192x5 (ix2 r d)
      = x (ix1 ⟨min (w (ix1 (Cert.Spec.edge r d))).toInt.toNat 8191, by omega⟩) := by
  rw [shapeCast_apply _ _ (ix2 r d) (ix1 (Cert.Spec.edge r d)) (by
    rw [Shape.rowMajor_val_two, Shape.rowMajor_val_one]
    show 5 * r.val + d.val = r.val * 5 + d.val
    omega)]
  refine (take0_apply x _ (Cert.Spec.edge r d)).trans ?_
  refine congrArg (fun k => x (ix1 k)) (Fin.ext ?_)
  show min (broadcastInDim S40960x1 ![0] bcast_S40960_S40960x1_0 w (ix2 (Cert.Spec.edge r d) (0 : Fin 1))).toInt.toNat 8191
    = min (w (ix1 (Cert.Spec.edge r d))).toInt.toNat 8191
  rw [column_apply]

/-- Column `o` of a 128-column array, kept as a vector, reads at `k` the array's entry `(k, o)`. -/
theorem gatecol_apply (Y : S8192x128.Idx → α) (o : Nat) (ho : o < 128) (h : S8192x128.Slices ![0, o] S8192x1) (k : Fin 8192) :
    shapeCast S8192 (extractStridedSlice S8192x1 ![0, o] Y h) shapeCasts_S8192x1_S8192 (ix1 k) = Y (ix2 k ⟨o, ho⟩) := by
  rw [shapeCast_apply _ _ (ix1 k) (ix2 k (0 : Fin 1)) (by
    rw [Shape.rowMajor_val_two, Shape.rowMajor_val_one]
    show k.val * 1 + 0 = k.val
    omega)]
  exact slice2_axis1_apply o Y h k (0 : Fin 1) ⟨o, ho⟩ rfl

end Reads

/-! ## What each host stretch between the two kernels writes, from any earlier contents `W` -/

section Stretches
variable (W : Valuation τ sig (Elt Ideal))

/-- Columns 0 to 511 of the first kernel's wide output. -/
theorem stretch1_v9 : (StableHlo.after hostOps1 W (Proc.devRef .tc main_v9) : S8192x512.Idx → EReal)
    = extractStridedSlice S8192x512 ![0, 0] (W (Proc.devRef .tc main_v8_0) : S8192x1536.Idx → EReal) slices_S8192x1536_S8192x512_0_0 := by
  after_results_simp <;> rfl

/-- Columns 512 to 1023 of the first kernel's wide output. -/
theorem stretch1_v10 : (StableHlo.after hostOps1 W (Proc.devRef .tc main_v10) : S8192x512.Idx → EReal)
    = extractStridedSlice S8192x512 ![0, 512] (W (Proc.devRef .tc main_v8_0) : S8192x1536.Idx → EReal) slices_S8192x1536_S8192x512_0_512 := by
  after_results_simp <;> rfl

/-- Column 0 of the first kernel's narrow output, as a vector. -/
theorem stretch1_v13 : (StableHlo.after hostOps1 W (Proc.devRef .tc main_v13) : S8192.Idx → EReal)
    = shapeCast S8192 (extractStridedSlice S8192x1 ![0, 0] (W (Proc.devRef .tc main_v8_1) : S8192x128.Idx → EReal) slices_S8192x128_S8192x1_0_0)
        shapeCasts_S8192x1_S8192 := by
  after_results_simp <;> rfl

/-- Column 1 of the first kernel's narrow output, as a vector. -/
theorem stretch1_v15 : (StableHlo.after hostOps1 W (Proc.devRef .tc main_v15) : S8192.Idx → EReal)
    = shapeCast S8192 (extractStridedSlice S8192x1 ![0, 1] (W (Proc.devRef .tc main_v8_1) : S8192x128.Idx → EReal) slices_S8192x128_S8192x1_0_1)
        shapeCasts_S8192x1_S8192 := by
  after_results_simp <;> rfl

/-- The incoming arcs' row words: row 0 of argument 1 times 512 plus row 1. -/
theorem stretch1_v23 : (StableHlo.after hostOps1 W (Proc.devRef .tc main_v23) : S40960.Idx → BitVec 32)
    = addi (muli (shapeCast S40960 (extractStridedSlice S1x40960 ![0, 0] (W (Proc.devRef .tc main_arg1) : S2x40960.Idx → BitVec 32) slices_S2x40960_S1x40960_0_0) shapeCasts_S1x40960_S40960)
                 (broadcastInDim S40960 ![] bcast_S_S40960 (constantI S_ 32 512#32)))
           (shapeCast S40960 (extractStridedSlice S1x40960 ![1, 0] (W (Proc.devRef .tc main_arg1) : S2x40960.Idx → BitVec 32) slices_S2x40960_S1x40960_1_0) shapeCasts_S1x40960_S40960) := by
  after_results_simp <;> rfl

/-- The outgoing arcs' row words: row 0 of argument 2 times 512 plus row 1. -/
theorem stretch1_v30 : (StableHlo.after hostOps1 W (Proc.devRef .tc main_v30) : S40960.Idx → BitVec 32)
    = addi (muli (shapeCast S40960 (extractStridedSlice S1x40960 ![0, 0] (W (Proc.devRef .tc main_arg2) : S2x40960.Idx → BitVec 32) slices_S2x40960_S1x40960_0_0) shapeCasts_S1x40960_S40960)
                 (broadcastInDim S40960 ![] bcast_S_S40960 (constantI S_ 32 512#32)))
           (shapeCast S40960 (extractStridedSlice S1x40960 ![1, 0] (W (Proc.devRef .tc main_arg2) : S2x40960.Idx → BitVec 32) slices_S2x40960_S1x40960_1_0) shapeCasts_S1x40960_S40960) := by
  after_results_simp <;> rfl

/-- The row take of columns 0 to 511 at the incoming arcs' words. -/
theorem stretch1_1_v31 : (StableHlo.after hostOps1_1 W (Proc.devRef .tc main_v31) : S40960x512.Idx → EReal)
    = Host.gather gather_S8192x512_S40960x1_S40960x512_1_0_n_n_0_1_1512 (W (Proc.devRef .tc main_v9) : S8192x512.Idx → EReal)
        (broadcastInDim S40960x1 ![0] bcast_S40960_S40960x1_0 (W (Proc.devRef .tc main_v23) : S40960.Idx → BitVec 32)) := by
  after_results <;> (try simp only [TRef.ofBuf, TRef.toBuf, cast_eq]) <;> rfl

/-- Its layout five arcs to a row. -/
theorem stretch1_2_v32 : (StableHlo.after hostOps1_2 W (Proc.devRef .tc main_v32) : S8192x2560.Idx → EReal)
    = shapeCast S8192x2560 (W (Proc.devRef .tc main_v31) : S40960x512.Idx → EReal) shapeCasts_S40960x512_S8192x2560 := by
  after_results <;> (try simp only [TRef.ofBuf, TRef.toBuf, cast_eq]) <;> rfl

/-- The row take of columns 512 to 1023 at the outgoing arcs' words. -/
theorem stretch1_3_v33 : (StableHlo.after hostOps1_3 W (Proc.devRef .tc main_v33) : S40960x512.Idx → EReal)
    = Host.gather gather_S8192x512_S40960x1_S40960x512_1_0_n_n_0_1_1512 (W (Proc.devRef .tc main_v10) : S8192x512.Idx → EReal)
        (broadcastInDim S40960x1 ![0] bcast_S40960_S40960x1_0 (W (Proc.devRef .tc main_v30) : S40960.Idx → BitVec 32)) := by
  after_results <;> (try simp only [TRef.ofBuf, TRef.toBuf, cast_eq]) <;> rfl

/-- Its layout five arcs to a row. -/
theorem stretch1_4_v34 : (StableHlo.after hostOps1_4 W (Proc.devRef .tc main_v34) : S8192x2560.Idx → EReal)
    = shapeCast S8192x2560 (W (Proc.devRef .tc main_v33) : S40960x512.Idx → EReal) shapeCasts_S40960x512_S8192x2560 := by
  after_results <;> (try simp only [TRef.ofBuf, TRef.toBuf, cast_eq]) <;> rfl

/-- The take of column 0 at the incoming arcs' words. -/
theorem stretch1_5_v35 : (StableHlo.after hostOps1_5 W (Proc.devRef .tc main_v35) : S40960.Idx → EReal)
    = Host.gather gather_S8192_S40960x1_S40960_n_0_n_n_0_1_1 (W (Proc.devRef .tc main_v13) : S8192.Idx → EReal)
        (broadcastInDim S40960x1 ![0] bcast_S40960_S40960x1_0 (W (Proc.devRef .tc main_v23) : S40960.Idx → BitVec 32)) := by
  after_results <;> (try simp only [TRef.ofBuf, TRef.toBuf, cast_eq]) <;> rfl

/-- Its layout five arcs to a row. -/
theorem stretch1_6_v36 : (StableHlo.after hostOps1_6 W (Proc.devRef .tc main_v36) : S8192x5.Idx → EReal)
    = shapeCast S8192x5 (W (Proc.devRef .tc main_v35) : S40960.Idx → EReal) shapeCasts_S40960_S8192x5 := by
  after_results <;> (try simp only [TRef.ofBuf, TRef.toBuf, cast_eq]) <;> rfl

/-- The take of column 1 at the outgoing arcs' words. -/
theorem stretch1_7_v37 : (StableHlo.after hostOps1_7 W (Proc.devRef .tc main_v37) : S40960.Idx → EReal)
    = Host.gather gather_S8192_S40960x1_S40960_n_0_n_n_0_1_1 (W (Proc.devRef .tc main_v15) : S8192.Idx → EReal)
        (broadcastInDim S40960x1 ![0] bcast_S40960_S40960x1_0 (W (Proc.devRef .tc main_v30) : S40960.Idx → BitVec 32)) := by
  after_results <;> (try simp only [TRef.ofBuf, TRef.toBuf, cast_eq]) <;> rfl

/-- Its layout five arcs to a row. -/
theorem stretch1_8_v38 : (StableHlo.after hostOps1_8 W (Proc.devRef .tc main_v38) : S8192x5.Idx → EReal)
    = shapeCast S8192x5 (W (Proc.devRef .tc main_v37) : S40960.Idx → EReal) shapeCasts_S40960_S8192x5 := by
  after_results <;> (try simp only [TRef.ofBuf, TRef.toBuf, cast_eq]) <;> rfl

end Stretches

/-! ## The same buffers as the valuations between the two kernels hold them -/

section Chain

/-- The first kernel's wide output, as the region leaves it. -/
theorem V4_v8_0 : (Gen.V4 m outs c main_v8_0 : S8192x1536.Idx → EReal) = (outs 4 main_v8_0 c : S8192x1536.Idx → EReal) := by
  simp only [Gen.V4, Function.update_of_ne (StableHlo.devRef_ne_of_ne (by decide) : (Proc.devRef .tc main_v8_0 : DevRef τ sig) ≠ Proc.devRef .tc main_v8_1), Function.update_self]

/-- The first kernel's narrow output, as the region leaves it. -/
theorem V4_v8_1 : (Gen.V4 m outs c main_v8_1 : S8192x128.Idx → EReal) = (outs 4 main_v8_1 c : S8192x128.Idx → EReal) := by
  simp only [Gen.V4, Function.update_self]

/-- Nothing before the second stretch of host operations writes argument 1 … -/
theorem V4_arg1 : (Gen.V4 m outs c main_arg1 : S2x40960.Idx → BitVec 32) = (m ((c : Thread nD τ).loc main_arg1) : S2x40960.Idx → BitVec 32) :=
  (Gen.V4_of m outs c main_arg1 (by decide)).trans ((Gen.V3_of m c main_arg1 (by decide)).trans
    ((Gen.V2_of m c main_arg1 (by decide)).trans (Gen.V1_of m c main_arg1 (by decide))))

/-- … nor argument 2. -/
theorem V4_arg2 : (Gen.V4 m outs c main_arg2 : S2x40960.Idx → BitVec 32) = (m ((c : Thread nD τ).loc main_arg2) : S2x40960.Idx → BitVec 32) :=
  (Gen.V4_of m outs c main_arg2 (by decide)).trans ((Gen.V3_of m c main_arg2 (by decide)).trans
    ((Gen.V2_of m c main_arg2 (by decide)).trans (Gen.V1_of m c main_arg2 (by decide))))

/-- The incoming arcs' row words at an arc. -/
theorem V5_v23_apply (e : Fin 40960) : (Gen.V5 m outs c main_v23 : S40960.Idx → BitVec 32) (ix1 e)
    = Cert.Spec.arcWord (m ((c : Thread nD τ).loc main_arg1) : S2x40960.Idx → BitVec 32) e := by
  have h := stretch1_v23 (Gen.V4 m outs c)
  rw [V4_arg1] at h
  exact (congrFun h (ix1 e)).trans (word_apply _ e)

/-- The outgoing arcs' row words at an arc. -/
theorem V5_v30_apply (e : Fin 40960) : (Gen.V5 m outs c main_v30 : S40960.Idx → BitVec 32) (ix1 e)
    = Cert.Spec.arcWord (m ((c : Thread nD τ).loc main_arg2) : S2x40960.Idx → BitVec 32) e := by
  have h := stretch1_v30 (Gen.V4 m outs c)
  rw [V4_arg2] at h
  exact (congrFun h (ix1 e)).trans (word_apply _ e)

/-- Columns 0 to 511 of the first kernel's wide output at an entry. -/
theorem V5_v9_apply (k : Fin 8192) (u : Fin 512) : (Gen.V5 m outs c main_v9 : S8192x512.Idx → EReal) (ix2 k u)
    = (outs 4 main_v8_0 c : S8192x1536.Idx → EReal) (ix2 k ⟨u.val, by omega⟩) := by
  have h := stretch1_v9 (Gen.V4 m outs c)
  rw [V4_v8_0] at h
  exact (congrFun h (ix2 k u)).trans (slice2_axis1_apply 0 _ _ k u ⟨u.val, by omega⟩ (Nat.zero_add _).symm)

/-- Columns 512 to 1023 of the first kernel's wide output at an entry. -/
theorem V5_v10_apply (k : Fin 8192) (u : Fin 512) : (Gen.V5 m outs c main_v10 : S8192x512.Idx → EReal) (ix2 k u)
    = (outs 4 main_v8_0 c : S8192x1536.Idx → EReal) (ix2 k ⟨512 + u.val, by omega⟩) := by
  have h := stretch1_v10 (Gen.V4 m outs c)
  rw [V4_v8_0] at h
  exact (congrFun h (ix2 k u)).trans (slice2_axis1_apply 512 _ _ k u ⟨512 + u.val, by omega⟩ rfl)

/-- Column 0 of the first kernel's narrow output at an entry. -/
theorem V5_v13_apply (k : Fin 8192) : (Gen.V5 m outs c main_v13 : S8192.Idx → EReal) (ix1 k)
    = (outs 4 main_v8_1 c : S8192x128.Idx → EReal) (ix2 k ⟨0, by omega⟩) := by
  have h := stretch1_v13 (Gen.V4 m outs c)
  rw [V4_v8_1] at h
  exact (congrFun h (ix1 k)).trans (gatecol_apply _ 0 (by omega) _ k)

/-- Column 1 of the first kernel's narrow output at an entry. -/
theorem V5_v15_apply (k : Fin 8192) : (Gen.V5 m outs c main_v15 : S8192.Idx → EReal) (ix1 k)
    = (outs 4 main_v8_1 c : S8192x128.Idx → EReal) (ix2 k ⟨1, by omega⟩) := by
  have h := stretch1_v15 (Gen.V4 m outs c)
  rw [V4_v8_1] at h
  exact (congrFun h (ix1 k)).trans (gatecol_apply _ 1 (by omega) _ k)

/-- The gathered incoming messages: no stretch after the one that lays them out writes them, and the operands of
    their take are not written between the second stretch and the take. -/
theorem V13_v32 : (Gen.V13 m outs c main_v32 : S8192x2560.Idx → EReal)
    = shapeCast S8192x2560 (Host.gather gather_S8192x512_S40960x1_S40960x512_1_0_n_n_0_1_1512
        (Gen.V5 m outs c main_v9 : S8192x512.Idx → EReal)
        (broadcastInDim S40960x1 ![0] bcast_S40960_S40960x1_0 (Gen.V5 m outs c main_v23 : S40960.Idx → BitVec 32)))
        shapeCasts_S40960x512_S8192x2560 := by
  rw [Gen.V13_of m outs c main_v32 (by decide), Gen.V12_of m outs c main_v32 (by decide), Gen.V11_of m outs c main_v32 (by decide),
    Gen.V10_of m outs c main_v32 (by decide), Gen.V9_of m outs c main_v32 (by decide), Gen.V8_of m outs c main_v32 (by decide)]
  exact (stretch1_2_v32 (Gen.V6 m outs c)).trans
    (congrArg (fun X => shapeCast S8192x2560 X shapeCasts_S40960x512_S8192x2560) (stretch1_1_v31 (Gen.V5 m outs c)))

/-- The gathered outgoing messages. -/
theorem V13_v34 : (Gen.V13 m outs c main_v34 : S8192x2560.Idx → EReal)
    = shapeCast S8192x2560 (Host.gather gather_S8192x512_S40960x1_S40960x512_1_0_n_n_0_1_1512
        (Gen.V5 m outs c main_v10 : S8192x512.Idx → EReal)
        (broadcastInDim S40960x1 ![0] bcast_S40960_S40960x1_0 (Gen.V5 m outs c main_v30 : S40960.Idx → BitVec 32)))
        shapeCasts_S40960x512_S8192x2560 := by
  rw [Gen.V13_of m outs c main_v34 (by decide), Gen.V12_of m outs c main_v34 (by decide), Gen.V11_of m outs c main_v34 (by decide),
    Gen.V10_of m outs c main_v34 (by decide)]
  refine (stretch1_4_v34 (Gen.V8 m outs c)).trans
    (congrArg (fun X => shapeCast S8192x2560 X shapeCasts_S40960x512_S8192x2560) ?_)
  refine (stretch1_3_v33 (Gen.V7 m outs c)).trans ?_
  rw [Gen.V7_of m outs c main_v10 (by decide), Gen.V6_of m outs c main_v10 (by decide),
    Gen.V7_of m outs c main_v30 (by decide), Gen.V6_of m outs c main_v30 (by decide)]

/-- The gathered incoming gate scalars. -/
theorem V13_v36 : (Gen.V13 m outs c main_v36 : S8192x5.Idx → EReal)
    = shapeCast S8192x5 (Host.gather gather_S8192_S40960x1_S40960_n_0_n_n_0_1_1
        (Gen.V5 m outs c main_v13 : S8192.Idx → EReal)
        (broadcastInDim S40960x1 ![0] bcast_S40960_S40960x1_0 (Gen.V5 m outs c main_v23 : S40960.Idx → BitVec 32)))
        shapeCasts_S40960_S8192x5 := by
  rw [Gen.V13_of m outs c main_v36 (by decide), Gen.V12_of m outs c main_v36 (by decide)]
  refine (stretch1_6_v36 (Gen.V10 m outs c)).trans
    (congrArg (fun X => shapeCast S8192x5 X shapeCasts_S40960_S8192x5) ?_)
  refine (stretch1_5_v35 (Gen.V9 m outs c)).trans ?_
  rw [Gen.V9_of m outs c main_v13 (by decide), Gen.V8_of m outs c main_v13 (by decide),
    Gen.V7_of m outs c main_v13 (by decide), Gen.V6_of m outs c main_v13 (by decide),
    Gen.V9_of m outs c main_v23 (by decide), Gen.V8_of m outs c main_v23 (by decide),
    Gen.V7_of m outs c main_v23 (by decide), Gen.V6_of m outs c main_v23 (by decide)]

/-- The gathered outgoing gate scalars. -/
theorem V13_v38 : (Gen.V13 m outs c main_v38 : S8192x5.Idx → EReal)
    = shapeCast S8192x5 (Host.gather gather_S8192_S40960x1_S40960_n_0_n_n_0_1_1
        (Gen.V5 m outs c main_v15 : S8192.Idx → EReal)
        (broadcastInDim S40960x1 ![0] bcast_S40960_S40960x1_0 (Gen.V5 m outs c main_v30 : S40960.Idx → BitVec 32)))
        shapeCasts_S40960_S8192x5 := by
  refine (stretch1_8_v38 (Gen.V12 m outs c)).trans
    (congrArg (fun X => shapeCast S8192x5 X shapeCasts_S40960_S8192x5) ?_)
  refine (stretch1_7_v37 (Gen.V11 m outs c)).trans ?_
  rw [Gen.V11_of m outs c main_v15 (by decide), Gen.V10_of m outs c main_v15 (by decide),
    Gen.V9_of m outs c main_v15 (by decide), Gen.V8_of m outs c main_v15 (by decide),
    Gen.V7_of m outs c main_v15 (by decide), Gen.V6_of m outs c main_v15 (by decide),
    Gen.V11_of m outs c main_v30 (by decide), Gen.V10_of m outs c main_v30 (by decide),
    Gen.V9_of m outs c main_v30 (by decide), Gen.V8_of m outs c main_v30 (by decide),
    Gen.V7_of m outs c main_v30 (by decide), Gen.V6_of m outs c main_v30 (by decide)]

end Chain

/-! ## The four gathered operands of the second kernel, read at an entry -/

section Operands
variable (r : Fin 8192) (d : Fin 5) (u : Fin 512)

/-- Entry `(r, 512 d + u)` of the gathered incoming messages is entry `u` of the first kernel's wide output in the row
    the `d`-th incoming arc of row `r` names. -/
theorem inmsg_apply : (Gen.V13 m outs c main_v32 : S8192x2560.Idx → EReal) (ix2 r (Cert.Spec.col5 d u))
    = (outs 4 main_v8_0 c : S8192x1536.Idx → EReal)
        (ix2 (Cert.Spec.arcRow (m ((c : Thread nD τ).loc main_arg1) : S2x40960.Idx → BitVec 32) (Cert.Spec.edge r d)) ⟨u.val, by omega⟩) := by
  refine (congrFun (V13_v32 m outs c) _).trans ((take_reshape_apply _ _ r d u).trans ((V5_v9_apply m outs c _ u).trans ?_))
  refine congrArg (fun k => (outs 4 main_v8_0 c : S8192x1536.Idx → EReal) (ix2 k ⟨u.val, by omega⟩)) (Fin.ext ?_)
  show min ((Gen.V5 m outs c main_v23 : S40960.Idx → BitVec 32) (ix1 (Cert.Spec.edge r d))).toInt.toNat 8191
    = min (Cert.Spec.arcWord (m ((c : Thread nD τ).loc main_arg1) : S2x40960.Idx → BitVec 32) (Cert.Spec.edge r d)).toInt.toNat 8191
  rw [V5_v23_apply]

/-- Entry `(r, 512 d + u)` of the gathered outgoing messages is entry `512 + u` of the first kernel's wide output in
    the row the `d`-th outgoing arc of row `r` names. -/
theorem outmsg_apply : (Gen.V13 m outs c main_v34 : S8192x2560.Idx → EReal) (ix2 r (Cert.Spec.col5 d u))
    = (outs 4 main_v8_0 c : S8192x1536.Idx → EReal)
        (ix2 (Cert.Spec.arcRow (m ((c : Thread nD τ).loc main_arg2) : S2x40960.Idx → BitVec 32) (Cert.Spec.edge r d)) ⟨512 + u.val, by omega⟩) := by
  refine (congrFun (V13_v34 m outs c) _).trans ((take_reshape_apply _ _ r d u).trans ((V5_v10_apply m outs c _ u).trans ?_))
  refine congrArg (fun k => (outs 4 main_v8_0 c : S8192x1536.Idx → EReal) (ix2 k ⟨512 + u.val, by omega⟩)) (Fin.ext ?_)
  show min ((Gen.V5 m outs c main_v30 : S40960.Idx → BitVec 32) (ix1 (Cert.Spec.edge r d))).toInt.toNat 8191
    = min (Cert.Spec.arcWord (m ((c : Thread nD τ).loc main_arg2) : S2x40960.Idx → BitVec 32) (Cert.Spec.edge r d)).toInt.toNat 8191
  rw [V5_v30_apply]

/-- Entry `(r, d)` of the gathered incoming gate scalars is column 0 of the first kernel's narrow output in the row the
    `d`-th incoming arc of row `r` names. -/
theorem ingate_apply : (Gen.V13 m outs c main_v36 : S8192x5.Idx → EReal) (ix2 r d)
    = (outs 4 main_v8_1 c : S8192x128.Idx → EReal)
        (ix2 (Cert.Spec.arcRow (m ((c : Thread nD τ).loc main_arg1) : S2x40960.Idx → BitVec 32) (Cert.Spec.edge r d)) ⟨0, by omega⟩) := by
  refine (congrFun (V13_v36 m outs c) _).trans ((take0_reshape_apply _ _ r d).trans ((V5_v13_apply m outs c _).trans ?_))
  refine congrArg (fun k => (outs 4 main_v8_1 c : S8192x128.Idx → EReal) (ix2 k ⟨0, by omega⟩)) (Fin.ext ?_)
  show min ((Gen.V5 m outs c main_v23 : S40960.Idx → BitVec 32) (ix1 (Cert.Spec.edge r d))).toInt.toNat 8191
    = min (Cert.Spec.arcWord (m ((c : Thread nD τ).loc main_arg1) : S2x40960.Idx → BitVec 32) (Cert.Spec.edge r d)).toInt.toNat 8191
  rw [V5_v23_apply]

/-- Entry `(r, d)` of the gathered outgoing gate scalars is column 1 of the first kernel's narrow output in the row the
    `d`-th outgoing arc of row `r` names. -/
theorem outgate_apply : (Gen.V13 m outs c main_v38 : S8192x5.Idx → EReal) (ix2 r d)
    = (outs 4 main_v8_1 c : S8192x128.Idx → EReal)
        (ix2 (Cert.Spec.arcRow (m ((c : Thread nD τ).loc main_arg2) : S2x40960.Idx → BitVec 32) (Cert.Spec.edge r d)) ⟨1, by omega⟩) := by
  refine (congrFun (V13_v38 m outs c) _).trans ((take0_reshape_apply _ _ r d).trans ((V5_v15_apply m outs c _).trans ?_))
  refine congrArg (fun k => (outs 4 main_v8_1 c : S8192x128.Idx → EReal) (ix2 k ⟨1, by omega⟩)) (Fin.ext ?_)
  show min ((Gen.V5 m outs c main_v30 : S40960.Idx → BitVec 32) (ix1 (Cert.Spec.edge r d))).toInt.toNat 8191
    = min (Cert.Spec.arcWord (m ((c : Thread nD τ).loc main_arg2) : S2x40960.Idx → BitVec 32) (Cert.Spec.edge r d)).toInt.toNat 8191
  rw [V5_v30_apply]

end Operands

end Cert.KernelIdeal.Hand

end
-- ==== Proof.GlueC.lean ====
/-
  What the operations between the two kernels write, read at an index (floats = extended reals, exact arithmetic).

  Between the first kernel's outputs and the second kernel's operands the program only moves entries around:
  * the self message is the column band `[1024, 1536)` of the first kernel's wide output, its gate column 2 of the narrow one;
  * the label words `[1, 40960]` are flattened and cut into rows of five, so `(r, d)` holds entry `5 r + d`;
  * the sentence mask `[512, 16]` is transposed to (batch, position) and flattened to a column, so row
    `batch * 512 + position` holds the entry at `(position, batch)`;
  * the two scalar bias columns `[64, 1]` are laid out as rows `[1, 64]`;
  * the arguments the second kernel reads directly are never written, so they hold what they were launched with.
-/
import proofs.«415035_j27650999452124_3_alg».proof.Proof.Gen.KernelIdeal.Regions
import proofs.«415035_j27650999452124_3_alg».proof.Proof.Spec
import proofs.«415035_j27650999452124_3_alg».proof.Proof.LibGather
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

set_option maxRecDepth 16384

noncomputable section

namespace Cert.KernelIdeal.Hand

open Idealize.ShloMosaic Idealize.ShloMosaic.TcCoe
open Cert.KernelIdeal Cert.KernelIdeal.Gen Idealize.ShloMosaic.ValueIdx

variable (m : (ℓ : Loc nD τ sig) → Buf (Elt Ideal) ℓ) (outs : Gen.Outs (F := Ideal)) (c : Dev nD)

/-! ## Arguments are as launched -/

/-- Argument 5 is never written before the second kernel starts: it still holds its launch contents. -/
theorem v13_arg5 : Gen.V13 m outs c main_arg5 = m ((c : Thread nD τ).loc main_arg5) :=
  (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans <| rfl

/-- Argument 6 is never written before the second kernel starts: it still holds its launch contents. -/
theorem v13_arg6 : Gen.V13 m outs c main_arg6 = m ((c : Thread nD τ).loc main_arg6) :=
  (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl

/-- Argument 7 is never written before the second kernel starts: it still holds its launch contents. -/
theorem v13_arg7 : Gen.V13 m outs c main_arg7 = m ((c : Thread nD τ).loc main_arg7) :=
  (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans <| rfl

/-- Argument 10 is never written before the second kernel starts: it still holds its launch contents. -/
theorem v13_arg10 : Gen.V13 m outs c main_arg10 = m ((c : Thread nD τ).loc main_arg10) :=
  (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans <| rfl

/-- Argument 14 is never written before the second kernel starts: it still holds its launch contents. -/
theorem v13_arg14 : Gen.V13 m outs c main_arg14 = m ((c : Thread nD τ).loc main_arg14) :=
  (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m c main_arg14 (by decide)).trans <| (V2_of m c main_arg14 (by decide)).trans <| (V1_of m c main_arg14 (by decide)).trans <| rfl

/-- The arguments the last host stretch reshapes are as launched when that stretch starts. -/
private theorem v12_arg3 : Gen.V12 m outs c main_arg3 = m ((c : Thread nD τ).loc main_arg3) :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans <| rfl
private theorem v12_arg4 : Gen.V12 m outs c main_arg4 = m ((c : Thread nD τ).loc main_arg4) :=
  (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans <| rfl
private theorem v12_arg8 : Gen.V12 m outs c main_arg8 = m ((c : Thread nD τ).loc main_arg8) :=
  (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans <| rfl
private theorem v12_arg12 : Gen.V12 m outs c main_arg12 = m ((c : Thread nD τ).loc main_arg12) :=
  (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide)).trans <| rfl
private theorem v12_arg16 : Gen.V12 m outs c main_arg16 = m ((c : Thread nD τ).loc main_arg16) :=
  (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m c main_arg16 (by decide)).trans <| (V2_of m c main_arg16 (by decide)).trans <| (V1_of m c main_arg16 (by decide)).trans <| rfl

/-! ## The first kernel's outputs when the slices are taken -/

/-- The first kernel's wide output, as the region left it. -/
private theorem v4_v8_0 : Gen.V4 m outs c main_v8_0 = outs 4 main_v8_0 c := by
  show Function.update (Function.update (Gen.V3 m c) (Proc.devRef .tc main_v8_0) (outs 4 main_v8_0 c))
    (Proc.devRef .tc main_v8_1) (outs 4 main_v8_1 c) (Proc.devRef .tc main_v8_0) = _
  rw [Function.update_of_ne (StableHlo.devRef_ne_of_ne (by decide)), Function.update_self]

/-- The first kernel's narrow (gate) output, as the region left it. -/
private theorem v4_v8_1 : Gen.V4 m outs c main_v8_1 = outs 4 main_v8_1 c := by
  show Function.update (Function.update (Gen.V3 m c) (Proc.devRef .tc main_v8_0) (outs 4 main_v8_0 c))
    (Proc.devRef .tc main_v8_1) (outs 4 main_v8_1 c) (Proc.devRef .tc main_v8_1) = _
  rw [Function.update_self]

/-! ## The self message and its gate: column slices of the first kernel's outputs -/

/-- The self-message operand is the column band `[1024, 1536)` of the first kernel's wide output. -/
theorem v13_v11 : (Gen.V13 m outs c main_v11 : S8192x512.Idx → EReal)
    = extractStridedSlice S8192x512 ![0, 1024] (outs 4 main_v8_0 c : S8192x1536.Idx → EReal) slices_S8192x1536_S8192x512_0_1024 := by
  rw [← v4_v8_0 m outs c]
  refine (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| ?_
  show StableHlo.after hostOps1 (Gen.V4 m outs c) (Proc.devRef .tc main_v11) = _
  after_results

theorem same_apply (r : Fin 8192) (u : Fin 512) :
    (Gen.V13 m outs c main_v11 : S8192x512.Idx → EReal) (ix2 r u)
      = (outs 4 main_v8_0 c : S8192x1536.Idx → EReal) (ix2 r ⟨1024 + u.val, by omega⟩) := by
  rw [v13_v11 m outs c]
  exact slice2_axis1_apply 1024 _ _ r u ⟨1024 + u.val, by omega⟩ rfl

/-- The self-gate operand is column 2 of the first kernel's narrow output. -/
theorem v13_v16 : (Gen.V13 m outs c main_v16 : S8192x1.Idx → EReal)
    = extractStridedSlice S8192x1 ![0, 2] (outs 4 main_v8_1 c : S8192x128.Idx → EReal) slices_S8192x128_S8192x1_0_2 := by
  rw [← v4_v8_1 m outs c]
  refine (V13_of m outs c main_v16 (by decide)).trans <| (V12_of m outs c main_v16 (by decide)).trans <| (V11_of m outs c main_v16 (by decide)).trans <| (V10_of m outs c main_v16 (by decide)).trans <| (V9_of m outs c main_v16 (by decide)).trans <| (V8_of m outs c main_v16 (by decide)).trans <| (V7_of m outs c main_v16 (by decide)).trans <| (V6_of m outs c main_v16 (by decide)).trans <| ?_
  show StableHlo.after hostOps1 (Gen.V4 m outs c) (Proc.devRef .tc main_v16) = _
  after_results

theorem samegate_apply (r : Fin 8192) :
    (Gen.V13 m outs c main_v16 : S8192x1.Idx → EReal) (ix2 r (0 : Fin 1))
      = (outs 4 main_v8_1 c : S8192x128.Idx → EReal) (ix2 r ⟨2, by omega⟩) := by
  rw [v13_v16 m outs c]
  exact slice2_axis1_apply 2 _ _ r (0 : Fin 1) ⟨2, by omega⟩ rfl

/-! ## The label words: `[1, 40960]` flattened, then laid out five to a row -/

/-- A `[1, 40960]` table flattened and then cut into rows of five reads, at `(r, d)`, the table's entry `5 r + d`. -/
private theorem reshape5_apply (x : S1x40960.Idx → BitVec 32) (r : Fin 8192) (d : Fin 5) :
    shapeCast S8192x5 (shapeCast S40960 x shapeCasts_S1x40960_S40960) shapeCasts_S40960_S8192x5 (ix2 r d)
      = x (ix2 (0 : Fin 1) (Cert.Spec.edge r d)) := by
  refine (shapeCast_apply _ shapeCasts_S40960_S8192x5 (ix2 r d) (ix1 (Cert.Spec.edge r d)) ?_).trans ?_
  · rw [Shape.rowMajor_val_two, Shape.rowMajor_val_one]
    show 5 * r.val + d.val = r.val * 5 + d.val
    omega
  · exact shapeCast_1a_a_apply x shapeCasts_S1x40960_S40960 (Cert.Spec.edge r d)

theorem v13_v40 : (Gen.V13 m outs c main_v40 : S8192x5.Idx → BitVec 32)
    = shapeCast S8192x5 (shapeCast S40960 (m ((c : Thread nD τ).loc main_arg3) : S1x40960.Idx → BitVec 32) shapeCasts_S1x40960_S40960) shapeCasts_S40960_S8192x5 := by
  rw [← v12_arg3 m outs c]
  show StableHlo.after hostOps1_8 (Gen.V12 m outs c) (Proc.devRef .tc main_v40) = _
  after_results
  rfl

theorem labin_apply (r : Fin 8192) (d : Fin 5) :
    (Gen.V13 m outs c main_v40 : S8192x5.Idx → BitVec 32) (ix2 r d)
      = (m ((c : Thread nD τ).loc main_arg3) : S1x40960.Idx → BitVec 32) (ix2 (0 : Fin 1) (Cert.Spec.edge r d)) := by
  rw [v13_v40 m outs c]; exact reshape5_apply _ r d

theorem v13_v42 : (Gen.V13 m outs c main_v42 : S8192x5.Idx → BitVec 32)
    = shapeCast S8192x5 (shapeCast S40960 (m ((c : Thread nD τ).loc main_arg4) : S1x40960.Idx → BitVec 32) shapeCasts_S1x40960_S40960) shapeCasts_S40960_S8192x5 := by
  rw [← v12_arg4 m outs c]
  show StableHlo.after hostOps1_8 (Gen.V12 m outs c) (Proc.devRef .tc main_v42) = _
  after_results
  rfl

theorem labout_apply (r : Fin 8192) (d : Fin 5) :
    (Gen.V13 m outs c main_v42 : S8192x5.Idx → BitVec 32) (ix2 r d)
      = (m ((c : Thread nD τ).loc main_arg4) : S1x40960.Idx → BitVec 32) (ix2 (0 : Fin 1) (Cert.Spec.edge r d)) := by
  rw [v13_v42 m outs c]; exact reshape5_apply _ r d

/-! ## The sentence mask: transposed to (batch, position), then flattened to a column -/

theorem v13_v44 : (Gen.V13 m outs c main_v44 : S8192x1.Idx → EReal)
    = shapeCast S8192x1 (transpose S16x512 [1, 0] (m ((c : Thread nD τ).loc main_arg8) : S512x16.Idx → EReal) transposes_S512x16_S16x512_1_0) shapeCasts_S16x512_S8192x1 := by
  rw [← v12_arg8 m outs c]
  show StableHlo.after hostOps1_8 (Gen.V12 m outs c) (Proc.devRef .tc main_v44) = _
  after_results
  rfl

theorem sent_apply (b : Fin 16) (s : Fin 512) :
    (Gen.V13 m outs c main_v44 : S8192x1.Idx → EReal) (ix2 (Cert.Spec.rowOf b s) (0 : Fin 1))
      = (m ((c : Thread nD τ).loc main_arg8) : S512x16.Idx → EReal) (ix2 s b) := by
  rw [v13_v44 m outs c]
  refine (shapeCast_apply _ shapeCasts_S16x512_S8192x1 (ix2 (Cert.Spec.rowOf b s) (0 : Fin 1)) (ix2 b s) ?_).trans ?_
  · rw [Shape.rowMajor_val_two, Shape.rowMajor_val_two]
    show b.val * 512 + s.val = (b.val * 512 + s.val) * 1 + 0
    omega
  · exact transpose_apply [1, 0] _ transposes_S512x16_S16x512_1_0 (ix2 b s) (ix2 s b) (fun a => by
      match a with
      | ⟨0, _⟩ => rfl
      | ⟨1, _⟩ => rfl)

/-! ## The scalar bias tables: a column of 64 laid out as a row -/

private theorem col_row_apply (x : S64x1.Idx → EReal) (l : Fin 64) :
    shapeCast S1x64 x shapeCasts_S64x1_S1x64 (ix2 (0 : Fin 1) l) = x (ix2 l (0 : Fin 1)) := by
  refine shapeCast_apply x shapeCasts_S64x1_S1x64 (ix2 (0 : Fin 1) l) (ix2 l (0 : Fin 1)) ?_
  rw [Shape.rowMajor_val_two, Shape.rowMajor_val_two]
  show l.val * 1 + 0 = 0 * 64 + l.val
  omega

theorem v13_v45 : (Gen.V13 m outs c main_v45 : S1x64.Idx → EReal)
    = shapeCast S1x64 (m ((c : Thread nD τ).loc main_arg12) : S64x1.Idx → EReal) shapeCasts_S64x1_S1x64 := by
  rw [← v12_arg12 m outs c]
  show StableHlo.after hostOps1_8 (Gen.V12 m outs c) (Proc.devRef .tc main_v45) = _
  after_results
  rfl

theorem bing_apply (l : Fin 64) :
    (Gen.V13 m outs c main_v45 : S1x64.Idx → EReal) (ix2 (0 : Fin 1) l)
      = (m ((c : Thread nD τ).loc main_arg12) : S64x1.Idx → EReal) (ix2 l (0 : Fin 1)) := by
  rw [v13_v45 m outs c]; exact col_row_apply _ l

theorem v13_v46 : (Gen.V13 m outs c main_v46 : S1x64.Idx → EReal)
    = shapeCast S1x64 (m ((c : Thread nD τ).loc main_arg16) : S64x1.Idx → EReal) shapeCasts_S64x1_S1x64 := by
  rw [← v12_arg16 m outs c]
  show StableHlo.after hostOps1_8 (Gen.V12 m outs c) (Proc.devRef .tc main_v46) = _
  after_results
  rfl

theorem boutg_apply (l : Fin 64) :
    (Gen.V13 m outs c main_v46 : S1x64.Idx → EReal) (ix2 (0 : Fin 1) l)
      = (m ((c : Thread nD τ).loc main_arg16) : S64x1.Idx → EReal) (ix2 l (0 : Fin 1)) := by
  rw [v13_v46 m outs c]; exact col_row_apply _ l

end Cert.KernelIdeal.Hand

end
-- ==== Proof.Bridge.lean ====
/-
  The second kernel's row, written over its own inputs, is the target function's row.

  The second kernel is handed, for every row `r` and arc slot `d`, the projected row the arc names (laid side by side,
  512 columns per slot), the arc's scalar projection, its label word and its mask entry, and it adds a label's bias by a
  sum over all 64 labels against the indicator of the label word. When each of those entries is what the target function
  reads at the arc at flat position `5 r + d` — the named row's projection, the label word of that arc — and the label
  words lie in `[0, 64)`, each sum against the indicator is the bias entry of the label the target function clamps to, so
  each of the eleven gated messages is the target's, and so are their sum, its cut at zero and the masked result.
-/
import proofs.«415035_j27650999452124_3_alg».proof.Proof.Spec
import proofs.«415035_j27650999452124_3_alg».proof.Proof.LibGather
import Idealize.ShloMosaic.Lib.ValueIdx

noncomputable section

open scoped BigOperators

namespace Cert.Spec

open Idealize.ShloMosaic Idealize.ShloMosaic.ValueIdx

/-- ONE ARC. The kernel's gated message of slot `d` of row `r`, from the gathered entry `msg[r, 512 d + u]`, the
    gathered scalar `gate[r, d]`, the label word `labK[r, d]`, the bias table's column `u` and the scalar biases as a
    row, is the target's gated message of the arc at `5 r + d`: the entries are the named row's projections (`hmsg`,
    `hgate`), the label word is that arc's (`hlab`) and lies in `[0, 64)` (`hl`), so both sums against its indicator
    pick the entry at the label the target clamps to; the bias row is the bias column transposed (`hbR`). -/
theorem kTerm_eq_arcTerm (x : (Sh2 8192 512).Idx → EReal) (W : (Sh2 512 512).Idx → EReal) (b : (Sh2 64 512).Idx → EReal)
    (Wg : (Sh2 512 1).Idx → EReal) (bg : (Sh2 64 1).Idx → EReal) (bR : (Sh2 1 64).Idx → EReal)
    (arc : (Sh2 2 40960).Idx → BitVec 32) (lab : (Sh2 1 40960).Idx → BitVec 32) (mask : (Sh2 8192 5).Idx → EReal)
    (msg : (Sh2 8192 2560).Idx → EReal) (gate : (Sh2 8192 5).Idx → EReal) (labK : (Sh2 8192 5).Idx → BitVec 32)
    (r : Fin 8192) (u : Fin 512) (hl : LabOK lab)
    (hmsg : ∀ d : Fin 5, msg (ix2 r (col5 d u)) = proj x W (arcRow arc (edge r d)) u)
    (hgate : ∀ d : Fin 5, gate (ix2 r d) = proj x Wg (arcRow arc (edge r d)) (0 : Fin 1))
    (hlab : ∀ d : Fin 5, labK (ix2 r d) = lab (ix2 (0 : Fin 1) (edge r d)))
    (hbR : ∀ l : Fin 64, bR (ix2 (0 : Fin 1) l) = bg (ix2 l (0 : Fin 1))) (d : Fin 5) :
    kTerm (msg (ix2 r (col5 d u))) (gate (ix2 r d)) (labK (ix2 r d)) (fun l => b (ix2 l u))
        (fun l => bR (ix2 (0 : Fin 1) l)) (mask (ix2 r d))
      = arcTerm x W b Wg bg arc lab mask r d u := by
  unfold kTerm arcTerm
  rw [hmsg d, hgate d, hlab d,
    Cert.LibGather.sum_oh _ (hl (edge r d)).1 (hl (edge r d)).2, Cert.LibGather.sum_oh _ (hl (edge r d)).1 (hl (edge r d)).2, hbR]
  -- what is left differs only in how the clamped label is spelt
  rfl

/-- THE ROW. Under the same reading of every entry the second kernel's row `r` at feature `u` is the target's: the ten arc
    messages by `kTerm_eq_arcTerm`, five for each direction, the row's own message by its two entries. -/
theorem aggRow_eq (x : (Sh2 8192 512).Idx → EReal)
    (inMsg outMsg : (Sh2 8192 2560).Idx → EReal) (same : (Sh2 8192 512).Idx → EReal) (inGate outGate : (Sh2 8192 5).Idx → EReal) (sameGate : (Sh2 8192 1).Idx → EReal)
    (labIn labOut : (Sh2 8192 5).Idx → BitVec 32) (maskIn maskOut : (Sh2 8192 5).Idx → EReal) (maskLoop sentF : (Sh2 8192 1).Idx → EReal)
    (bIn bOut : (Sh2 64 512).Idx → EReal) (bInR bOutR : (Sh2 1 64).Idx → EReal)
    (arcIn arcOut : (Sh2 2 40960).Idx → BitVec 32) (labInA labOutA : (Sh2 1 40960).Idx → BitVec 32)
    (Vin Vout Wself : (Sh2 512 512).Idx → EReal) (VinG VoutG WselfG : (Sh2 512 1).Idx → EReal) (bInG bOutG : (Sh2 64 1).Idx → EReal)
    (r : Fin 8192) (u : Fin 512) (hlin : LabOK labInA) (hlout : LabOK labOutA)
    (hInMsg : ∀ d : Fin 5, inMsg (ix2 r (col5 d u)) = proj x Vin (arcRow arcIn (edge r d)) u)
    (hOutMsg : ∀ d : Fin 5, outMsg (ix2 r (col5 d u)) = proj x Vout (arcRow arcOut (edge r d)) u)
    (hSame : same (ix2 r u) = proj x Wself r u)
    (hInGate : ∀ d : Fin 5, inGate (ix2 r d) = proj x VinG (arcRow arcIn (edge r d)) (0 : Fin 1))
    (hOutGate : ∀ d : Fin 5, outGate (ix2 r d) = proj x VoutG (arcRow arcOut (edge r d)) (0 : Fin 1))
    (hSameGate : sameGate (ix2 r (0 : Fin 1)) = proj x WselfG r (0 : Fin 1))
    (hLabIn : ∀ d : Fin 5, labIn (ix2 r d) = labInA (ix2 (0 : Fin 1) (edge r d)))
    (hLabOut : ∀ d : Fin 5, labOut (ix2 r d) = labOutA (ix2 (0 : Fin 1) (edge r d)))
    (hbInR : ∀ l : Fin 64, bInR (ix2 (0 : Fin 1) l) = bInG (ix2 l (0 : Fin 1)))
    (hbOutR : ∀ l : Fin 64, bOutR (ix2 (0 : Fin 1) l) = bOutG (ix2 l (0 : Fin 1))) :
    aggRow (n := 8192) inMsg outMsg same inGate outGate sameGate labIn labOut maskIn maskOut maskLoop sentF bIn bOut bInR bOutR r u
      = max (acc (fun d => arcTerm x Vin bIn VinG bInG arcIn labInA maskIn r d u)
                 (fun d => arcTerm x Vout bOut VoutG bOutG arcOut labOutA maskOut r d u)
                 (selfTerm x Wself WselfG maskLoop r u)) 0 * sentF (ix2 r (0 : Fin 1)) := by
  unfold aggRow selfTerm
  -- the two families of arc messages, slot by slot
  have hin := kTerm_eq_arcTerm x Vin bIn VinG bInG bInR arcIn labInA maskIn inMsg inGate labIn r u hlin hInMsg hInGate hLabIn hbInR
  have hout := kTerm_eq_arcTerm x Vout bOut VoutG bOutG bOutR arcOut labOutA maskOut outMsg outGate labOut r u hlout hOutMsg hOutGate hLabOut hbOutR
  rw [funext hin, funext hout, hSame, hSameGate]

end Cert.Spec

end
-- ==== Proof.KernelValue.lean ====
/-
  The first program's result as the specification's function of its arguments.

  The result buffer is the second kernel's output array, unflattened to (batch, position, feature) and transposed. That
  array's entry at row `r`, feature `u` is the row formula of the second kernel's sixteen input arrays; each of those
  is read back through the host operations to the first kernel's two output arrays and to the arguments: a gathered
  message is the named row of the wide output, which is a row of the source against a column of the packed weight
  matrix, hence a projection; the gate scalars come the same way from the narrow output; labels, masks and bias tables
  are the arguments themselves, re-laid. With every label word in range the sums against the label indicator pick the
  label's bias entries, and the row formula becomes the specification's.
-/
import proofs.«415035_j27650999452124_3_alg».proof.Proof.Frame
import proofs.«415035_j27650999452124_3_alg».proof.Proof.K0Value
import proofs.«415035_j27650999452124_3_alg».proof.Proof.K1Value
import proofs.«415035_j27650999452124_3_alg».proof.Proof.GlueA
import proofs.«415035_j27650999452124_3_alg».proof.Proof.GlueB
import proofs.«415035_j27650999452124_3_alg».proof.Proof.GlueC
import proofs.«415035_j27650999452124_3_alg».proof.Proof.Bridge

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The first kernel's outputs as projections of the source's rows -/

/-- A sum over the contracted coordinate whose left factor is the row array and whose right factor is one column of the
    packed matrix, that column being a column of `W`, is the projection by `W`. -/
theorem proj_of_sum {n : Nat} (L : S8192x512.Idx → EReal) (Rm : S512x1664.Idx → EReal)
    (x : (Cert.Spec.Sh2 8192 512).Idx → EReal) (W : (Cert.Spec.Sh2 512 n).Idx → EReal) (row : Fin 8192) (j : Fin 1664) (u : Fin n)
    (hL : L = x) (hR : ∀ k : Fin 512, Rm (ix2 k j) = W (ix2 k u)) :
    (∑ k : Fin 512, L (ix2 row k) * Rm (ix2 k j) : EReal) = Cert.Spec.proj x W row u := by
  subst hL
  unfold Cert.Spec.proj
  exact Finset.sum_congr rfl fun k _ => by rw [hR k]

/-- Columns 0 … 511 of the wide output: the projection by the incoming-arc matrix. -/
theorem wide_in (row : Fin 8192) (u : Fin 512) :
    (outs m 4 main_v8_0 c : S8192x1536.Idx → EReal) (ix2 row ⟨u.val, by omega⟩)
      = Cert.Spec.proj (Cert.Spec.xRows (m ((c : Thread nD τ).loc main_arg0))) (m ((c : Thread nD τ).loc main_arg9)) row u := by
  rw [outs_v8_0]
  exact (arr0_2_apply (VR0 m) c row ⟨u.val, by omega⟩).trans
    (proj_of_sum _ _ _ _ row _ u (v2_eq m c) (fun k => wall_in m c k u))

/-- Columns 512 … 1023: the projection by the outgoing-arc matrix. -/
theorem wide_out (row : Fin 8192) (u : Fin 512) :
    (outs m 4 main_v8_0 c : S8192x1536.Idx → EReal) (ix2 row ⟨512 + u.val, by omega⟩)
      = Cert.Spec.proj (Cert.Spec.xRows (m ((c : Thread nD τ).loc main_arg0))) (m ((c : Thread nD τ).loc main_arg13)) row u := by
  rw [outs_v8_0]
  exact (arr0_2_apply (VR0 m) c row ⟨512 + u.val, by omega⟩).trans
    (proj_of_sum _ _ _ _ row _ u (v2_eq m c) (fun k => wall_out m c k u))

/-- Columns 1024 … 1535: the projection by the self-loop matrix. -/
theorem wide_self (row : Fin 8192) (u : Fin 512) :
    (outs m 4 main_v8_0 c : S8192x1536.Idx → EReal) (ix2 row ⟨1024 + u.val, by omega⟩)
      = Cert.Spec.proj (Cert.Spec.xRows (m ((c : Thread nD τ).loc main_arg0))) (m ((c : Thread nD τ).loc main_arg17)) row u := by
  rw [outs_v8_0]
  exact (arr0_2_apply (VR0 m) c row ⟨1024 + u.val, by omega⟩).trans
    (proj_of_sum _ _ _ _ row _ u (v2_eq m c) (fun k => wall_self m c k u))

/-- Columns 0, 1, 2 of the narrow output are the three scalar projections. -/
theorem narrow_in (row : Fin 8192) :
    (outs m 4 main_v8_1 c : S8192x128.Idx → EReal) (ix2 row ⟨0, by omega⟩)
      = Cert.Spec.proj (Cert.Spec.xRows (m ((c : Thread nD τ).loc main_arg0))) (m ((c : Thread nD τ).loc main_arg11)) row (0 : Fin 1) := by
  rw [outs_v8_1]
  exact (arr0_3_apply (VR0 m) c row ⟨0, by omega⟩).trans
    (proj_of_sum _ _ _ _ row _ (0 : Fin 1) (v2_eq m c) (fun k => wall_ing m c k))

theorem narrow_out (row : Fin 8192) :
    (outs m 4 main_v8_1 c : S8192x128.Idx → EReal) (ix2 row ⟨1, by omega⟩)
      = Cert.Spec.proj (Cert.Spec.xRows (m ((c : Thread nD τ).loc main_arg0))) (m ((c : Thread nD τ).loc main_arg15)) row (0 : Fin 1) := by
  rw [outs_v8_1]
  exact (arr0_3_apply (VR0 m) c row ⟨1, by omega⟩).trans
    (proj_of_sum _ _ _ _ row _ (0 : Fin 1) (v2_eq m c) (fun k => wall_outg m c k))

theorem narrow_self (row : Fin 8192) :
    (outs m 4 main_v8_1 c : S8192x128.Idx → EReal) (ix2 row ⟨2, by omega⟩)
      = Cert.Spec.proj (Cert.Spec.xRows (m ((c : Thread nD τ).loc main_arg0))) (m ((c : Thread nD τ).loc main_arg18)) row (0 : Fin 1) := by
  rw [outs_v8_1]
  exact (arr0_3_apply (VR0 m) c row ⟨2, by omega⟩).trans
    (proj_of_sum _ _ _ _ row _ (0 : Fin 1) (v2_eq m c) (fun k => wall_selfg m c k))

/-! ## The second kernel's output array, row by row -/

/-- The second kernel's output at row `r`, feature `u`: the specification's cut-off sum of the row's eleven gated messages,
    times the row's sentence-mask entry (still in the flattened layout). -/
theorem agg_apply (hlin : Cert.Spec.LabOK (m ((c : Thread nD τ).loc main_arg3))) (hlout : Cert.Spec.LabOK (m ((c : Thread nD τ).loc main_arg4))) (r : Fin 8192) (u : Fin 512) :
    (outs m 14 main_v47 c : S8192x512.Idx → EReal) (ix2 r u)
      = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) r u
        * (Gen.V13 m (outs m) c main_v44 : S8192x1.Idx → EReal) (ix2 r (0 : Fin 1)) := by
  rw [outs_v47, arr1_16_apply (VR1 m) c r u]
  unfold Cert.Spec.outAt
  show Cert.Spec.aggRow (n := 8192) (Gen.V13 m (outs m) c main_v32) (Gen.V13 m (outs m) c main_v34) (Gen.V13 m (outs m) c main_v11)
      (Gen.V13 m (outs m) c main_v36) (Gen.V13 m (outs m) c main_v38) (Gen.V13 m (outs m) c main_v16)
      (Gen.V13 m (outs m) c main_v40) (Gen.V13 m (outs m) c main_v42) (Gen.V13 m (outs m) c main_arg5) (Gen.V13 m (outs m) c main_arg6)
      (Gen.V13 m (outs m) c main_arg7) (Gen.V13 m (outs m) c main_v44) (Gen.V13 m (outs m) c main_arg10) (Gen.V13 m (outs m) c main_arg14)
      (Gen.V13 m (outs m) c main_v45) (Gen.V13 m (outs m) c main_v46) r u = _
  rw [v13_arg5 m (outs m) c, v13_arg6 m (outs m) c, v13_arg7 m (outs m) c, v13_arg10 m (outs m) c, v13_arg14 m (outs m) c]
  exact Cert.Spec.aggRow_eq (Cert.Spec.xRows (m ((c : Thread nD τ).loc main_arg0))) _ _ _ _ _ _ _ _ _ _ _ _ _ _ _ _
    (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg13)) (m ((c : Thread nD τ).loc main_arg17)) (m ((c : Thread nD τ).loc main_arg11)) (m ((c : Thread nD τ).loc main_arg15)) (m ((c : Thread nD τ).loc main_arg18)) (m ((c : Thread nD τ).loc main_arg12)) (m ((c : Thread nD τ).loc main_arg16)) r u hlin hlout
    (fun d => (inmsg_apply m (outs m) c r d u).trans (wide_in m c _ u))
    (fun d => (outmsg_apply m (outs m) c r d u).trans (wide_out m c _ u))
    ((same_apply m (outs m) c r u).trans (wide_self m c r u))
    (fun d => (ingate_apply m (outs m) c r d).trans (narrow_in m c _))
    (fun d => (outgate_apply m (outs m) c r d).trans (narrow_out m c _))
    ((samegate_apply m (outs m) c r).trans (narrow_self m c r))
    (fun d => labin_apply m (outs m) c r d) (fun d => labout_apply m (outs m) c r d)
    (fun l => bing_apply m (outs m) c l) (fun l => boutg_apply m (outs m) c l)

/-! ## The result buffer -/

/-- The first program's result buffer holds the specification's function of its arguments. -/
theorem kernel_result (hlin : Cert.Spec.LabOK (m ((c : Thread nD τ).loc main_arg3))) (hlout : Cert.Spec.LabOK (m ((c : Thread nD τ).loc main_arg4))) :
    (Gen.V15 m (outs m) c main_v49 : S512x16x512.Idx → EReal)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [v49_eq m (outs m) c]
  unfold Cert.Spec.G
  refine congrArg (fun X => transpose S512x16x512 [1, 0, 2] X transposes_S16x512x512_S512x16x512_1_0_2) ?_
  funext i
  obtain ⟨b, s, u, rfl⟩ : ∃ (b : Fin 16) (s : Fin 512) (u : Fin 512), i = ix3 b s u := ⟨i 0, i 1, i 2, eq_ix3 i⟩
  rw [unflatten_apply, agg_apply m c hlin hlout, sent_apply m (outs m) c b s]
  rfl

end Cert.KernelIdeal.Hand

end
-- ==== Proof.RefRun.lean ====
/-
  The reference program's run and its operations read one at a time: this module only brings the two
  generated modules into the build, so that every module about the reference's value imports one name.
-/
import proofs.«415035_j27650999452124_3_alg».proof.Proof.Gen.ReferenceIdeal.Run
import proofs.«415035_j27650999452124_3_alg».proof.Proof.Gen.ReferenceIdeal.Read
-- ==== Proof.Sum11.lean ====
/-
  Eleven terms added in two orders.

  A sum over eleven positions whose first five are the incoming terms, next five the outgoing terms and last the self
  term equals the same eleven terms added from zero in the interleaved order in 0, out 0, in 1, out 1, …, in 4, out 4,
  self. Addition on the extended reals is commutative and associative, and nothing else is used.
-/
import proofs.«415035_j27650999452124_3_alg».proof.Proof.Spec
import Mathlib.Algebra.BigOperators.Fin
import Mathlib.Tactic.Abel

noncomputable section

open scoped BigOperators

namespace Cert.Spec

/-- A sum over eleven positions, written out term by term. -/
theorem sum11_expand (t : Fin 11 → EReal) :
    ∑ k : Fin 11, t k
      = t ⟨0, by omega⟩ + (t ⟨1, by omega⟩ + (t ⟨2, by omega⟩ + (t ⟨3, by omega⟩ + (t ⟨4, by omega⟩ + (t ⟨5, by omega⟩
        + (t ⟨6, by omega⟩ + (t ⟨7, by omega⟩ + (t ⟨8, by omega⟩ + (t ⟨9, by omega⟩ + (t ⟨10, by omega⟩ + 0)))))))))) := by
  simp only [Fin.sum_univ_succ, Fin.sum_univ_zero]
  rfl

/-- Positions 0–4 holding the incoming terms, 5–9 the outgoing terms and 10 the self term, the sum over all eleven
    positions added to zero is the interleaved accumulation `acc`: the same eleven terms in another order. -/
theorem sum11_eq_acc (t : Fin 11 → EReal) (tin tout : Fin 5 → EReal) (tself : EReal)
    (hin : ∀ d : Fin 5, t ⟨d.val, by omega⟩ = tin d) (hout : ∀ d : Fin 5, t ⟨5 + d.val, by omega⟩ = tout d)
    (hself : t ⟨10, by omega⟩ = tself) :
    (0 : EReal) + ∑ k : Fin 11, t k = Cert.Spec.acc tin tout tself := by
  have i0 : t ⟨0, by omega⟩ = tin 0 := hin 0
  have i1 : t ⟨1, by omega⟩ = tin 1 := hin 1
  have i2 : t ⟨2, by omega⟩ = tin 2 := hin 2
  have i3 : t ⟨3, by omega⟩ = tin 3 := hin 3
  have i4 : t ⟨4, by omega⟩ = tin 4 := hin 4
  have o0 : t ⟨5, by omega⟩ = tout 0 := hout 0
  have o1 : t ⟨6, by omega⟩ = tout 1 := hout 1
  have o2 : t ⟨7, by omega⟩ = tout 2 := hout 2
  have o3 : t ⟨8, by omega⟩ = tout 3 := hout 3
  have o4 : t ⟨9, by omega⟩ = tout 4 := hout 4
  rw [sum11_expand, i0, i1, i2, i3, i4, o0, o1, o2, o3, o4, hself]
  unfold acc
  abel

end Cert.Spec

end
-- ==== Proof.RefValue.lean ====
/-
  The plain array program's value. At exact arithmetic on the extended reals, and when every arc row word is
  non-negative and every label word lies in [0, 64), the array program computes the function Cert.Spec.G of its
  nineteen arguments.

  The argument runs stage by stage, each stage read at one index:
  * the rows x are the source transposed and flattened, the very two operations of Spec.xRows;
  * a product of x with a matrix, read at (r, u), is the sum Spec.proj;
  * the word an arc names its row by is arc[0] * 512 + arc[1]; the wrap of a negative index, select (w < 0) (w + N) w,
    is w itself once w is known non-negative;
  * a gather of a table's rows at such a column of words reads the row the word names, clamped: Spec.arcRow for arcs,
    Spec.labRow for labels;
  * messages and gates are reshaped so that arc d of row b * 512 + s sits at (b, s, d); the incoming, outgoing and own
    entries are laid side by side along an axis of length eleven;
  * 1 / (1 + exp (-g)) is the logistic function;
  * the sum over the eleven entries, started from zero, is Spec.acc up to the order of the summands;
  * cutting off below at zero, multiplying by the sentence mask and the last transposition are read off directly.
-/
import proofs.«415035_j27650999452124_3_alg».proof.Proof.RefRun
import proofs.«415035_j27650999452124_3_alg».proof.Proof.Spec
import proofs.«415035_j27650999452124_3_alg».proof.Proof.LibGather
import proofs.«415035_j27650999452124_3_alg».proof.Proof.Sum11
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The rows -/

/-- The rows are the source transposed and flattened. -/
theorem x_eq (a0 : (⟨S512x16x512, .f32⟩ : BufTy).Contents (Elt Ideal)) :
    val_main_v1 (F := Ideal) a0 = Spec.xRows a0 := rfl

/-! ## The six products of the rows with a matrix, read at (r, u) -/

theorem proj_v16 (a0 : (⟨S512x16x512, .f32⟩ : BufTy).Contents (Elt Ideal))
    (a9 : (⟨S512x512, .f32⟩ : BufTy).Contents (Elt Ideal)) (r : Fin 8192) (u : Fin 512) :
    val_main_v16 (F := Ideal) a0 a9 (ix2 r u) = Spec.proj (Spec.xRows a0) a9 r u := by
  rw [val_main_v16_apply, x_eq]
  unfold Spec.proj
  refine Finset.sum_congr rfl fun k _ => ?_
  have hl : lidx_main_v16 (ix2 r u) k = ix2 r k :=
    funext fun a => Fin.ext (by match a with | ⟨0, _⟩ => rfl | ⟨1, _⟩ => rfl)
  have hr : ridx_main_v16 (ix2 r u) k = ix2 k u :=
    funext fun a => Fin.ext (by match a with | ⟨0, _⟩ => rfl | ⟨1, _⟩ => rfl)
  rw [hl, hr]

theorem proj_v34 (a0 : (⟨S512x16x512, .f32⟩ : BufTy).Contents (Elt Ideal))
    (a11 : (⟨S512x1, .f32⟩ : BufTy).Contents (Elt Ideal)) (r : Fin 8192) (u : Fin 1) :
    val_main_v34 (F := Ideal) a0 a11 (ix2 r u) = Spec.proj (Spec.xRows a0) a11 r u := by
  rw [val_main_v34_apply, x_eq]
  unfold Spec.proj
  refine Finset.sum_congr rfl fun k _ => ?_
  have hl : lidx_main_v34 (ix2 r u) k = ix2 r k :=
    funext fun a => Fin.ext (by match a with | ⟨0, _⟩ => rfl | ⟨1, _⟩ => rfl)
  have hr : ridx_main_v34 (ix2 r u) k = ix2 k u :=
    funext fun a => Fin.ext (by match a with | ⟨0, _⟩ => rfl | ⟨1, _⟩ => rfl)
  rw [hl, hr]

theorem proj_v52 (a0 : (⟨S512x16x512, .f32⟩ : BufTy).Contents (Elt Ideal))
    (a13 : (⟨S512x512, .f32⟩ : BufTy).Contents (Elt Ideal)) (r : Fin 8192) (u : Fin 512) :
    val_main_v52 (F := Ideal) a0 a13 (ix2 r u) = Spec.proj (Spec.xRows a0) a13 r u := by
  rw [val_main_v52_apply, x_eq]
  unfold Spec.proj
  refine Finset.sum_congr rfl fun k _ => ?_
  have hl : lidx_main_v52 (ix2 r u) k = ix2 r k :=
    funext fun a => Fin.ext (by match a with | ⟨0, _⟩ => rfl | ⟨1, _⟩ => rfl)
  have hr : ridx_main_v52 (ix2 r u) k = ix2 k u :=
    funext fun a => Fin.ext (by match a with | ⟨0, _⟩ => rfl | ⟨1, _⟩ => rfl)
  rw [hl, hr]

theorem proj_v70 (a0 : (⟨S512x16x512, .f32⟩ : BufTy).Contents (Elt Ideal))
    (a15 : (⟨S512x1, .f32⟩ : BufTy).Contents (Elt Ideal)) (r : Fin 8192) (u : Fin 1) :
    val_main_v70 (F := Ideal) a0 a15 (ix2 r u) = Spec.proj (Spec.xRows a0) a15 r u := by
  rw [val_main_v70_apply, x_eq]
  unfold Spec.proj
  refine Finset.sum_congr rfl fun k _ => ?_
  have hl : lidx_main_v70 (ix2 r u) k = ix2 r k :=
    funext fun a => Fin.ext (by match a with | ⟨0, _⟩ => rfl | ⟨1, _⟩ => rfl)
  have hr : ridx_main_v70 (ix2 r u) k = ix2 k u :=
    funext fun a => Fin.ext (by match a with | ⟨0, _⟩ => rfl | ⟨1, _⟩ => rfl)
  rw [hl, hr]

theorem proj_v88 (a0 : (⟨S512x16x512, .f32⟩ : BufTy).Contents (Elt Ideal))
    (a17 : (⟨S512x512, .f32⟩ : BufTy).Contents (Elt Ideal)) (r : Fin 8192) (u : Fin 512) :
    val_main_v88 (F := Ideal) a0 a17 (ix2 r u) = Spec.proj (Spec.xRows a0) a17 r u := by
  rw [val_main_v88_apply, x_eq]
  unfold Spec.proj
  refine Finset.sum_congr rfl fun k _ => ?_
  have hl : lidx_main_v88 (ix2 r u) k = ix2 r k :=
    funext fun a => Fin.ext (by match a with | ⟨0, _⟩ => rfl | ⟨1, _⟩ => rfl)
  have hr : ridx_main_v88 (ix2 r u) k = ix2 k u :=
    funext fun a => Fin.ext (by match a with | ⟨0, _⟩ => rfl | ⟨1, _⟩ => rfl)
  rw [hl, hr]

theorem proj_v90 (a0 : (⟨S512x16x512, .f32⟩ : BufTy).Contents (Elt Ideal))
    (a18 : (⟨S512x1, .f32⟩ : BufTy).Contents (Elt Ideal)) (r : Fin 8192) (u : Fin 1) :
    val_main_v90 (F := Ideal) a0 a18 (ix2 r u) = Spec.proj (Spec.xRows a0) a18 r u := by
  rw [val_main_v90_apply, x_eq]
  unfold Spec.proj
  refine Finset.sum_congr rfl fun k _ => ?_
  have hl : lidx_main_v90 (ix2 r u) k = ix2 r k :=
    funext fun a => Fin.ext (by match a with | ⟨0, _⟩ => rfl | ⟨1, _⟩ => rfl)
  have hr : ridx_main_v90 (ix2 r u) k = ix2 k u :=
    funext fun a => Fin.ext (by match a with | ⟨0, _⟩ => rfl | ⟨1, _⟩ => rfl)
  rw [hl, hr]

/-! ## Words: a signed comparison with zero, decided -/

/-- A word whose signed value is non-negative is not below zero. -/
theorem slt_zero_of_nonneg (w : BitVec 32) (h : 0 ≤ w.toInt) : IntOp.cmpi .slt w 0#32 = 0#1 := by
  have hb : w.slt 0#32 = false := by
    rw [Bool.eq_false_iff]
    intro hs
    rw [BitVec.slt_iff_toInt_lt] at hs
    have h0 : (0#32 : BitVec 32).toInt = 0 := by decide
    omega
  show BitVec.ofBool (w.slt 0#32) = 0#1
  rw [hb]; rfl

/-- The wrap of a possibly negative index leaves a non-negative word alone. -/
theorem wrap_of_nonneg (w n : BitVec 32) (h : 0 ≤ w.toInt) :
    Scalar.select (IntOp.cmpi .slt w 0#32) (IntOp.addi w n) w = w := by
  rw [slt_zero_of_nonneg w h, select_zero]

/-! ## The arc words and the label words, and their wraps

An arc's word is arc[0] * 512 + arc[1] in 32-bit arithmetic; a label's word is the table's entry. Each is wrapped
before each of the two gathers that use it, and under the precondition each wrap is the word itself. -/

theorem word_v8 (a1 : (⟨S2x40960, .i32⟩ : BufTy).Contents (Elt Ideal)) (e : Fin 40960) :
    val_main_v8 (F := Ideal) a1 (ix1 e) = Spec.arcWord a1 e := by
  rw [val_main_v8_apply, val_main_v5_apply, val_main_v3_apply, val_main_v2_apply, val_main_v4_apply,
    val_main_c_apply, val_main_v7_apply, val_main_v6_apply]
  have h0 : idx_main_v2 (idx_main_v3 (ix1 e)) = ix2 (0 : Fin 2) e :=
    funext fun a => Fin.ext (by
      match a with
      | ⟨0, _⟩ => rfl
      | ⟨1, _⟩ => show e.val % 40960 = e.val; exact Nat.mod_eq_of_lt e.isLt)
  have h1 : idx_main_v6 (idx_main_v7 (ix1 e)) = ix2 (1 : Fin 2) e :=
    funext fun a => Fin.ext (by
      match a with
      | ⟨0, _⟩ => rfl
      | ⟨1, _⟩ => show e.val % 40960 = e.val; exact Nat.mod_eq_of_lt e.isLt)
  rw [h0, h1]
  rfl

theorem word_v15 (a2 : (⟨S2x40960, .i32⟩ : BufTy).Contents (Elt Ideal)) (e : Fin 40960) :
    val_main_v15 (F := Ideal) a2 (ix1 e) = Spec.arcWord a2 e := by
  rw [val_main_v15_apply, val_main_v12_apply, val_main_v10_apply, val_main_v9_apply, val_main_v11_apply,
    val_main_c_0_apply, val_main_v14_apply, val_main_v13_apply]
  have h0 : idx_main_v9 (idx_main_v10 (ix1 e)) = ix2 (0 : Fin 2) e :=
    funext fun a => Fin.ext (by
      match a with
      | ⟨0, _⟩ => rfl
      | ⟨1, _⟩ => show e.val % 40960 = e.val; exact Nat.mod_eq_of_lt e.isLt)
  have h1 : idx_main_v13 (idx_main_v14 (ix1 e)) = ix2 (1 : Fin 2) e :=
    funext fun a => Fin.ext (by
      match a with
      | ⟨0, _⟩ => rfl
      | ⟨1, _⟩ => show e.val % 40960 = e.val; exact Nat.mod_eq_of_lt e.isLt)
  rw [h0, h1]
  rfl

theorem wrap_v22 (a1 : (⟨S2x40960, .i32⟩ : BufTy).Contents (Elt Ideal)) (h : Spec.ArcOK a1) (e : Fin 40960) :
    val_main_v22 (F := Ideal) a1 (ix2 e (0 : Fin 1)) = Spec.arcWord a1 e := by
  rw [val_main_v22_apply, val_main_v21_apply, val_main_v18_apply, val_main_v20_apply, val_main_v17_apply,
    val_main_c_1_apply, val_main_v19_apply, val_main_c_2_apply]
  have hi : idx_main_v22 (ix2 e (0 : Fin 1)) = ix1 e :=
    funext fun a => Fin.ext (by match a with | ⟨0, _⟩ => rfl)
  rw [hi, word_v8]
  exact wrap_of_nonneg _ _ (h e)

theorem wrap_v40 (a1 : (⟨S2x40960, .i32⟩ : BufTy).Contents (Elt Ideal)) (h : Spec.ArcOK a1) (e : Fin 40960) :
    val_main_v40 (F := Ideal) a1 (ix2 e (0 : Fin 1)) = Spec.arcWord a1 e := by
  rw [val_main_v40_apply, val_main_v39_apply, val_main_v36_apply, val_main_v38_apply, val_main_v35_apply,
    val_main_c_5_apply, val_main_v37_apply, val_main_c_6_apply]
  have hi : idx_main_v40 (ix2 e (0 : Fin 1)) = ix1 e :=
    funext fun a => Fin.ext (by match a with | ⟨0, _⟩ => rfl)
  rw [hi, word_v8]
  exact wrap_of_nonneg _ _ (h e)

theorem wrap_v58 (a2 : (⟨S2x40960, .i32⟩ : BufTy).Contents (Elt Ideal)) (h : Spec.ArcOK a2) (e : Fin 40960) :
    val_main_v58 (F := Ideal) a2 (ix2 e (0 : Fin 1)) = Spec.arcWord a2 e := by
  rw [val_main_v58_apply, val_main_v57_apply, val_main_v54_apply, val_main_v56_apply, val_main_v53_apply,
    val_main_c_9_apply, val_main_v55_apply, val_main_c_10_apply]
  have hi : idx_main_v58 (ix2 e (0 : Fin 1)) = ix1 e :=
    funext fun a => Fin.ext (by match a with | ⟨0, _⟩ => rfl)
  rw [hi, word_v15]
  exact wrap_of_nonneg _ _ (h e)

theorem wrap_v76 (a2 : (⟨S2x40960, .i32⟩ : BufTy).Contents (Elt Ideal)) (h : Spec.ArcOK a2) (e : Fin 40960) :
    val_main_v76 (F := Ideal) a2 (ix2 e (0 : Fin 1)) = Spec.arcWord a2 e := by
  rw [val_main_v76_apply, val_main_v75_apply, val_main_v72_apply, val_main_v74_apply, val_main_v71_apply,
    val_main_c_13_apply, val_main_v73_apply, val_main_c_14_apply]
  have hi : idx_main_v76 (ix2 e (0 : Fin 1)) = ix1 e :=
    funext fun a => Fin.ext (by match a with | ⟨0, _⟩ => rfl)
  rw [hi, word_v15]
  exact wrap_of_nonneg _ _ (h e)

theorem word_v24 (a3 : (⟨S1x40960, .i32⟩ : BufTy).Contents (Elt Ideal)) (e : Fin 40960) :
    val_main_v24 (F := Ideal) a3 (ix1 e) = a3 (ix2 (0 : Fin 1) e) := by
  rw [val_main_v24_apply]
  have h0 : idx_main_v24 (ix1 e) = ix2 (0 : Fin 1) e :=
    funext fun a => Fin.ext (by
      match a with
      | ⟨0, _⟩ => rfl
      | ⟨1, _⟩ => show e.val % 40960 = e.val; exact Nat.mod_eq_of_lt e.isLt)
  rw [h0]

theorem word_v42 (a3 : (⟨S1x40960, .i32⟩ : BufTy).Contents (Elt Ideal)) (e : Fin 40960) :
    val_main_v42 (F := Ideal) a3 (ix1 e) = a3 (ix2 (0 : Fin 1) e) := by
  rw [val_main_v42_apply]
  have h0 : idx_main_v42 (ix1 e) = ix2 (0 : Fin 1) e :=
    funext fun a => Fin.ext (by
      match a with
      | ⟨0, _⟩ => rfl
      | ⟨1, _⟩ => show e.val % 40960 = e.val; exact Nat.mod_eq_of_lt e.isLt)
  rw [h0]

theorem word_v60 (a4 : (⟨S1x40960, .i32⟩ : BufTy).Contents (Elt Ideal)) (e : Fin 40960) :
    val_main_v60 (F := Ideal) a4 (ix1 e) = a4 (ix2 (0 : Fin 1) e) := by
  rw [val_main_v60_apply]
  have h0 : idx_main_v60 (ix1 e) = ix2 (0 : Fin 1) e :=
    funext fun a => Fin.ext (by
      match a with
      | ⟨0, _⟩ => rfl
      | ⟨1, _⟩ => show e.val % 40960 = e.val; exact Nat.mod_eq_of_lt e.isLt)
  rw [h0]

theorem word_v78 (a4 : (⟨S1x40960, .i32⟩ : BufTy).Contents (Elt Ideal)) (e : Fin 40960) :
    val_main_v78 (F := Ideal) a4 (ix1 e) = a4 (ix2 (0 : Fin 1) e) := by
  rw [val_main_v78_apply]
  have h0 : idx_main_v78 (ix1 e) = ix2 (0 : Fin 1) e :=
    funext fun a => Fin.ext (by
      match a with
      | ⟨0, _⟩ => rfl
      | ⟨1, _⟩ => show e.val % 40960 = e.val; exact Nat.mod_eq_of_lt e.isLt)
  rw [h0]

theorem wrap_v30 (a3 : (⟨S1x40960, .i32⟩ : BufTy).Contents (Elt Ideal)) (h : Spec.LabOK a3) (e : Fin 40960) :
    val_main_v30 (F := Ideal) a3 (ix2 e (0 : Fin 1)) = a3 (ix2 (0 : Fin 1) e) := by
  rw [val_main_v30_apply, val_main_v29_apply, val_main_v26_apply, val_main_v28_apply, val_main_v25_apply,
    val_main_c_3_apply, val_main_v27_apply, val_main_c_4_apply]
  have hi : idx_main_v30 (ix2 e (0 : Fin 1)) = ix1 e :=
    funext fun a => Fin.ext (by match a with | ⟨0, _⟩ => rfl)
  rw [hi, word_v24]
  exact wrap_of_nonneg _ _ (h e).1

theorem wrap_v48 (a3 : (⟨S1x40960, .i32⟩ : BufTy).Contents (Elt Ideal)) (h : Spec.LabOK a3) (e : Fin 40960) :
    val_main_v48 (F := Ideal) a3 (ix2 e (0 : Fin 1)) = a3 (ix2 (0 : Fin 1) e) := by
  rw [val_main_v48_apply, val_main_v47_apply, val_main_v44_apply, val_main_v46_apply, val_main_v43_apply,
    val_main_c_7_apply, val_main_v45_apply, val_main_c_8_apply]
  have hi : idx_main_v48 (ix2 e (0 : Fin 1)) = ix1 e :=
    funext fun a => Fin.ext (by match a with | ⟨0, _⟩ => rfl)
  rw [hi, word_v42]
  exact wrap_of_nonneg _ _ (h e).1

theorem wrap_v66 (a4 : (⟨S1x40960, .i32⟩ : BufTy).Contents (Elt Ideal)) (h : Spec.LabOK a4) (e : Fin 40960) :
    val_main_v66 (F := Ideal) a4 (ix2 e (0 : Fin 1)) = a4 (ix2 (0 : Fin 1) e) := by
  rw [val_main_v66_apply, val_main_v65_apply, val_main_v62_apply, val_main_v64_apply, val_main_v61_apply,
    val_main_c_11_apply, val_main_v63_apply, val_main_c_12_apply]
  have hi : idx_main_v66 (ix2 e (0 : Fin 1)) = ix1 e :=
    funext fun a => Fin.ext (by match a with | ⟨0, _⟩ => rfl)
  rw [hi, word_v60]
  exact wrap_of_nonneg _ _ (h e).1

theorem wrap_v84 (a4 : (⟨S1x40960, .i32⟩ : BufTy).Contents (Elt Ideal)) (h : Spec.LabOK a4) (e : Fin 40960) :
    val_main_v84 (F := Ideal) a4 (ix2 e (0 : Fin 1)) = a4 (ix2 (0 : Fin 1) e) := by
  rw [val_main_v84_apply, val_main_v83_apply, val_main_v80_apply, val_main_v82_apply, val_main_v79_apply,
    val_main_c_15_apply, val_main_v81_apply, val_main_c_16_apply]
  have hi : idx_main_v84 (ix2 e (0 : Fin 1)) = ix1 e :=
    funext fun a => Fin.ext (by match a with | ⟨0, _⟩ => rfl)
  rw [hi, word_v78]
  exact wrap_of_nonneg _ _ (h e).1

/-! ## The gathers, the messages and the gates

A gather of a table's rows at a column of words reads, at (p, q), the table's row named by word p, read signed and
clamped into the table's rows. -/

/-- The row gather, with the clamped row given as a number. -/
theorem gather_at {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (q : Fin M) (hN : 0 < N)
    (r : Fin N) (hr : r.val = min (idx (ix2 p (0 : Fin 1))).toInt.toNat (N - 1)) :
    Host.gather d x idx (ix2 p q) = x (ix2 r q) :=
  (Cert.LibGather.gather_row d hoff hcoll hob hsim hivd x idx p q hN).trans
    (congrArg (fun r' : Fin N => x (ix2 r' q)) (Fin.ext hr.symm))

/-- The incoming rows' messages gathered at an arc: the projection of the row the arc names. -/
theorem gath_v23 (a0 : (⟨S512x16x512, .f32⟩ : BufTy).Contents (Elt Ideal)) (a1 : (⟨S2x40960, .i32⟩ : BufTy).Contents (Elt Ideal)) (a9 : (⟨S512x512, .f32⟩ : BufTy).Contents (Elt Ideal)) (h : Spec.ArcOK a1) (e : Fin 40960) (u : Fin 512) :
    val_main_v23 (F := Ideal) a0 a1 a9 (ix2 e u) = Spec.proj (Spec.xRows a0) a9 (Spec.arcRow a1 e) u := by
  unfold val_main_v23
  refine (gather_at gather_S8192x512_S40960x1_S40960x512_1_0_n_n_0_1_1512 rfl rfl rfl rfl rfl
    (val_main_v16 (F := Ideal) a0 a9) (val_main_v22 (F := Ideal) a1) e u (by decide) (Spec.arcRow a1 e) ?_).trans
    (proj_v16 a0 a9 _ u)
  rw [wrap_v22 a1 h e]; rfl

/-- The incoming bias rows gathered at an arc: the row of the arc's label. -/
theorem gath_v31 (a3 : (⟨S1x40960, .i32⟩ : BufTy).Contents (Elt Ideal)) (a10 : (⟨S64x512, .f32⟩ : BufTy).Contents (Elt Ideal)) (h : Spec.LabOK a3) (e : Fin 40960) (u : Fin 512) :
    val_main_v31 (F := Ideal) a3 a10 (ix2 e u) = a10 (ix2 (Spec.labRow a3 e) u) := by
  unfold val_main_v31
  refine gather_at gather_S64x512_S40960x1_S40960x512_1_0_n_n_0_1_1512 rfl rfl rfl rfl rfl
    a10 (val_main_v30 (F := Ideal) a3) e u (by decide) (Spec.labRow a3 e) ?_
  rw [wrap_v30 a3 h e]; rfl

theorem msg_v32 (a0 : (⟨S512x16x512, .f32⟩ : BufTy).Contents (Elt Ideal)) (a1 : (⟨S2x40960, .i32⟩ : BufTy).Contents (Elt Ideal)) (a3 : (⟨S1x40960, .i32⟩ : BufTy).Contents (Elt Ideal)) (a9 : (⟨S512x512, .f32⟩ : BufTy).Contents (Elt Ideal)) (a10 : (⟨S64x512, .f32⟩ : BufTy).Contents (Elt Ideal)) (h : Spec.ArcOK a1) (hl : Spec.LabOK a3)
    (e : Fin 40960) (u : Fin 512) :
    val_main_v32 (F := Ideal) a0 a1 a3 a9 a10 (ix2 e u)
      = Spec.proj (Spec.xRows a0) a9 (Spec.arcRow a1 e) u + a10 (ix2 (Spec.labRow a3 e) u) := by
  rw [val_main_v32_apply, gath_v23 a0 a1 a9 h, gath_v31 a3 a10 hl]; rfl

/-- Reshaped, arc d of row b * 512 + s sits at (b, s, d). -/
theorem msg_v33 (a0 : (⟨S512x16x512, .f32⟩ : BufTy).Contents (Elt Ideal)) (a1 : (⟨S2x40960, .i32⟩ : BufTy).Contents (Elt Ideal)) (a3 : (⟨S1x40960, .i32⟩ : BufTy).Contents (Elt Ideal)) (a9 : (⟨S512x512, .f32⟩ : BufTy).Contents (Elt Ideal)) (a10 : (⟨S64x512, .f32⟩ : BufTy).Contents (Elt Ideal)) (h : Spec.ArcOK a1) (hl : Spec.LabOK a3)
    (b : Fin 16) (s : Fin 512) (d : Fin 5) (u : Fin 512) :
    val_main_v33 (F := Ideal) a0 a1 a3 a9 a10 (ix4 b s d u)
      = Spec.proj (Spec.xRows a0) a9 (Spec.arcRow a1 (Spec.edge (Spec.rowOf b s) d)) u
        + a10 (ix2 (Spec.labRow a3 (Spec.edge (Spec.rowOf b s) d)) u) := by
  rw [val_main_v33_apply]
  have hi : idx_main_v33 (ix4 b s d u) = ix2 (Spec.edge (Spec.rowOf b s) d) u :=
    funext fun a => Fin.ext (by
      match a with
      | ⟨0, _⟩ =>
        show (((b.val * 512 + s.val) * 5 + d.val) * 512 + u.val) / 512 = 5 * (b.val * 512 + s.val) + d.val
        have := u.isLt; omega
      | ⟨1, _⟩ =>
        show (((b.val * 512 + s.val) * 5 + d.val) * 512 + u.val) % 512 = u.val
        have := u.isLt; omega)
  rw [hi]
  exact msg_v32 a0 a1 a3 a9 a10 h hl _ u

/-- The incoming rows' gate scalars gathered at an arc. -/
theorem gath_v41 (a0 : (⟨S512x16x512, .f32⟩ : BufTy).Contents (Elt Ideal)) (a1 : (⟨S2x40960, .i32⟩ : BufTy).Contents (Elt Ideal)) (a11 : (⟨S512x1, .f32⟩ : BufTy).Contents (Elt Ideal)) (h : Spec.ArcOK a1) (e : Fin 40960) :
    val_main_v41 (F := Ideal) a0 a1 a11 (ix2 e (0 : Fin 1))
      = Spec.proj (Spec.xRows a0) a11 (Spec.arcRow a1 e) (0 : Fin 1) := by
  unfold val_main_v41
  refine (gather_at gather_S8192x1_S40960x1_S40960x1_1_0_n_n_0_1_11 rfl rfl rfl rfl rfl
    (val_main_v34 (F := Ideal) a0 a11) (val_main_v40 (F := Ideal) a1) e (0 : Fin 1) (by decide)
    (Spec.arcRow a1 e) ?_).trans (proj_v34 a0 a11 _ _)
  rw [wrap_v40 a1 h e]; rfl

theorem gath_v49 (a3 : (⟨S1x40960, .i32⟩ : BufTy).Contents (Elt Ideal)) (a12 : (⟨S64x1, .f32⟩ : BufTy).Contents (Elt Ideal)) (h : Spec.LabOK a3) (e : Fin 40960) :
    val_main_v49 (F := Ideal) a3 a12 (ix2 e (0 : Fin 1)) = a12 (ix2 (Spec.labRow a3 e) (0 : Fin 1)) := by
  unfold val_main_v49
  refine gather_at gather_S64x1_S40960x1_S40960x1_1_0_n_n_0_1_11 rfl rfl rfl rfl rfl
    a12 (val_main_v48 (F := Ideal) a3) e (0 : Fin 1) (by decide) (Spec.labRow a3 e) ?_
  rw [wrap_v48 a3 h e]; rfl

theorem gate_v50 (a0 : (⟨S512x16x512, .f32⟩ : BufTy).Contents (Elt Ideal)) (a1 : (⟨S2x40960, .i32⟩ : BufTy).Contents (Elt Ideal)) (a3 : (⟨S1x40960, .i32⟩ : BufTy).Contents (Elt Ideal)) (a11 : (⟨S512x1, .f32⟩ : BufTy).Contents (Elt Ideal)) (a12 : (⟨S64x1, .f32⟩ : BufTy).Contents (Elt Ideal)) (h : Spec.ArcOK a1) (hl : Spec.LabOK a3)
    (e : Fin 40960) :
    val_main_v50 (F := Ideal) a0 a1 a3 a11 a12 (ix2 e (0 : Fin 1))
      = Spec.proj (Spec.xRows a0) a11 (Spec.arcRow a1 e) (0 : Fin 1)
        + a12 (ix2 (Spec.labRow a3 e) (0 : Fin 1)) := by
  rw [val_main_v50_apply, gath_v41 a0 a1 a11 h, gath_v49 a3 a12 hl]; rfl

theorem gate_v51 (a0 : (⟨S512x16x512, .f32⟩ : BufTy).Contents (Elt Ideal)) (a1 : (⟨S2x40960, .i32⟩ : BufTy).Contents (Elt Ideal)) (a3 : (⟨S1x40960, .i32⟩ : BufTy).Contents (Elt Ideal)) (a11 : (⟨S512x1, .f32⟩ : BufTy).Contents (Elt Ideal)) (a12 : (⟨S64x1, .f32⟩ : BufTy).Contents (Elt Ideal)) (h : Spec.ArcOK a1) (hl : Spec.LabOK a3)
    (b : Fin 16) (s : Fin 512) (d : Fin 5) :
    val_main_v51 (F := Ideal) a0 a1 a3 a11 a12 (ix3 b s d)
      = Spec.proj (Spec.xRows a0) a11 (Spec.arcRow a1 (Spec.edge (Spec.rowOf b s) d)) (0 : Fin 1)
        + a12 (ix2 (Spec.labRow a3 (Spec.edge (Spec.rowOf b s) d)) (0 : Fin 1)) := by
  rw [val_main_v51_apply]
  have hi : idx_main_v51 (ix3 b s d) = ix2 (Spec.edge (Spec.rowOf b s) d) (0 : Fin 1) :=
    funext fun a => Fin.ext (by
      match a with
      | ⟨0, _⟩ =>
        show ((b.val * 512 + s.val) * 5 + d.val) / 1 = 5 * (b.val * 512 + s.val) + d.val
        omega
      | ⟨1, _⟩ => rfl)
  rw [hi]
  exact gate_v50 a0 a1 a3 a11 a12 h hl _

/-- The outgoing rows' messages gathered at an arc: the projection of the row the arc names. -/
theorem gath_v59 (a0 : (⟨S512x16x512, .f32⟩ : BufTy).Contents (Elt Ideal)) (a2 : (⟨S2x40960, .i32⟩ : BufTy).Contents (Elt Ideal)) (a13 : (⟨S512x512, .f32⟩ : BufTy).Contents (Elt Ideal)) (h : Spec.ArcOK a2) (e : Fin 40960) (u : Fin 512) :
    val_main_v59 (F := Ideal) a0 a2 a13 (ix2 e u) = Spec.proj (Spec.xRows a0) a13 (Spec.arcRow a2 e) u := by
  unfold val_main_v59
  refine (gather_at gather_S8192x512_S40960x1_S40960x512_1_0_n_n_0_1_1512 rfl rfl rfl rfl rfl
    (val_main_v52 (F := Ideal) a0 a13) (val_main_v58 (F := Ideal) a2) e u (by decide) (Spec.arcRow a2 e) ?_).trans
    (proj_v52 a0 a13 _ u)
  rw [wrap_v58 a2 h e]; rfl

/-- The outgoing bias rows gathered at an arc: the row of the arc's label. -/
theorem gath_v67 (a4 : (⟨S1x40960, .i32⟩ : BufTy).Contents (Elt Ideal)) (a14 : (⟨S64x512, .f32⟩ : BufTy).Contents (Elt Ideal)) (h : Spec.LabOK a4) (e : Fin 40960) (u : Fin 512) :
    val_main_v67 (F := Ideal) a4 a14 (ix2 e u) = a14 (ix2 (Spec.labRow a4 e) u) := by
  unfold val_main_v67
  refine gather_at gather_S64x512_S40960x1_S40960x512_1_0_n_n_0_1_1512 rfl rfl rfl rfl rfl
    a14 (val_main_v66 (F := Ideal) a4) e u (by decide) (Spec.labRow a4 e) ?_
  rw [wrap_v66 a4 h e]; rfl

theorem msg_v68 (a0 : (⟨S512x16x512, .f32⟩ : BufTy).Contents (Elt Ideal)) (a2 : (⟨S2x40960, .i32⟩ : BufTy).Contents (Elt Ideal)) (a4 : (⟨S1x40960, .i32⟩ : BufTy).Contents (Elt Ideal)) (a13 : (⟨S512x512, .f32⟩ : BufTy).Contents (Elt Ideal)) (a14 : (⟨S64x512, .f32⟩ : BufTy).Contents (Elt Ideal)) (h : Spec.ArcOK a2) (hl : Spec.LabOK a4)
    (e : Fin 40960) (u : Fin 512) :
    val_main_v68 (F := Ideal) a0 a2 a4 a13 a14 (ix2 e u)
      = Spec.proj (Spec.xRows a0) a13 (Spec.arcRow a2 e) u + a14 (ix2 (Spec.labRow a4 e) u) := by
  rw [val_main_v68_apply, gath_v59 a0 a2 a13 h, gath_v67 a4 a14 hl]; rfl

/-- Reshaped, arc d of row b * 512 + s sits at (b, s, d). -/
theorem msg_v69 (a0 : (⟨S512x16x512, .f32⟩ : BufTy).Contents (Elt Ideal)) (a2 : (⟨S2x40960, .i32⟩ : BufTy).Contents (Elt Ideal)) (a4 : (⟨S1x40960, .i32⟩ : BufTy).Contents (Elt Ideal)) (a13 : (⟨S512x512, .f32⟩ : BufTy).Contents (Elt Ideal)) (a14 : (⟨S64x512, .f32⟩ : BufTy).Contents (Elt Ideal)) (h : Spec.ArcOK a2) (hl : Spec.LabOK a4)
    (b : Fin 16) (s : Fin 512) (d : Fin 5) (u : Fin 512) :
    val_main_v69 (F := Ideal) a0 a2 a4 a13 a14 (ix4 b s d u)
      = Spec.proj (Spec.xRows a0) a13 (Spec.arcRow a2 (Spec.edge (Spec.rowOf b s) d)) u
        + a14 (ix2 (Spec.labRow a4 (Spec.edge (Spec.rowOf b s) d)) u) := by
  rw [val_main_v69_apply]
  have hi : idx_main_v69 (ix4 b s d u) = ix2 (Spec.edge (Spec.rowOf b s) d) u :=
    funext fun a => Fin.ext (by
      match a with
      | ⟨0, _⟩ =>
        show (((b.val * 512 + s.val) * 5 + d.val) * 512 + u.val) / 512 = 5 * (b.val * 512 + s.val) + d.val
        have := u.isLt; omega
      | ⟨1, _⟩ =>
        show (((b.val * 512 + s.val) * 5 + d.val) * 512 + u.val) % 512 = u.val
        have := u.isLt; omega)
  rw [hi]
  exact msg_v68 a0 a2 a4 a13 a14 h hl _ u

/-- The outgoing rows' gate scalars gathered at an arc. -/
theorem gath_v77 (a0 : (⟨S512x16x512, .f32⟩ : BufTy).Contents (Elt Ideal)) (a2 : (⟨S2x40960, .i32⟩ : BufTy).Contents (Elt Ideal)) (a15 : (⟨S512x1, .f32⟩ : BufTy).Contents (Elt Ideal)) (h : Spec.ArcOK a2) (e : Fin 40960) :
    val_main_v77 (F := Ideal) a0 a2 a15 (ix2 e (0 : Fin 1))
      = Spec.proj (Spec.xRows a0) a15 (Spec.arcRow a2 e) (0 : Fin 1) := by
  unfold val_main_v77
  refine (gather_at gather_S8192x1_S40960x1_S40960x1_1_0_n_n_0_1_11 rfl rfl rfl rfl rfl
    (val_main_v70 (F := Ideal) a0 a15) (val_main_v76 (F := Ideal) a2) e (0 : Fin 1) (by decide)
    (Spec.arcRow a2 e) ?_).trans (proj_v70 a0 a15 _ _)
  rw [wrap_v76 a2 h e]; rfl

theorem gath_v85 (a4 : (⟨S1x40960, .i32⟩ : BufTy).Contents (Elt Ideal)) (a16 : (⟨S64x1, .f32⟩ : BufTy).Contents (Elt Ideal)) (h : Spec.LabOK a4) (e : Fin 40960) :
    val_main_v85 (F := Ideal) a4 a16 (ix2 e (0 : Fin 1)) = a16 (ix2 (Spec.labRow a4 e) (0 : Fin 1)) := by
  unfold val_main_v85
  refine gather_at gather_S64x1_S40960x1_S40960x1_1_0_n_n_0_1_11 rfl rfl rfl rfl rfl
    a16 (val_main_v84 (F := Ideal) a4) e (0 : Fin 1) (by decide) (Spec.labRow a4 e) ?_
  rw [wrap_v84 a4 h e]; rfl

theorem gate_v86 (a0 : (⟨S512x16x512, .f32⟩ : BufTy).Contents (Elt Ideal)) (a2 : (⟨S2x40960, .i32⟩ : BufTy).Contents (Elt Ideal)) (a4 : (⟨S1x40960, .i32⟩ : BufTy).Contents (Elt Ideal)) (a15 : (⟨S512x1, .f32⟩ : BufTy).Contents (Elt Ideal)) (a16 : (⟨S64x1, .f32⟩ : BufTy).Contents (Elt Ideal)) (h : Spec.ArcOK a2) (hl : Spec.LabOK a4)
    (e : Fin 40960) :
    val_main_v86 (F := Ideal) a0 a2 a4 a15 a16 (ix2 e (0 : Fin 1))
      = Spec.proj (Spec.xRows a0) a15 (Spec.arcRow a2 e) (0 : Fin 1)
        + a16 (ix2 (Spec.labRow a4 e) (0 : Fin 1)) := by
  rw [val_main_v86_apply, gath_v77 a0 a2 a15 h, gath_v85 a4 a16 hl]; rfl

theorem gate_v87 (a0 : (⟨S512x16x512, .f32⟩ : BufTy).Contents (Elt Ideal)) (a2 : (⟨S2x40960, .i32⟩ : BufTy).Contents (Elt Ideal)) (a4 : (⟨S1x40960, .i32⟩ : BufTy).Contents (Elt Ideal)) (a15 : (⟨S512x1, .f32⟩ : BufTy).Contents (Elt Ideal)) (a16 : (⟨S64x1, .f32⟩ : BufTy).Contents (Elt Ideal)) (h : Spec.ArcOK a2) (hl : Spec.LabOK a4)
    (b : Fin 16) (s : Fin 512) (d : Fin 5) :
    val_main_v87 (F := Ideal) a0 a2 a4 a15 a16 (ix3 b s d)
      = Spec.proj (Spec.xRows a0) a15 (Spec.arcRow a2 (Spec.edge (Spec.rowOf b s) d)) (0 : Fin 1)
        + a16 (ix2 (Spec.labRow a4 (Spec.edge (Spec.rowOf b s) d)) (0 : Fin 1)) := by
  rw [val_main_v87_apply]
  have hi : idx_main_v87 (ix3 b s d) = ix2 (Spec.edge (Spec.rowOf b s) d) (0 : Fin 1) :=
    funext fun a => Fin.ext (by
      match a with
      | ⟨0, _⟩ =>
        show ((b.val * 512 + s.val) * 5 + d.val) / 1 = 5 * (b.val * 512 + s.val) + d.val
        omega
      | ⟨1, _⟩ => rfl)
  rw [hi]
  exact gate_v86 a0 a2 a4 a15 a16 h hl _

/-- The rows' own messages, reshaped: row b * 512 + s sits at (b, s, 0). -/
theorem self_v89 (a0 : (⟨S512x16x512, .f32⟩ : BufTy).Contents (Elt Ideal)) (a17 : (⟨S512x512, .f32⟩ : BufTy).Contents (Elt Ideal)) (b : Fin 16) (s : Fin 512) (z : Fin 1) (u : Fin 512) :
    val_main_v89 (F := Ideal) a0 a17 (ix4 b s z u) = Spec.proj (Spec.xRows a0) a17 (Spec.rowOf b s) u := by
  rw [val_main_v89_apply]
  have hi : idx_main_v89 (ix4 b s z u) = ix2 (Spec.rowOf b s) u :=
    funext fun a => Fin.ext (by
      match a with
      | ⟨0, _⟩ =>
        show (((b.val * 512 + s.val) * 1 + z.val) * 512 + u.val) / 512 = b.val * 512 + s.val
        have := u.isLt; have := z.isLt; omega
      | ⟨1, _⟩ =>
        show (((b.val * 512 + s.val) * 1 + z.val) * 512 + u.val) % 512 = u.val
        have := u.isLt; have := z.isLt; omega)
  rw [hi]
  exact proj_v88 a0 a17 _ u

theorem self_v91 (a0 : (⟨S512x16x512, .f32⟩ : BufTy).Contents (Elt Ideal)) (a18 : (⟨S512x1, .f32⟩ : BufTy).Contents (Elt Ideal)) (b : Fin 16) (s : Fin 512) (z : Fin 1) :
    val_main_v91 (F := Ideal) a0 a18 (ix3 b s z) = Spec.proj (Spec.xRows a0) a18 (Spec.rowOf b s) (0 : Fin 1) := by
  rw [val_main_v91_apply]
  have hi : idx_main_v91 (ix3 b s z) = ix2 (Spec.rowOf b s) (0 : Fin 1) :=
    funext fun a => Fin.ext (by
      match a with
      | ⟨0, _⟩ =>
        show ((b.val * 512 + s.val) * 1 + z.val) / 1 = b.val * 512 + s.val
        have := z.isLt; omega
      | ⟨1, _⟩ => rfl)
  rw [hi]
  exact proj_v90 a0 a18 _ _

/-! ## The three concatenations, read piece by piece

Along the joined axis of length eleven, positions 0 to 4 are the incoming piece, 5 to 9 the outgoing piece and
position 10 the row's own entry. -/

theorem cat_v92_in (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a9 : (⟨S512x512, .f32⟩ : BufTy).Contents (Elt Ideal)) (a10 : (⟨S64x512, .f32⟩ : BufTy).Contents (Elt Ideal)) (a13 : (⟨S512x512, .f32⟩ : BufTy).Contents (Elt Ideal)) (a14 : (⟨S64x512, .f32⟩ : BufTy).Contents (Elt Ideal)) (a17 : (⟨S512x512, .f32⟩ : BufTy).Contents (Elt Ideal))
    (b : Fin 16) (s : Fin 512) (d : Fin 5) (u : Fin 512) :
    val_main_v92 (F := Ideal) a0 a1 a2 a3 a4 a9 a10 a13 a14 a17 (ix4 b s (⟨d.val, by omega⟩ : Fin 11) u)
      = val_main_v33 (F := Ideal) a0 a1 a3 a9 a10 (ix4 b s d u) := by
  unfold val_main_v92
  refine concatenate_apply_piece (t := S16x512x11x512) 2 _ _ _ 0 ?_ S16x512x5x512
    (val_main_v33 (F := Ideal) a0 a1 a3 a9 a10) ?_ rfl 0 ?_ (ix4 b s d u) ?_ ?_
  · simp only [List.length_cons, List.length_nil]; omega
  · rfl
  · rfl
  · intro c hc
    match c with
    | ⟨0, _⟩ => rfl
    | ⟨1, _⟩ => rfl
    | ⟨2, _⟩ => exact absurd rfl hc
    | ⟨3, _⟩ => rfl
  · show 0 + d.val = d.val
    omega

theorem cat_v92_out (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a9 : (⟨S512x512, .f32⟩ : BufTy).Contents (Elt Ideal)) (a10 : (⟨S64x512, .f32⟩ : BufTy).Contents (Elt Ideal)) (a13 : (⟨S512x512, .f32⟩ : BufTy).Contents (Elt Ideal)) (a14 : (⟨S64x512, .f32⟩ : BufTy).Contents (Elt Ideal)) (a17 : (⟨S512x512, .f32⟩ : BufTy).Contents (Elt Ideal))
    (b : Fin 16) (s : Fin 512) (d : Fin 5) (u : Fin 512) :
    val_main_v92 (F := Ideal) a0 a1 a2 a3 a4 a9 a10 a13 a14 a17 (ix4 b s (⟨5 + d.val, by omega⟩ : Fin 11) u)
      = val_main_v69 (F := Ideal) a0 a2 a4 a13 a14 (ix4 b s d u) := by
  unfold val_main_v92
  refine concatenate_apply_piece (t := S16x512x11x512) 2 _ _ _ 1 ?_ S16x512x5x512
    (val_main_v69 (F := Ideal) a0 a2 a4 a13 a14) ?_ rfl 5 ?_ (ix4 b s d u) ?_ ?_
  · simp only [List.length_cons, List.length_nil]; omega
  · rfl
  · rfl
  · intro c hc
    match c with
    | ⟨0, _⟩ => rfl
    | ⟨1, _⟩ => rfl
    | ⟨2, _⟩ => exact absurd rfl hc
    | ⟨3, _⟩ => rfl
  · rfl

theorem cat_v92_self (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a9 : (⟨S512x512, .f32⟩ : BufTy).Contents (Elt Ideal)) (a10 : (⟨S64x512, .f32⟩ : BufTy).Contents (Elt Ideal)) (a13 : (⟨S512x512, .f32⟩ : BufTy).Contents (Elt Ideal)) (a14 : (⟨S64x512, .f32⟩ : BufTy).Contents (Elt Ideal)) (a17 : (⟨S512x512, .f32⟩ : BufTy).Contents (Elt Ideal))
    (b : Fin 16) (s : Fin 512) (u : Fin 512) :
    val_main_v92 (F := Ideal) a0 a1 a2 a3 a4 a9 a10 a13 a14 a17 (ix4 b s (⟨10, by omega⟩ : Fin 11) u)
      = val_main_v89 (F := Ideal) a0 a17 (ix4 b s (0 : Fin 1) u) := by
  unfold val_main_v92
  refine concatenate_apply_piece (t := S16x512x11x512) 2 _ _ _ 2 ?_ S16x512x1x512
    (val_main_v89 (F := Ideal) a0 a17) ?_ rfl 10 ?_ (ix4 b s (0 : Fin 1) u) ?_ ?_
  · simp only [List.length_cons, List.length_nil]; omega
  · rfl
  · rfl
  · intro c hc
    match c with
    | ⟨0, _⟩ => rfl
    | ⟨1, _⟩ => rfl
    | ⟨2, _⟩ => exact absurd rfl hc
    | ⟨3, _⟩ => rfl
  · rfl

theorem cat_v93_in (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal))
    (b : Fin 16) (s : Fin 512) (d : Fin 5) :
    val_main_v93 (F := Ideal) a0 a1 a2 a3 a4 a11 a12 a15 a16 a18 (ix3 b s (⟨d.val, by omega⟩ : Fin 11))
      = val_main_v51 (F := Ideal) a0 a1 a3 a11 a12 (ix3 b s d) := by
  unfold val_main_v93
  refine concatenate_apply_piece (t := S16x512x11) 2 _ _ _ 0 ?_ S16x512x5
    (val_main_v51 (F := Ideal) a0 a1 a3 a11 a12) ?_ rfl 0 ?_ (ix3 b s d) ?_ ?_
  · simp only [List.length_cons, List.length_nil]; omega
  · rfl
  · rfl
  · intro c hc
    match c with
    | ⟨0, _⟩ => rfl
    | ⟨1, _⟩ => rfl
    | ⟨2, _⟩ => exact absurd rfl hc
  · show 0 + d.val = d.val
    omega

theorem cat_v93_out (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal))
    (b : Fin 16) (s : Fin 512) (d : Fin 5) :
    val_main_v93 (F := Ideal) a0 a1 a2 a3 a4 a11 a12 a15 a16 a18 (ix3 b s (⟨5 + d.val, by omega⟩ : Fin 11))
      = val_main_v87 (F := Ideal) a0 a2 a4 a15 a16 (ix3 b s d) := by
  unfold val_main_v93
  refine concatenate_apply_piece (t := S16x512x11) 2 _ _ _ 1 ?_ S16x512x5
    (val_main_v87 (F := Ideal) a0 a2 a4 a15 a16) ?_ rfl 5 ?_ (ix3 b s d) ?_ ?_
  · simp only [List.length_cons, List.length_nil]; omega
  · rfl
  · rfl
  · intro c hc
    match c with
    | ⟨0, _⟩ => rfl
    | ⟨1, _⟩ => rfl
    | ⟨2, _⟩ => exact absurd rfl hc
  · rfl

theorem cat_v93_self (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal))
    (b : Fin 16) (s : Fin 512) :
    val_main_v93 (F := Ideal) a0 a1 a2 a3 a4 a11 a12 a15 a16 a18 (ix3 b s (⟨10, by omega⟩ : Fin 11))
      = val_main_v91 (F := Ideal) a0 a18 (ix3 b s (0 : Fin 1)) := by
  unfold val_main_v93
  refine concatenate_apply_piece (t := S16x512x11) 2 _ _ _ 2 ?_ S16x512x1
    (val_main_v91 (F := Ideal) a0 a18) ?_ rfl 10 ?_ (ix3 b s (0 : Fin 1)) ?_ ?_
  · simp only [List.length_cons, List.length_nil]; omega
  · rfl
  · rfl
  · intro c hc
    match c with
    | ⟨0, _⟩ => rfl
    | ⟨1, _⟩ => rfl
    | ⟨2, _⟩ => exact absurd rfl hc
  · rfl

theorem cat_v94_in (a5 : (⟨S8192x5, .f32⟩ : BufTy).Contents (Elt Ideal)) (a6 : (⟨S8192x5, .f32⟩ : BufTy).Contents (Elt Ideal)) (a7 : (⟨S8192x1, .f32⟩ : BufTy).Contents (Elt Ideal)) (r : Fin 8192) (d : Fin 5) :
    val_main_v94 (F := Ideal) a5 a6 a7 (ix2 r (⟨d.val, by omega⟩ : Fin 11)) = a5 (ix2 r d) := by
  unfold val_main_v94
  refine concatenate_apply_piece (t := S8192x11) 1 _ _ _ 0 ?_ S8192x5 a5 ?_ rfl 0 ?_ (ix2 r d) ?_ ?_
  · simp only [List.length_cons, List.length_nil]; omega
  · rfl
  · rfl
  · intro c hc
    match c with
    | ⟨0, _⟩ => rfl
    | ⟨1, _⟩ => exact absurd rfl hc
  · show 0 + d.val = d.val
    omega

theorem cat_v94_out (a5 : (⟨S8192x5, .f32⟩ : BufTy).Contents (Elt Ideal)) (a6 : (⟨S8192x5, .f32⟩ : BufTy).Contents (Elt Ideal)) (a7 : (⟨S8192x1, .f32⟩ : BufTy).Contents (Elt Ideal)) (r : Fin 8192) (d : Fin 5) :
    val_main_v94 (F := Ideal) a5 a6 a7 (ix2 r (⟨5 + d.val, by omega⟩ : Fin 11)) = a6 (ix2 r d) := by
  unfold val_main_v94
  refine concatenate_apply_piece (t := S8192x11) 1 _ _ _ 1 ?_ S8192x5 a6 ?_ rfl 5 ?_ (ix2 r d) ?_ ?_
  · simp only [List.length_cons, List.length_nil]; omega
  · rfl
  · rfl
  · intro c hc
    match c with
    | ⟨0, _⟩ => rfl
    | ⟨1, _⟩ => exact absurd rfl hc
  · rfl

theorem cat_v94_self (a5 : (⟨S8192x5, .f32⟩ : BufTy).Contents (Elt Ideal)) (a6 : (⟨S8192x5, .f32⟩ : BufTy).Contents (Elt Ideal)) (a7 : (⟨S8192x1, .f32⟩ : BufTy).Contents (Elt Ideal)) (r : Fin 8192) :
    val_main_v94 (F := Ideal) a5 a6 a7 (ix2 r (⟨10, by omega⟩ : Fin 11)) = a7 (ix2 r (0 : Fin 1)) := by
  unfold val_main_v94
  refine concatenate_apply_piece (t := S8192x11) 1 _ _ _ 2 ?_ S8192x1 a7 ?_ rfl 10 ?_ (ix2 r (0 : Fin 1)) ?_ ?_
  · simp only [List.length_cons, List.length_nil]; omega
  · rfl
  · rfl
  · intro c hc
    match c with
    | ⟨0, _⟩ => rfl
    | ⟨1, _⟩ => exact absurd rfl hc
  · rfl

/-! ## The reshapes to [8192, 11, ·]: row b * 512 + s again -/

theorem rs_v95 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a9 : (⟨S512x512, .f32⟩ : BufTy).Contents (Elt Ideal)) (a10 : (⟨S64x512, .f32⟩ : BufTy).Contents (Elt Ideal)) (a13 : (⟨S512x512, .f32⟩ : BufTy).Contents (Elt Ideal)) (a14 : (⟨S64x512, .f32⟩ : BufTy).Contents (Elt Ideal)) (a17 : (⟨S512x512, .f32⟩ : BufTy).Contents (Elt Ideal))
    (b : Fin 16) (s : Fin 512) (j : Fin 11) (u : Fin 512) :
    val_main_v95 (F := Ideal) a0 a1 a2 a3 a4 a9 a10 a13 a14 a17 (ix3 (Spec.rowOf b s) j u)
      = val_main_v92 (F := Ideal) a0 a1 a2 a3 a4 a9 a10 a13 a14 a17 (ix4 b s j u) := by
  rw [val_main_v95_apply]
  have hi : idx_main_v95 (ix3 (Spec.rowOf b s) j u) = ix4 b s j u :=
    funext fun a => Fin.ext (by
      have := b.isLt; have := s.isLt; have := j.isLt; have := u.isLt
      match a with
      | ⟨0, _⟩ =>
        show (((b.val * 512 + s.val) * 11 + j.val) * 512 + u.val) / 2883584 = b.val
        omega
      | ⟨1, _⟩ =>
        show (((b.val * 512 + s.val) * 11 + j.val) * 512 + u.val) / 5632 % 512 = s.val
        omega
      | ⟨2, _⟩ =>
        show (((b.val * 512 + s.val) * 11 + j.val) * 512 + u.val) / 512 % 11 = j.val
        omega
      | ⟨3, _⟩ =>
        show (((b.val * 512 + s.val) * 11 + j.val) * 512 + u.val) % 512 = u.val
        omega)
  rw [hi]

theorem rs_v96 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal))
    (b : Fin 16) (s : Fin 512) (j : Fin 11) :
    val_main_v96 (F := Ideal) a0 a1 a2 a3 a4 a11 a12 a15 a16 a18 (ix2 (Spec.rowOf b s) j)
      = val_main_v93 (F := Ideal) a0 a1 a2 a3 a4 a11 a12 a15 a16 a18 (ix3 b s j) := by
  rw [val_main_v96_apply]
  have hi : idx_main_v96 (ix2 (Spec.rowOf b s) j) = ix3 b s j :=
    funext fun a => Fin.ext (by
      have := b.isLt; have := s.isLt; have := j.isLt
      match a with
      | ⟨0, _⟩ =>
        show ((b.val * 512 + s.val) * 11 + j.val) / 5632 = b.val
        omega
      | ⟨1, _⟩ =>
        show ((b.val * 512 + s.val) * 11 + j.val) / 11 % 512 = s.val
        omega
      | ⟨2, _⟩ =>
        show ((b.val * 512 + s.val) * 11 + j.val) % 11 = j.val
        omega)
  rw [hi]

/-! ## The gate: 1 / (1 + exp (-g)) is the logistic function -/

theorem sig_v102 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal)) (i : S8192x11.Idx) :
    val_main_v102 (F := Ideal) a0 a1 a2 a3 a4 a11 a12 a15 a16 a18 i = Ideal.logistic (val_main_v96 (F := Ideal) a0 a1 a2 a3 a4 a11 a12 a15 a16 a18 i) := by
  rw [val_main_v102_apply, val_main_v101_apply, val_main_cst_17_apply, val_main_v100_apply, val_main_v99_apply,
    val_main_cst_apply, val_main_v98_apply, val_main_v97_apply]
  simp only [Ideal.ofBits_def, Ideal.ofBits_one_f32]
  rfl

/-! ## The gate times the mask, at the three kinds of position -/

theorem prob_in (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal)) (hin : Spec.ArcOK a1) (hlin : Spec.LabOK a3)
    (b : Fin 16) (s : Fin 512) (d : Fin 5) :
    val_main_v103 (F := Ideal) a0 a1 a2 a3 a4 a5 a6 a7 a11 a12 a15 a16 a18 (ix2 (Spec.rowOf b s) (⟨d.val, by omega⟩ : Fin 11))
      = Ideal.logistic (Spec.proj (Spec.xRows a0) a11 (Spec.arcRow a1 (Spec.edge (Spec.rowOf b s) d)) (0 : Fin 1)
          + a12 (ix2 (Spec.labRow a3 (Spec.edge (Spec.rowOf b s) d)) (0 : Fin 1)))
        * a5 (ix2 (Spec.rowOf b s) d) := by
  rw [val_main_v103_apply, sig_v102, rs_v96, cat_v93_in, gate_v51 a0 a1 a3 a11 a12 hin hlin, cat_v94_in]
  rfl

theorem prob_out (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal)) (hout : Spec.ArcOK a2) (hlout : Spec.LabOK a4)
    (b : Fin 16) (s : Fin 512) (d : Fin 5) :
    val_main_v103 (F := Ideal) a0 a1 a2 a3 a4 a5 a6 a7 a11 a12 a15 a16 a18 (ix2 (Spec.rowOf b s) (⟨5 + d.val, by omega⟩ : Fin 11))
      = Ideal.logistic (Spec.proj (Spec.xRows a0) a15 (Spec.arcRow a2 (Spec.edge (Spec.rowOf b s) d)) (0 : Fin 1)
          + a16 (ix2 (Spec.labRow a4 (Spec.edge (Spec.rowOf b s) d)) (0 : Fin 1)))
        * a6 (ix2 (Spec.rowOf b s) d) := by
  rw [val_main_v103_apply, sig_v102, rs_v96, cat_v93_out, gate_v87 a0 a2 a4 a15 a16 hout hlout, cat_v94_out]
  rfl

theorem prob_self (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal)) (b : Fin 16) (s : Fin 512) :
    val_main_v103 (F := Ideal) a0 a1 a2 a3 a4 a5 a6 a7 a11 a12 a15 a16 a18 (ix2 (Spec.rowOf b s) (⟨10, by omega⟩ : Fin 11))
      = Ideal.logistic (Spec.proj (Spec.xRows a0) a18 (Spec.rowOf b s) (0 : Fin 1)) * a7 (ix2 (Spec.rowOf b s) (0 : Fin 1)) := by
  rw [val_main_v103_apply, sig_v102, rs_v96, cat_v93_self, self_v91, cat_v94_self]
  rfl

/-- The gate broadcast along the features. -/
theorem bc_v105 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a11 : (⟨S512x1, .f32⟩ : BufTy).Contents (Elt Ideal)) (a12 : (⟨S64x1, .f32⟩ : BufTy).Contents (Elt Ideal)) (a15 : (⟨S512x1, .f32⟩ : BufTy).Contents (Elt Ideal)) (a16 : (⟨S64x1, .f32⟩ : BufTy).Contents (Elt Ideal)) (a18 : (⟨S512x1, .f32⟩ : BufTy).Contents (Elt Ideal)) (r : Fin 8192) (j : Fin 11) (u : Fin 512) :
    val_main_v105 (F := Ideal) a0 a1 a2 a3 a4 a5 a6 a7 a11 a12 a15 a16 a18 (ix3 r j u) = val_main_v103 (F := Ideal) a0 a1 a2 a3 a4 a5 a6 a7 a11 a12 a15 a16 a18 (ix2 r j) := by
  rw [val_main_v105_apply, val_main_v104_apply]
  have hi : idx_main_v104 (idx_main_v105 (ix3 r j u)) = ix2 r j :=
    funext fun a => Fin.ext (by match a with | ⟨0, _⟩ => rfl | ⟨1, _⟩ => rfl)
  rw [hi]

/-! ## The eleven gated messages of a row -/

theorem term_in (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hlin : Spec.LabOK a3)
    (b : Fin 16) (s : Fin 512) (u : Fin 512) (d : Fin 5) :
    val_main_v106 (F := Ideal) a0 a1 a2 a3 a4 a5 a6 a7 a9 a10 a11 a12 a13 a14 a15 a16 a17 a18 (ix3 (Spec.rowOf b s) (⟨d.val, by omega⟩ : Fin 11) u)
      = Spec.arcTerm (Spec.xRows a0) a9 a10 a11 a12 a1 a3 a5 (Spec.rowOf b s) d u := by
  rw [val_main_v106_apply, rs_v95, cat_v92_in, msg_v33 a0 a1 a3 a9 a10 hin hlin, bc_v105,
    prob_in a0 a1 a2 a3 a4 a5 a6 a7 a11 a12 a15 a16 a18 hin hlin]
  rfl

theorem term_out (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hout : Spec.ArcOK a2) (hlout : Spec.LabOK a4)
    (b : Fin 16) (s : Fin 512) (u : Fin 512) (d : Fin 5) :
    val_main_v106 (F := Ideal) a0 a1 a2 a3 a4 a5 a6 a7 a9 a10 a11 a12 a13 a14 a15 a16 a17 a18 (ix3 (Spec.rowOf b s) (⟨5 + d.val, by omega⟩ : Fin 11) u)
      = Spec.arcTerm (Spec.xRows a0) a13 a14 a15 a16 a2 a4 a6 (Spec.rowOf b s) d u := by
  rw [val_main_v106_apply, rs_v95, cat_v92_out, msg_v69 a0 a2 a4 a13 a14 hout hlout, bc_v105,
    prob_out a0 a1 a2 a3 a4 a5 a6 a7 a11 a12 a15 a16 a18 hout hlout]
  rfl

theorem term_self (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (b : Fin 16) (s : Fin 512) (u : Fin 512) :
    val_main_v106 (F := Ideal) a0 a1 a2 a3 a4 a5 a6 a7 a9 a10 a11 a12 a13 a14 a15 a16 a17 a18 (ix3 (Spec.rowOf b s) (⟨10, by omega⟩ : Fin 11) u)
      = Spec.selfTerm (Spec.xRows a0) a17 a18 a7 (Spec.rowOf b s) u := by
  rw [val_main_v106_apply, rs_v95, cat_v92_self, self_v89, bc_v105, prob_self]
  rfl

/-! ## Their sum from zero, cut off below at zero -/

theorem sum_v107 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hout : Spec.ArcOK a2) (hlin : Spec.LabOK a3) (hlout : Spec.LabOK a4)
    (b : Fin 16) (s : Fin 512) (u : Fin 512) :
    val_main_v107 (F := Ideal) a0 a1 a2 a3 a4 a5 a6 a7 a9 a10 a11 a12 a13 a14 a15 a16 a17 a18 (ix2 (Spec.rowOf b s) u)
      = Spec.acc (fun d => Spec.arcTerm (Spec.xRows a0) a9 a10 a11 a12 a1 a3 a5 (Spec.rowOf b s) d u)
          (fun d => Spec.arcTerm (Spec.xRows a0) a13 a14 a15 a16 a2 a4 a6 (Spec.rowOf b s) d u)
          (Spec.selfTerm (Spec.xRows a0) a17 a18 a7 (Spec.rowOf b s) u) := by
  rw [val_main_v107_apply, val_main_cst_18_apply]
  have hi : ∀ k : Fin 11, idx_main_v107 (ix2 (Spec.rowOf b s) u) k = ix3 (Spec.rowOf b s) k u := fun k =>
    funext fun a => Fin.ext (by match a with | ⟨0, _⟩ => rfl | ⟨1, _⟩ => rfl | ⟨2, _⟩ => rfl)
  simp only [hi, Ideal.ofBits_def, Ideal.ofBits_zero_f32]
  exact Cert.Spec.sum11_eq_acc
    (fun k => val_main_v106 (F := Ideal) a0 a1 a2 a3 a4 a5 a6 a7 a9 a10 a11 a12 a13 a14 a15 a16 a17 a18 (ix3 (Spec.rowOf b s) k u)) _ _ _
    (fun d => term_in a0 a1 a2 a3 a4 a5 a6 a7 a9 a10 a11 a12 a13 a14 a15 a16 a17 a18 hin hlin b s u d)
    (fun d => term_out a0 a1 a2 a3 a4 a5 a6 a7 a9 a10 a11 a12 a13 a14 a15 a16 a17 a18 hout hlout b s u d)
    (term_self a0 a1 a2 a3 a4 a5 a6 a7 a9 a10 a11 a12 a13 a14 a15 a16 a17 a18 b s u)

theorem relu_v108 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hout : Spec.ArcOK a2) (hlin : Spec.LabOK a3) (hlout : Spec.LabOK a4)
    (b : Fin 16) (s : Fin 512) (u : Fin 512) :
    val_main_v108 (F := Ideal) a0 a1 a2 a3 a4 a5 a6 a7 a9 a10 a11 a12 a13 a14 a15 a16 a17 a18 (ix2 (Spec.rowOf b s) u)
      = Spec.outAt a0 a1 a2 a3 a4 a5 a6 a7 a9 a10 a11 a12 a13 a14 a15 a16 a17 a18 (Spec.rowOf b s) u := by
  rw [val_main_v108_apply, sum_v107 a0 a1 a2 a3 a4 a5 a6 a7 a9 a10 a11 a12 a13 a14 a15 a16 a17 a18 hin hout hlin hlout, val_main_call0_v0_apply, val_main_call0_cst_apply]
  simp only [Ideal.ofBits_def, Ideal.ofBits_zero_f32]
  rfl

/-! ## The tail: reshape to (batch, position, feature), the sentence mask, the last transposition -/

theorem rs_v109 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hout : Spec.ArcOK a2) (hlin : Spec.LabOK a3) (hlout : Spec.LabOK a4)
    (b : Fin 16) (s : Fin 512) (u : Fin 512) :
    val_main_v109 (F := Ideal) a0 a1 a2 a3 a4 a5 a6 a7 a9 a10 a11 a12 a13 a14 a15 a16 a17 a18 (ix3 b s u)
      = Spec.outAt a0 a1 a2 a3 a4 a5 a6 a7 a9 a10 a11 a12 a13 a14 a15 a16 a17 a18 (Spec.rowOf b s) u := by
  rw [val_main_v109_apply]
  have hi : idx_main_v109 (ix3 b s u) = ix2 (Spec.rowOf b s) u :=
    funext fun a => Fin.ext (by
      have := u.isLt
      match a with
      | ⟨0, _⟩ =>
        show ((b.val * 512 + s.val) * 512 + u.val) / 512 = b.val * 512 + s.val
        omega
      | ⟨1, _⟩ =>
        show ((b.val * 512 + s.val) * 512 + u.val) % 512 = u.val
        omega)
  rw [hi]
  exact relu_v108 a0 a1 a2 a3 a4 a5 a6 a7 a9 a10 a11 a12 a13 a14 a15 a16 a17 a18 hin hout hlin hlout b s u

theorem sent_v112 (a8 : (⟨S512x16, .f32⟩ : BufTy).Contents (Elt Ideal)) (b : Fin 16) (s : Fin 512) (u : Fin 512) :
    val_main_v112 (F := Ideal) a8 (ix3 b s u) = a8 (ix2 s b) := by
  rw [val_main_v112_apply, val_main_v111_apply, val_main_v110_apply]
  have hi : idx_main_v110 (idx_main_v111 (idx_main_v112 (ix3 b s u))) = ix2 s b :=
    funext fun a => Fin.ext (by match a with | ⟨0, _⟩ => rfl | ⟨1, _⟩ => rfl)
  rw [hi]

theorem g3_v113 (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a8 : (⟨S512x16, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hout : Spec.ArcOK a2) (hlin : Spec.LabOK a3) (hlout : Spec.LabOK a4) :
    val_main_v113 (F := Ideal) a0 a1 a2 a3 a4 a5 a6 a7 a8 a9 a10 a11 a12 a13 a14 a15 a16 a17 a18
      = Spec.G3 a0 a1 a2 a3 a4 a5 a6 a7 a8 a9 a10 a11 a12 a13 a14 a15 a16 a17 a18 := by
  funext i
  obtain ⟨b, s, u, rfl⟩ : ∃ (b : Fin 16) (s : Fin 512) (u : Fin 512), i = ix3 b s u := ⟨i 0, i 1, i 2, eq_ix3 i⟩
  rw [val_main_v113_apply, rs_v109 a0 a1 a2 a3 a4 a5 a6 a7 a9 a10 a11 a12 a13 a14 a15 a16 a17 a18 hin hout hlin hlout, sent_v112]
  rfl

/-- THE REFERENCE'S VALUE: under the precondition the array program computes Spec.G of its arguments. -/
theorem ref_eq (a0 : (⟨S512x16x512, .f32⟩ : BufTy).Contents (Elt Ideal)) (a1 : (⟨S2x40960, .i32⟩ : BufTy).Contents (Elt Ideal)) (a2 : (⟨S2x40960, .i32⟩ : BufTy).Contents (Elt Ideal)) (a3 : (⟨S1x40960, .i32⟩ : BufTy).Contents (Elt Ideal)) (a4 : (⟨S1x40960, .i32⟩ : BufTy).Contents (Elt Ideal)) (a5 : (⟨S8192x5, .f32⟩ : BufTy).Contents (Elt Ideal)) (a6 : (⟨S8192x5, .f32⟩ : BufTy).Contents (Elt Ideal)) (a7 : (⟨S8192x1, .f32⟩ : BufTy).Contents (Elt Ideal)) (a8 : (⟨S512x16, .f32⟩ : BufTy).Contents (Elt Ideal)) (a9 : (⟨S512x512, .f32⟩ : BufTy).Contents (Elt Ideal)) (a10 : (⟨S64x512, .f32⟩ : BufTy).Contents (Elt Ideal)) (a11 : (⟨S512x1, .f32⟩ : BufTy).Contents (Elt Ideal)) (a12 : (⟨S64x1, .f32⟩ : BufTy).Contents (Elt Ideal)) (a13 : (⟨S512x512, .f32⟩ : BufTy).Contents (Elt Ideal)) (a14 : (⟨S64x512, .f32⟩ : BufTy).Contents (Elt Ideal)) (a15 : (⟨S512x1, .f32⟩ : BufTy).Contents (Elt Ideal)) (a16 : (⟨S64x1, .f32⟩ : BufTy).Contents (Elt Ideal)) (a17 : (⟨S512x512, .f32⟩ : BufTy).Contents (Elt Ideal)) (a18 : (⟨S512x1, .f32⟩ : BufTy).Contents (Elt Ideal)) (hin : Spec.ArcOK a1) (hout : Spec.ArcOK a2) (hlin : Spec.LabOK a3) (hlout : Spec.LabOK a4) :
    val_main_v114 (F := Ideal) a0 a1 a2 a3 a4 a5 a6 a7 a8 a9 a10 a11 a12 a13 a14 a15 a16 a17 a18
      = Spec.G a0 a1 a2 a3 a4 a5 a6 a7 a8 a9 a10 a11 a12 a13 a14 a15 a16 a17 a18 := by
  unfold val_main_v114 Spec.G
  rw [g3_v113 a0 a1 a2 a3 a4 a5 a6 a7 a8 a9 a10 a11 a12 a13 a14 a15 a16 a17 a18 hin hout hlin hlout]

end Cert.RefValue

end
-- ==== Proof.PreFacts.lean ====
/-
  The printed precondition, read back as facts about the four integer tables.

  The precondition is one chain of twenty-one `and`s, each conjunct a `jnp.all` of an element-wise test. The first
  fifteen say that the float arguments are finite and are not needed here. The last six say, of the two arc tables,
  that every arc's row word `arc[0, e] * 512 + arc[1, e]` is non-negative read signed, and, of the two label tables,
  that every label word lies in `[0, 64)` read signed. A chain of `and`s that is 1 has every conjunct 1; an `all` that is
  1 has the tested array 1 at every index; a signed comparison that is 1 says the inequality of the signed values; and
  the row word the predicate tests — built from two one-row slices of the table, flattened, the first times 512 plus
  the second — is at position `e` the word `Cert.Spec.arcWord` names.
-/
import proofs.«415035_j27650999452124_3_alg».proof.Proof.Gen.Pre_finite_inputs
import proofs.«415035_j27650999452124_3_alg».proof.Proof.Spec
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-! ## One conjunct: an `all` of a signed comparison against a constant -/

/-- A conjunction of two one-bit scalars that is 1 at the scalar index has both operands 1 there. -/
theorem andi_split (x y : IVec S_ 1) (i : S_.Idx) (h : andi x y i = 1#1) : x i = 1#1 ∧ y i = 1#1 :=
  IntOp.andi_eq_one.1 h

/-- `jnp.all(x >= 0)` that is 1: every word of `x` is non-negative read signed. -/
theorem all_sge_zero {s : Shape} {axes : List (Fin s.rank)} (x : IVec s 32) (hb : S_.BroadcastsInDim s ![])
    (hr : s.ReducesTo axes S_) (hu : 0 < S_.numel)
    (h : Host.reduce IntOp.andi (cmpi .sge x (broadcastInDim s ![] hb (constantI S_ 32 0#32))) (constantI S_ 1 1#1) hr hu ix0
      = 1#1) (i : s.Idx) : 0 ≤ (x i).toInt := by
  have e := Host.reduce_andi_all _ _ hr hu ix0 h i
  change IntOp.cmpi .sge (x i) (0#32) = 1#1 at e
  rw [IntOp.cmpi_sge] at e
  have z : (0#32 : BitVec 32).toInt = 0 := by decide
  rw [z] at e
  exact e

/-- `jnp.all(x < 64)` that is 1: every word of `x` is below 64 read signed. -/
theorem all_slt_64 {s : Shape} {axes : List (Fin s.rank)} (x : IVec s 32) (hb : S_.BroadcastsInDim s ![])
    (hr : s.ReducesTo axes S_) (hu : 0 < S_.numel)
    (h : Host.reduce IntOp.andi (cmpi .slt x (broadcastInDim s ![] hb (constantI S_ 32 64#32))) (constantI S_ 1 1#1) hr hu ix0
      = 1#1) (i : s.Idx) : (x i).toInt < 64 := by
  have e := Host.reduce_andi_all _ _ hr hu ix0 h i
  change IntOp.cmpi .slt (x i) (64#32) = 1#1 at e
  rw [IntOp.cmpi_slt] at e
  have z : (64#32 : BitVec 32).toInt = 64 := by decide
  rw [z] at e
  exact e

/-! ## The row word the predicate tests -/

/-- Row `k` of a `[2, 40960]` table, sliced off as `[1, 40960]` and flattened, reads at `e` the table at `(k, e)`. -/
theorem row_read (arc : IVec S2x40960 32) (k : Fin 2) (o : Nat) (ho : o = k.val) (hs : S2x40960.Slices ![o, 0] S1x40960)
    (hc : S1x40960.ShapeCasts S40960) (e : Fin 40960) :
    shapeCast S40960 (extractStridedSlice S1x40960 ![o, 0] arc hs) hc (ix1 e) = arc (ix2 k e) := by
  subst ho
  rw [shapeCast_1a_a_apply]
  apply extractStridedSlice_apply
  intro a
  match a with
  | ⟨0, _⟩ => rfl
  | ⟨1, _⟩ => exact (Nat.zero_add _).symm

/-- The tested word at position `e`: row 0 times 512 plus row 1, in 32-bit arithmetic — the arc's row word. -/
theorem arcWord_read (arc : IVec S2x40960 32) (h0 : S2x40960.Slices ![0, 0] S1x40960) (h1 : S2x40960.Slices ![1, 0] S1x40960)
    (hc : S1x40960.ShapeCasts S40960) (hb : S_.BroadcastsInDim S40960 ![]) (e : Fin 40960) :
    addi (muli (shapeCast S40960 (extractStridedSlice S1x40960 ![0, 0] arc h0) hc)
        (broadcastInDim S40960 ![] hb (constantI S_ 32 512#32)))
      (shapeCast S40960 (extractStridedSlice S1x40960 ![1, 0] arc h1) hc) (ix1 e) = Cert.Spec.arcWord arc e := by
  unfold Cert.Spec.arcWord
  change shapeCast S40960 (extractStridedSlice S1x40960 ![0, 0] arc h0) hc (ix1 e) * 512#32
      + shapeCast S40960 (extractStridedSlice S1x40960 ![1, 0] arc h1) hc (ix1 e) = _
  rw [row_read arc 0 0 rfl h0 hc e, row_read arc 1 1 rfl h1 hc e]

/-! ## The precondition decoded -/

/-- THE PRECONDITION DECODED: both arc tables have non-negative row words and both label tables have label words in
    `[0, 64)`. Only the last six conjuncts of the chain are opened; the fifteen before them stay one opaque operand. -/
theorem pre_facts [Cert.Pre_finite_inputs.Facts]
    (a0 : FVec Ideal S512x16x512 .f32) (a1 a2 : IVec S2x40960 32) (a3 a4 : IVec S1x40960 32)
    (a5 a6 : FVec Ideal S8192x5 .f32) (a7 : FVec Ideal S8192x1 .f32) (a8 : FVec Ideal S512x16 .f32)
    (a9 : FVec Ideal S512x512 .f32) (a10 : FVec Ideal S64x512 .f32) (a11 : FVec Ideal S512x1 .f32)
    (a12 : FVec Ideal S64x1 .f32) (a13 : FVec Ideal S512x512 .f32) (a14 : FVec Ideal S64x512 .f32)
    (a15 : FVec Ideal S512x1 .f32) (a16 : FVec Ideal S64x1 .f32) (a17 : FVec Ideal S512x512 .f32)
    (a18 : FVec Ideal S512x1 .f32)
    (h : Cert.Pre_finite_inputs.fn (F := Ideal) a0 a1 a2 a3 a4 a5 a6 a7 a8 a9 a10 a11 a12 a13 a14 a15 a16 a17 a18
      = fun _ => 1#1) :
    Cert.Spec.ArcOK a1 ∧ Cert.Spec.ArcOK a2 ∧ Cert.Spec.LabOK a3 ∧ Cert.Spec.LabOK a4 := by
  have h0 := congrFun h ix0
  dsimp only [fn, fn_part1, fn_part2, fn_part3, fn_part4, fn_part5, fn_part6] at h0
  obtain ⟨h1, c6⟩ := andi_split _ _ _ h0
  obtain ⟨h2, c5⟩ := andi_split _ _ _ h1
  obtain ⟨h3, c4⟩ := andi_split _ _ _ h2
  obtain ⟨h4, c3⟩ := andi_split _ _ _ h3
  obtain ⟨h5, c2⟩ := andi_split _ _ _ h4
  obtain ⟨-, c1⟩ := andi_split _ _ _ h5
  clear h0 h1 h2 h3 h4 h5 h
  refine ⟨fun e => ?_, fun e => ?_, fun e => ⟨?_, ?_⟩, fun e => ⟨?_, ?_⟩⟩
  · rw [← arcWord_read a1 _ _ _ _ e]
    exact all_sge_zero _ _ _ _ c1 (ix1 e)
  · rw [← arcWord_read a2 _ _ _ _ e]
    exact all_sge_zero _ _ _ _ c2 (ix1 e)
  · exact all_sge_zero _ _ _ _ c3 (ix2 (0 : Fin 1) e)
  · exact all_slt_64 _ _ _ _ c4 (ix2 (0 : Fin 1) e)
  · exact all_sge_zero _ _ _ _ c5 (ix2 (0 : Fin 1) e)
  · exact all_slt_64 _ _ _ _ c6 (ix2 (0 : Fin 1) e)

end Cert.PreFacts

end
-- ==== Proof.lean ====
/-
  The five claims of this certificate.

  Frames. Each of the two kernel programs is a chain of host operations around two kernels; every host stretch and the
  chaining are the generated conditional frame's, and each kernel enters it as a region record built from its body's
  run on one block (the matrix-product kernel: eight blocks of 1024 rows; the gated-sum kernel: sixteen blocks of 512
  rows). The reference has no kernel: its frame is its run with the result dropped.

  Values, at the ideal instance. With every arc's row word non-negative and every label word in [0, 64) (the
  precondition's last six conjuncts), both programs' results are ONE function of the nineteen arguments
  (`Cert.Spec.G`): at (position, batch, u), the sum of the row's eleven gated messages, cut off below at zero, times the
  sentence mask. The first program reaches it through its two kernels' arrays (sums over the contracted coordinate, then
  the row formula block by block); the reference through its operations read one at a time. No float input needs to be
  finite: the two sides differ only by the order of an eleven-term sum and by how a label's bias row is picked.
-/
import proofs.«415035_j27650999452124_3_alg».proof.Defs
import proofs.«415035_j27650999452124_3_alg».proof.Proof.Gen.Kernel
import proofs.«415035_j27650999452124_3_alg».proof.Proof.Gen.KernelIdeal
import proofs.«415035_j27650999452124_3_alg».proof.Proof.Gen.ReferenceIdeal
import proofs.«415035_j27650999452124_3_alg».proof.Proof.Gen.Pre_finite_inputs
import proofs.«415035_j27650999452124_3_alg».proof.Proof.B_Frame
import proofs.«415035_j27650999452124_3_alg».proof.Proof.Frame
import proofs.«415035_j27650999452124_3_alg».proof.Proof.RunValue
import proofs.«415035_j27650999452124_3_alg».proof.Proof.KernelValue
import proofs.«415035_j27650999452124_3_alg».proof.Proof.RefRun
import proofs.«415035_j27650999452124_3_alg».proof.Proof.RefValue
import proofs.«415035_j27650999452124_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the (agreeing) arguments in their result buffers. -/
theorem algebraic : Cert.algebraic_KernelIdeal_ReferenceIdeal := by
  intro m g m' g' hpre hagree
  have hp : ∀ c : Dev Cert.KernelIdeal.nD,
      Cert.Spec.ArcOK (m ((c.tc : Thread Cert.KernelIdeal.nD Cert.KernelIdeal.τ).loc Cert.KernelIdeal.main_arg1)) ∧ Cert.Spec.ArcOK (m ((c.tc : Thread Cert.KernelIdeal.nD Cert.KernelIdeal.τ).loc Cert.KernelIdeal.main_arg2)) ∧ Cert.Spec.LabOK (m ((c.tc : Thread Cert.KernelIdeal.nD Cert.KernelIdeal.τ).loc Cert.KernelIdeal.main_arg3)) ∧ Cert.Spec.LabOK (m ((c.tc : Thread Cert.KernelIdeal.nD Cert.KernelIdeal.τ).loc Cert.KernelIdeal.main_arg4)) :=
    fun c => Cert.PreFacts.pre_facts _ _ _ _ _ _ _ _ _ _ _ _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Hand.kernel_result m c (hp c).2.2.1 (hp c).2.2.2), (h c).2⟩)
      (Cert.KernelIdeal.Hand.run_value (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v114_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact Cert.RefValue.ref_eq _ _ _ _ _ _ _ _ _ _ _ _ _ _ _ _ _ _ _ (hp c).1 (hp c).2.1 (hp c).2.2.1 (hp c).2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
